-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.named_const.Statement Cert.KernelIdeal.κ "inv_2047" .f32 0x3A001002#32 ((1 / 2047 : ℝ) : EReal)
  ∧ IdealRules.named_const.Statement Cert.KernelIdeal.κ "inv_2047" .f32 0x3A001002#32 ((1 / 2047 : ℝ) : EReal)
  ∧ IdealRules.named_const.Statement Cert.KernelIdeal.κ "inv_2047" .f32 0x3A001002#32 ((1 / 2047 : ℝ) : EReal)
  ∧ IdealRules.named_const.Statement Cert.KernelIdeal.κ "inv_sqrt_dk" .f32 0x3DB504F3#32 ((1048576 / 11863283 : ℝ) : EReal)
  ∧ IdealRules.named_const.Statement Cert.KernelIdeal.κ "inv_2047" .f32 0x3A001002#32 ((1 / 2047 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part6 {F : FTy → Type} [FloatOps F] (main_arg21 : FVec F S2048x2048 .f32) (main_arg22 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x2048 .f32 := Host.absf main_arg21
  let main_cst_40 : FVec F S_ .f32 := constant S_ .f32 0x7F800000#32
  let main_v105 : FVec F S2048x2048 .f32 := broadcastInDim S2048x2048 ![] bcast_S_S2048x2048 main_cst_40
  let main_v106 : IVec S2048x2048 1 := cmpf .olt main_v104 main_v105
  let main_c_41 : IVec S_ 1 := constantI S_ 1 1#1
  let main_v107 : IVec S_ 1 := (fun x v => Host.reduce IntOp.andi x v reducesTo_S2048x2048_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  main_v113

def fn_part5 {F : FTy → Type} [FloatOps F] (main_arg18 : FVec F S2048 .f32) (main_arg19 : FVec F S2048x2048 .f32) (main_arg20 : FVec F S2048 .f32) (main_arg21 : FVec F S2048x2048 .f32) (main_arg22 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S2048 .f32) (main_arg8 : FVec F S2048 .f32) (main_arg9 : FVec F S2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S2048 .f32) (main_arg5 : FVec F S2048 .f32) (main_arg6 : FVec F S2048 .f32) (main_arg7 : FVec F S2048 .f32) (main_arg8 : FVec F S2048 .f32) (main_arg9 : FVec F S2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x2048 .f32) (main_arg1 : FVec F S8192x2048 .f32) (main_arg2 : FVec F S8192x2048 .f32) (main_arg3 : FVec F S2048 .f32) (main_arg4 : FVec F S2048 .f32) (main_arg5 : FVec F S2048 .f32) (main_arg6 : FVec F S2048 .f32) (main_arg7 : FVec F S2048 .f32) (main_arg8 : FVec F S2048 .f32) (main_arg9 : FVec F S2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x2048 : Shape := ⟨2, ![8192, 2048]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S64x2048 : Shape := ⟨2, ![64, 2048]⟩
abbrev S64x16x128 : Shape := ⟨3, ![64, 16, 128]⟩
abbrev S64x128x128 : Shape := ⟨3, ![64, 128, 128]⟩
abbrev S64x128 : Shape := ⟨2, ![64, 128]⟩
abbrev S64x128x1 : Shape := ⟨3, ![64, 128, 1]⟩
abbrev S64 : Shape := ⟨1, ![64]⟩
abbrev S64x1 : Shape := ⟨2, ![64, 1]⟩

abbrev nBuf : Space → Nat
  | .hbm => 33
  | .vmem => 42
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S8192x2048, .bf16⟩
  | .hbm, ⟨30, _⟩ => ⟨S8192x2048, .bf16⟩
  | .hbm, ⟨31, _⟩ => ⟨S8192x2048, .bf16⟩
  | .hbm, ⟨32, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S2048, .f32⟩
  | .local _ .vmem, ⟨4, _⟩ => ⟨S2048x2048, .bf16⟩
  | .local _ .vmem, ⟨5, _⟩ => ⟨S2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S2048, .f32⟩
  | .local _ .vmem, ⟨11, _⟩ => ⟨S2048, .f32⟩
  | .local _ .vmem, ⟨12, _⟩ => ⟨S2048x2048, .bf16⟩
  | .local _ .vmem, ⟨13, _⟩ => ⟨S2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S2048, .f32⟩
  | .local _ .vmem, ⟨19, _⟩ => ⟨S2048, .f32⟩
  | .local _ .vmem, ⟨20, _⟩ => ⟨S2048x2048, .bf16⟩
  | .local _ .vmem, ⟨21, _⟩ => ⟨S2048, .f32⟩
  | .local _ .vmem, ⟨22, _⟩ => ⟨S512x2048, .bf16⟩
  | .local _ .vmem, ⟨23, _⟩ => ⟨S512x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S64x2048, .bf16⟩
  | .local _ .vmem, ⟨28, _⟩ => ⟨S64x2048, .bf16⟩
  | .local _ .vmem, ⟨29, _⟩ => ⟨S64x2048, .bf16⟩
  | .local _ .vmem, ⟨30, _⟩ => ⟨S64x2048, .f32⟩
  | .local _ .vmem, ⟨31, _⟩ => ⟨S64x2048, .f32⟩
  | .local _ .vmem, ⟨32, _⟩ => ⟨S2048x2048, .bf16⟩
  | .local _ .vmem, ⟨33, _⟩ => ⟨S2048, .f32⟩
  | .local _ .vmem, ⟨34, _⟩ => ⟨S2048, .f32⟩
  | .local _ .vmem, ⟨35, _⟩ => ⟨S2048, .f32⟩
  | .local _ .vmem, ⟨36, _⟩ => ⟨S2048x2048, .bf16⟩
  | .local _ .vmem, ⟨37, _⟩ => ⟨S2048, .f32⟩
  | .local _ .vmem, ⟨38, _⟩ => ⟨S2048x2048, .bf16⟩
  | .local _ .vmem, ⟨39, _⟩ => ⟨S2048, .f32⟩
  | .local _ .vmem, ⟨40, _⟩ => ⟨S64x2048, .f32⟩
  | .local _ .vmem, ⟨41, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg12_0 : Ref sig .tc := ⟨.vmem, 40, rfl⟩
abbrev cc3_stg12_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem12_0 : DmaSem sig := 40
abbrev cc3_sem12_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S2048x2048 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2048x2048 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S2048 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S2048x2048 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S2048 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S64x2048 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S64x2048_S64x16x128 : S64x2048.ShapeCasts S64x16x128
  reduces_S64x128x128_S64x128 : S64x128x128.Reduces [2] S64x128
  shapeCasts_S64x128_S64x128x1 : S64x128.ShapeCasts S64x128x1
  broadcasts_S64x128x1_S64x128x128 : S64x128x1.Broadcasts S64x128x128
  shapeCasts_S64x16x128_S64x2048 : S64x16x128.ShapeCasts S64x2048
  broadcasts_S1x2048_S64x2048 : S1x2048.Broadcasts S64x2048
  reduces_S64x2048_S64 : S64x2048.Reduces [1] S64
  shapeCasts_S64_S64x1 : S64.ShapeCasts S64x1
  broadcasts_S64x1_S64x2048 : S64x1.Broadcasts S64x2048
  dot_S512x2048_S2048x2048_S512x2048_1_0_0_1_n_n_wf : DotDims.WF S512x2048 S2048x2048 S512x2048 [1] [0] [0] [1] [] []
  dot_S64x16x128_S64x16x128_S64x128x128_1_1_2_2_0_0_wf : DotDims.WF S64x16x128 S64x16x128 S64x128x128 [1] [1] [2] [2] [0] [0]
  dot_S64x16x128_S64x128x128_S64x16x128_2_2_1_1_0_0_wf : DotDims.WF S64x16x128 S64x128x128 S64x16x128 [2] [2] [1] [1] [0] [0]
  dot_S64x2048_S2048x2048_S64x2048_1_0_0_1_n_n_wf : DotDims.WF S64x2048 S2048x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S2048.size a
  hwx1_1 : ∀ i : grid1.Coords, EltTy.bits .f32 = 32 ∨ (Rect.block (s := S2048) S2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S2048.size a
  hwx1_4 : ∀ i : grid1.Coords, EltTy.bits .f32 = 32 ∨ (Rect.block (s := S2048) S2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S8192x2048.size a
  hwx1_5 : ∀ i : grid1.Coords, EltTy.bits .bf16 = 32 ∨ (Rect.block (s := S8192x2048) S512x2048.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .f32 = 32 ∨ (Rect.block (s := S8192x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048.size a ≤ S2048.size a
  hwx2_1 : ∀ i : grid2.Coords, EltTy.bits .f32 = 32 ∨ (Rect.block (s := S2048) S2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S2048.size a
  hwx2_2 : ∀ i : grid2.Coords, EltTy.bits .f32 = 32 ∨ (Rect.block (s := S2048) S2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S2048x2048.size a
  hwx2_3 : ∀ i : grid2.Coords, EltTy.bits .bf16 = 32 ∨ (Rect.block (s := S2048x2048) S2048x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048.size a ≤ S2048.size a
  hwx2_4 : ∀ i : grid2.Coords, EltTy.bits .f32 = 32 ∨ (Rect.block (s := S2048) S2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S8192x2048.size a
  hwx2_5 : ∀ i : grid2.Coords, EltTy.bits .bf16 = 32 ∨ (Rect.block (s := S8192x2048) S512x2048.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x2048.size a ≤ S8192x2048.size a
  hwx3_0 : ∀ i : grid3.Coords, EltTy.bits .bf16 = 32 ∨ (Rect.block (s := S8192x2048) S64x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x2048.size a ≤ S8192x2048.size a
  hwx3_1 : ∀ i : grid3.Coords, EltTy.bits .bf16 = 32 ∨ (Rect.block (s := S8192x2048) S64x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x2048.size a ≤ S8192x2048.size a
  hwx3_2 : ∀ i : grid3.Coords, EltTy.bits .bf16 = 32 ∨ (Rect.block (s := S8192x2048) S64x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x2048.size a ≤ S8192x2048.size a
  hwx3_3 : ∀ i : grid3.Coords, EltTy.bits .f32 = 32 ∨ (Rect.block (s := S8192x2048) S64x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S2048x2048.size a
  hwx3_4 : ∀ i : grid3.Coords, EltTy.bits .bf16 = 32 ∨ (Rect.block (s := S2048x2048) S2048x2048.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048.size a ≤ S2048.size a
  hwx3_5 : ∀ i : grid3.Coords, EltTy.bits .f32 = 32 ∨ (Rect.block (s := S2048) S2048.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2048.size a ≤ S2048.size a
  hwx3_6 : ∀ i : grid3.Coords, EltTy.bits .f32 = 32 ∨ (Rect.block (s := S2048) S2048.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2048.size a ≤ S2048.size a
  hwx3_7 : ∀ i : grid3.Coords, EltTy.bits .f32 = 32 ∨ (Rect.block (s := S2048) S2048.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S2048x2048.size a ≤ S2048x2048.size a
  hwx3_8 : ∀ i : grid3.Coords, EltTy.bits .bf16 = 32 ∨ (Rect.block (s := S2048x2048) S2048x2048.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S2048.size a ≤ S2048.size a
  hwx3_9 : ∀ i : grid3.Coords, EltTy.bits .f32 = 32 ∨ (Rect.block (s := S2048) S2048.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S2048x2048.size a ≤ S2048x2048.size a
  hwx3_10 : ∀ i : grid3.Coords, EltTy.bits .bf16 = 32 ∨ (Rect.block (s := S2048x2048) S2048x2048.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S2048.size a ≤ S2048.size a
  hwx3_11 : ∀ i : grid3.Coords, EltTy.bits .f32 = 32 ∨ (Rect.block (s := S2048) S2048.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S64x2048.size a ≤ S8192x2048.size a
  hwx3_12 : ∀ i : grid3.Coords, EltTy.bits .f32 = 32 ∨ (Rect.block (s := S8192x2048) S64x2048.size (cc3_transform_12 i) (hinb3_12 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S64x16x128_S64x16x128_S64x128x128_1_1_2_2_0_0 : DotDims S64x16x128 S64x16x128 S64x128x128 where
  lhsContracting := [1]
  rhsContracting := [1]
  lhsNonContracting := [2]
  rhsNonContracting := [2]
  lhsBatch := [0]
  rhsBatch := [0]
  wf := dot_S64x16x128_S64x16x128_S64x128x128_1_1_2_2_0_0_wf
def dot_S64x16x128_S64x128x128_S64x16x128_2_2_1_1_0_0 : DotDims S64x16x128 S64x128x128 S64x16x128 where
  lhsContracting := [2]
  rhsContracting := [2]
  lhsNonContracting := [1]
  rhsNonContracting := [1]
  lhsBatch := [0]
  rhsBatch := [0]
  wf := dot_S64x16x128_S64x128x128_S64x16x128_2_2_1_1_0_0_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2048x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v6) S64x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S64x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S64x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S64x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3) S2048x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S2048.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v4) S2048x2048.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg20) S2048.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v5) S2048x2048.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg22) S2048.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v9) S64x2048.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16x128 : Shape := ⟨3, ![8192, 16, 128]⟩
abbrev S8192x128x16 : Shape := ⟨3, ![8192, 128, 16]⟩
abbrev S8192x128x128 : Shape := ⟨3, ![8192, 128, 128]⟩
abbrev S8192x128 : Shape := ⟨2, ![8192, 128]⟩
abbrev S8192x128x1 : Shape := ⟨3, ![8192, 128, 1]⟩

abbrev nBuf : Space → Nat
  | .hbm => 255
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048x2048, .f32⟩
  | 12 => ⟨S2048, .f32⟩
  | 13 => ⟨S2048x2048, .f32⟩
  | 14 => ⟨S2048, .f32⟩
  | 15 => ⟨S2048x2048, .f32⟩
  | 16 => ⟨S2048, .f32⟩
  | 17 => ⟨S2048x2048, .f32⟩
  | 18 => ⟨S2048, .f32⟩
  | 19 => ⟨S2048x2048, .f32⟩
  | 20 => ⟨S2048, .f32⟩
  | 21 => ⟨S2048x2048, .f32⟩
  | 22 => ⟨S2048, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .i32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x2048, .f32⟩
  | 37 => ⟨S8192x2048, .f32⟩
  | 38 => ⟨S8192x2048, .f32⟩
  | 39 => ⟨S_, .f32⟩
  | 40 => ⟨S_, .f32⟩
  | 41 => ⟨S_, .f32⟩
  | 42 => ⟨S_, .f32⟩
  | 43 => ⟨S8192, .f32⟩
  | 44 => ⟨S8192x1, .f32⟩
  | 45 => ⟨S8192x1, .f32⟩
  | 46 => ⟨S8192x1, .f32⟩
  | 47 => ⟨S_, .f32⟩
  | 48 => ⟨S_, .i1⟩
  | 49 => ⟨S_, .f32⟩
  | 50 => ⟨S_, .f32⟩
  | 51 => ⟨S8192x1, .f32⟩
  | 52 => ⟨S8192x1, .f32⟩
  | 53 => ⟨S8192x1, .f32⟩
  | 54 => ⟨S8192x2048, .f32⟩
  | 55 => ⟨S8192x2048, .f32⟩
  | 56 => ⟨S1x2048, .f32⟩
  | 57 => ⟨S8192x2048, .f32⟩
  | 58 => ⟨S8192x2048, .f32⟩
  | 59 => ⟨S_, .f32⟩
  | 60 => ⟨S8192x1, .f32⟩
  | 61 => ⟨S8192x1, .f32⟩
  | 62 => ⟨S8192x2048, .f32⟩
  | 63 => ⟨S8192x2048, .f32⟩
  | 64 => ⟨S1x2048, .f32⟩
  | 65 => ⟨S8192x2048, .f32⟩
  | 66 => ⟨S8192x2048, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S_, .i32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S8192x2048, .f32⟩
  | 81 => ⟨S8192x2048, .f32⟩
  | 82 => ⟨S8192x2048, .f32⟩
  | 83 => ⟨S_, .f32⟩
  | 84 => ⟨S_, .f32⟩
  | 85 => ⟨S_, .f32⟩
  | 86 => ⟨S_, .f32⟩
  | 87 => ⟨S8192, .f32⟩
  | 88 => ⟨S8192x1, .f32⟩
  | 89 => ⟨S8192x1, .f32⟩
  | 90 => ⟨S8192x1, .f32⟩
  | 91 => ⟨S_, .f32⟩
  | 92 => ⟨S_, .i1⟩
  | 93 => ⟨S_, .f32⟩
  | 94 => ⟨S_, .f32⟩
  | 95 => ⟨S8192x1, .f32⟩
  | 96 => ⟨S8192x1, .f32⟩
  | 97 => ⟨S8192x1, .f32⟩
  | 98 => ⟨S8192x2048, .f32⟩
  | 99 => ⟨S8192x2048, .f32⟩
  | 100 => ⟨S1x2048, .f32⟩
  | 101 => ⟨S8192x2048, .f32⟩
  | 102 => ⟨S8192x2048, .f32⟩
  | 103 => ⟨S_, .f32⟩
  | 104 => ⟨S8192x1, .f32⟩
  | 105 => ⟨S8192x1, .f32⟩
  | 106 => ⟨S8192x2048, .f32⟩
  | 107 => ⟨S8192x2048, .f32⟩
  | 108 => ⟨S1x2048, .f32⟩
  | 109 => ⟨S8192x2048, .f32⟩
  | 110 => ⟨S8192x2048, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .i32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S8192x2048, .f32⟩
  | 125 => ⟨S8192x2048, .f32⟩
  | 126 => ⟨S8192x2048, .f32⟩
  | 127 => ⟨S_, .f32⟩
  | _ => ⟨S8192x2048, .f32⟩

abbrev hbmTy0_1 (i : Nat) : BufTy := match i % 128 with
  | 0 => ⟨S_, .f32⟩
  | 1 => ⟨S_, .f32⟩
  | 2 => ⟨S_, .f32⟩
  | 3 => ⟨S8192, .f32⟩
  | 4 => ⟨S8192x1, .f32⟩
  | 5 => ⟨S8192x1, .f32⟩
  | 6 => ⟨S8192x1, .f32⟩
  | 7 => ⟨S_, .f32⟩
  | 8 => ⟨S_, .i1⟩
  | 9 => ⟨S_, .f32⟩
  | 10 => ⟨S_, .f32⟩
  | 11 => ⟨S8192x1, .f32⟩
  | 12 => ⟨S8192x1, .f32⟩
  | 13 => ⟨S8192x1, .f32⟩
  | 14 => ⟨S8192x2048, .f32⟩
  | 15 => ⟨S8192x2048, .f32⟩
  | 16 => ⟨S1x2048, .f32⟩
  | 17 => ⟨S8192x2048, .f32⟩
  | 18 => ⟨S8192x2048, .f32⟩
  | 19 => ⟨S_, .f32⟩
  | 20 => ⟨S8192x1, .f32⟩
  | 21 => ⟨S8192x1, .f32⟩
  | 22 => ⟨S8192x2048, .f32⟩
  | 23 => ⟨S8192x2048, .f32⟩
  | 24 => ⟨S1x2048, .f32⟩
  | 25 => ⟨S8192x2048, .f32⟩
  | 26 => ⟨S8192x2048, .f32⟩
  | 27 => ⟨S8192x2048, .f32⟩
  | 28 => ⟨S1x2048, .f32⟩
  | 29 => ⟨S8192x2048, .f32⟩
  | 30 => ⟨S8192x2048, .f32⟩
  | 31 => ⟨S8192x16x128, .f32⟩
  | 32 => ⟨S8192x128x16, .f32⟩
  | 33 => ⟨S8192x2048, .f32⟩
  | 34 => ⟨S1x2048, .f32⟩
  | 35 => ⟨S8192x2048, .f32⟩
  | 36 => ⟨S8192x2048, .f32⟩
  | 37 => ⟨S8192x16x128, .f32⟩
  | 38 => ⟨S8192x128x16, .f32⟩
  | 39 => ⟨S8192x2048, .f32⟩
  | 40 => ⟨S1x2048, .f32⟩
  | 41 => ⟨S8192x2048, .f32⟩
  | 42 => ⟨S8192x2048, .f32⟩
  | 43 => ⟨S8192x16x128, .f32⟩
  | 44 => ⟨S8192x128x16, .f32⟩
  | 45 => ⟨S8192x128x128, .f32⟩
  | 46 => ⟨S_, .f32⟩
  | 47 => ⟨S8192x128x128, .f32⟩
  | 48 => ⟨S8192x128x128, .f32⟩
  | 49 => ⟨S_, .f32⟩
  | 50 => ⟨S8192x128, .f32⟩
  | 51 => ⟨S_, .f32⟩
  | 52 => ⟨S8192x128, .f32⟩
  | 53 => ⟨S8192x128, .f32⟩
  | 54 => ⟨S8192x128x1, .f32⟩
  | 55 => ⟨S8192x128x128, .f32⟩
  | 56 => ⟨S8192x128x128, .f32⟩
  | 57 => ⟨S8192x128x128, .f32⟩
  | 58 => ⟨S_, .f32⟩
  | 59 => ⟨S8192x128, .f32⟩
  | 60 => ⟨S8192x128x1, .f32⟩
  | 61 => ⟨S8192x128x128, .f32⟩
  | 62 => ⟨S8192x128x128, .f32⟩
  | 63 => ⟨S8192x128x16, .f32⟩
  | 64 => ⟨S8192x16x128, .f32⟩
  | 65 => ⟨S8192x2048, .f32⟩
  | 66 => ⟨S8192x2048, .f32⟩
  | 67 => ⟨S1x2048, .f32⟩
  | 68 => ⟨S8192x2048, .f32⟩
  | 69 => ⟨S8192x2048, .f32⟩
  | 70 => ⟨S8192x2048, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S_, .i32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S8192x2048, .f32⟩
  | 85 => ⟨S8192x2048, .f32⟩
  | 86 => ⟨S8192x2048, .f32⟩
  | 87 => ⟨S_, .f32⟩
  | 88 => ⟨S_, .f32⟩
  | 89 => ⟨S_, .f32⟩
  | 90 => ⟨S_, .f32⟩
  | 91 => ⟨S8192, .f32⟩
  | 92 => ⟨S8192x1, .f32⟩
  | 93 => ⟨S8192x1, .f32⟩
  | 94 => ⟨S8192x1, .f32⟩
  | 95 => ⟨S_, .f32⟩
  | 96 => ⟨S_, .i1⟩
  | 97 => ⟨S_, .f32⟩
  | 98 => ⟨S_, .f32⟩
  | 99 => ⟨S8192x1, .f32⟩
  | 100 => ⟨S8192x1, .f32⟩
  | 101 => ⟨S8192x1, .f32⟩
  | 102 => ⟨S8192x2048, .f32⟩
  | 103 => ⟨S8192x2048, .f32⟩
  | 104 => ⟨S1x2048, .f32⟩
  | 105 => ⟨S8192x2048, .f32⟩
  | 106 => ⟨S8192x2048, .f32⟩
  | 107 => ⟨S_, .f32⟩
  | 108 => ⟨S8192x1, .f32⟩
  | 109 => ⟨S8192x1, .f32⟩
  | 110 => ⟨S8192x2048, .f32⟩
  | 111 => ⟨S8192x2048, .f32⟩
  | 112 => ⟨S1x2048, .f32⟩
  | 113 => ⟨S8192x2048, .f32⟩
  | 114 => ⟨S8192x2048, .f32⟩
  | 115 => ⟨S8192x2048, .f32⟩
  | 116 => ⟨S1x2048, .f32⟩
  | 117 => ⟨S8192x2048, .f32⟩
  | 118 => ⟨S8192x2048, .f32⟩
  | 119 => ⟨S_, .f32⟩
  | 120 => ⟨S8192x2048, .f32⟩
  | 121 => ⟨S8192x2048, .f32⟩
  | 122 => ⟨S8192x2048, .f32⟩
  | 123 => ⟨S1x2048, .f32⟩
  | 124 => ⟨S8192x2048, .f32⟩
  | 125 => ⟨S8192x2048, .f32⟩
  | 126 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_cst_0 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_cst_1 : Ref sig .tc := ⟨.hbm, 40, rfl⟩
abbrev main_call0_call0_v8 : Ref sig .tc := ⟨.hbm, 41, rfl⟩
abbrev main_call0_call0_cst_2 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_cst_3 : Ref sig .tc := ⟨.hbm, 47, rfl⟩
abbrev main_call0_call0_v13 : Ref sig .tc := ⟨.hbm, 48, rfl⟩
abbrev main_call0_call0_cst_4 : Ref sig .tc := ⟨.hbm, 49, rfl⟩
abbrev main_call0_call0_call0_v0 : Ref sig .tc := ⟨.hbm, 50, rfl⟩
abbrev main_call0_call0_call0_v1 : Ref sig .tc := ⟨.hbm, 51, rfl⟩
abbrev main_call0_v0 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst_1 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_2 : Ref sig .tc := ⟨.hbm, 67, rfl⟩
abbrev main_v17 : Ref sig .tc := ⟨.hbm, 68, rfl⟩
abbrev main_v18 : Ref sig .tc := ⟨.hbm, 69, rfl⟩
abbrev main_cst_3 : Ref sig .tc := ⟨.hbm, 70, rfl⟩
abbrev main_v19 : Ref sig .tc := ⟨.hbm, 71, rfl⟩
abbrev main_v20 : Ref sig .tc := ⟨.hbm, 72, rfl⟩
abbrev main_c_4 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_cst_0 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_cst_1 : Ref sig .tc := ⟨.hbm, 84, rfl⟩
abbrev main_call1_call0_v8 : Ref sig .tc := ⟨.hbm, 85, rfl⟩
abbrev main_call1_call0_cst_2 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_call0_v12 : Ref sig .tc := ⟨.hbm, 90, rfl⟩
abbrev main_call1_call0_cst_3 : Ref sig .tc := ⟨.hbm, 91, rfl⟩
abbrev main_call1_call0_v13 : Ref sig .tc := ⟨.hbm, 92, rfl⟩
abbrev main_call1_call0_cst_4 : Ref sig .tc := ⟨.hbm, 93, rfl⟩
abbrev main_call1_call0_call0_v0 : Ref sig .tc := ⟨.hbm, 94, rfl⟩
abbrev main_call1_call0_call0_v1 : Ref sig .tc := ⟨.hbm, 95, rfl⟩
abbrev main_call1_v0 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_cst_5 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_cst_6 : Ref sig .tc := ⟨.hbm, 111, rfl⟩
abbrev main_v34 : Ref sig .tc := ⟨.hbm, 112, rfl⟩
abbrev main_v35 : Ref sig .tc := ⟨.hbm, 113, rfl⟩
abbrev main_cst_7 : Ref sig .tc := ⟨.hbm, 114, rfl⟩
abbrev main_v36 : Ref sig .tc := ⟨.hbm, 115, rfl⟩
abbrev main_v37 : Ref sig .tc := ⟨.hbm, 116, rfl⟩
abbrev main_c_8 : Ref sig .tc := ⟨.hbm, 117, rfl⟩
abbrev main_call2_call0_cst : Ref sig .tc := ⟨.hbm, 118, rfl⟩
abbrev main_call2_call0_v0 : Ref sig .tc := ⟨.hbm, 119, rfl⟩
abbrev main_call2_call0_v1 : Ref sig .tc := ⟨.hbm, 120, rfl⟩
abbrev main_call2_call0_cst_0 : Ref sig .tc := ⟨.hbm, 121, rfl⟩
abbrev main_call2_call0_v2 : Ref sig .tc := ⟨.hbm, 122, rfl⟩
abbrev main_call2_call0_v3 : Ref sig .tc := ⟨.hbm, 123, rfl⟩
abbrev main_call2_call0_v4 : Ref sig .tc := ⟨.hbm, 124, rfl⟩
abbrev main_call2_call0_v5 : Ref sig .tc := ⟨.hbm, 125, rfl⟩
abbrev main_call2_call0_v6 : Ref sig .tc := ⟨.hbm, 126, rfl⟩
abbrev main_call2_call0_v7 : Ref sig .tc := ⟨.hbm, 127, rfl⟩
abbrev main_call2_call0_cst_1 : Ref sig .tc := ⟨.hbm, 128, rfl⟩
abbrev main_call2_call0_v8 : Ref sig .tc := ⟨.hbm, 129, rfl⟩
abbrev main_call2_call0_cst_2 : Ref sig .tc := ⟨.hbm, 130, rfl⟩
abbrev main_call2_call0_v9 : Ref sig .tc := ⟨.hbm, 131, rfl⟩
abbrev main_call2_call0_v10 : Ref sig .tc := ⟨.hbm, 132, rfl⟩
abbrev main_call2_call0_v11 : Ref sig .tc := ⟨.hbm, 133, rfl⟩
abbrev main_call2_call0_v12 : Ref sig .tc := ⟨.hbm, 134, rfl⟩
abbrev main_call2_call0_cst_3 : Ref sig .tc := ⟨.hbm, 135, rfl⟩
abbrev main_call2_call0_v13 : Ref sig .tc := ⟨.hbm, 136, rfl⟩
abbrev main_call2_call0_cst_4 : Ref sig .tc := ⟨.hbm, 137, rfl⟩
abbrev main_call2_call0_call0_v0 : Ref sig .tc := ⟨.hbm, 138, rfl⟩
abbrev main_call2_call0_call0_v1 : Ref sig .tc := ⟨.hbm, 139, rfl⟩
abbrev main_call2_v0 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_cst_9 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_cst_10 : Ref sig .tc := ⟨.hbm, 174, rfl⟩
abbrev main_v70 : Ref sig .tc := ⟨.hbm, 175, rfl⟩
abbrev main_v71 : Ref sig .tc := ⟨.hbm, 176, rfl⟩
abbrev main_cst_11 : Ref sig .tc := ⟨.hbm, 177, rfl⟩
abbrev main_v72 : Ref sig .tc := ⟨.hbm, 178, rfl⟩
abbrev main_cst_12 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_cst_13 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_cst_14 : Ref sig .tc := ⟨.hbm, 199, rfl⟩
abbrev main_v91 : Ref sig .tc := ⟨.hbm, 200, rfl⟩
abbrev main_v92 : Ref sig .tc := ⟨.hbm, 201, rfl⟩
abbrev main_cst_15 : Ref sig .tc := ⟨.hbm, 202, rfl⟩
abbrev main_v93 : Ref sig .tc := ⟨.hbm, 203, rfl⟩
abbrev main_v94 : Ref sig .tc := ⟨.hbm, 204, rfl⟩
abbrev main_c_16 : Ref sig .tc := ⟨.hbm, 205, rfl⟩
abbrev main_call3_call0_cst : Ref sig .tc := ⟨.hbm, 206, rfl⟩
abbrev main_call3_call0_v0 : Ref sig .tc := ⟨.hbm, 207, rfl⟩
abbrev main_call3_call0_v1 : Ref sig .tc := ⟨.hbm, 208, rfl⟩
abbrev main_call3_call0_cst_0 : Ref sig .tc := ⟨.hbm, 209, rfl⟩
abbrev main_call3_call0_v2 : Ref sig .tc := ⟨.hbm, 210, rfl⟩
abbrev main_call3_call0_v3 : Ref sig .tc := ⟨.hbm, 211, rfl⟩
abbrev main_call3_call0_v4 : Ref sig .tc := ⟨.hbm, 212, rfl⟩
abbrev main_call3_call0_v5 : Ref sig .tc := ⟨.hbm, 213, rfl⟩
abbrev main_call3_call0_v6 : Ref sig .tc := ⟨.hbm, 214, rfl⟩
abbrev main_call3_call0_v7 : Ref sig .tc := ⟨.hbm, 215, rfl⟩
abbrev main_call3_call0_cst_1 : Ref sig .tc := ⟨.hbm, 216, rfl⟩
abbrev main_call3_call0_v8 : Ref sig .tc := ⟨.hbm, 217, rfl⟩
abbrev main_call3_call0_cst_2 : Ref sig .tc := ⟨.hbm, 218, rfl⟩
abbrev main_call3_call0_v9 : Ref sig .tc := ⟨.hbm, 219, rfl⟩
abbrev main_call3_call0_v10 : Ref sig .tc := ⟨.hbm, 220, rfl⟩
abbrev main_call3_call0_v11 : Ref sig .tc := ⟨.hbm, 221, rfl⟩
abbrev main_call3_call0_v12 : Ref sig .tc := ⟨.hbm, 222, rfl⟩
abbrev main_call3_call0_cst_3 : Ref sig .tc := ⟨.hbm, 223, rfl⟩
abbrev main_call3_call0_v13 : Ref sig .tc := ⟨.hbm, 224, rfl⟩
abbrev main_call3_call0_cst_4 : Ref sig .tc := ⟨.hbm, 225, rfl⟩
abbrev main_call3_call0_call0_v0 : Ref sig .tc := ⟨.hbm, 226, rfl⟩
abbrev main_call3_call0_call0_v1 : Ref sig .tc := ⟨.hbm, 227, rfl⟩
abbrev main_call3_v0 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_v100 : Ref sig .tc := ⟨.hbm, 234, rfl⟩
abbrev main_cst_17 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_v107 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_v111 : Ref sig .tc := ⟨.hbm, 246, rfl⟩
abbrev main_call4_cst : Ref sig .tc := ⟨.hbm, 247, rfl⟩
abbrev main_call4_v0 : Ref sig .tc := ⟨.hbm, 248, rfl⟩
abbrev main_v112 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_v116 : Ref sig .tc := ⟨.hbm, 253, rfl⟩
abbrev main_v117 : Ref sig .tc := ⟨.hbm, 254, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S8192x16x128 : S8192x2048.ShapeCasts S8192x16x128
  transposes_S8192x16x128_S8192x128x16_0_2_1 : S8192x16x128.Transposes [0, 2, 1] S8192x128x16
  bcast_S_S8192x128x128 : S_.BroadcastsInDim S8192x128x128 (![] : Fin 0 → Fin S8192x128x128.rank)
  reducesTo_S8192x128x128_S8192x128_d2 : S8192x128x128.ReducesTo [2] S8192x128
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  bcast_S8192x128x1_S8192x128x128_0_1_2 : S8192x128x1.BroadcastsInDim S8192x128x128 (![0, 1, 2] : Fin 3 → Fin S8192x128x128.rank)
  transposes_S8192x128x16_S8192x16x128_0_2_1 : S8192x128x16.Transposes [0, 2, 1] S8192x16x128
  shapeCasts_S8192x16x128_S8192x2048 : S8192x16x128.ShapeCasts S8192x2048
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []
  dot_S8192x128x16_S8192x128x16_S8192x128x128_2_2_1_1_0_0_wf : DotDims.WF S8192x128x16 S8192x128x16 S8192x128x128 [2] [2] [1] [1] [0] [0]
  dot_S8192x128x128_S8192x128x16_S8192x128x16_2_1_1_2_0_0_wf : DotDims.WF S8192x128x128 S8192x128x16 S8192x128x16 [2] [1] [1] [2] [0] [0]

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x128x16_S8192x128x16_S8192x128x128_2_2_1_1_0_0 : DotDims S8192x128x16 S8192x128x16 S8192x128x128 where
  lhsContracting := [2]
  rhsContracting := [2]
  lhsNonContracting := [1]
  rhsNonContracting := [1]
  lhsBatch := [0]
  rhsBatch := [0]
  wf := dot_S8192x128x16_S8192x128x16_S8192x128x128_2_2_1_1_0_0_wf
def dot_S8192x128x128_S8192x128x16_S8192x128x16_2_1_1_2_0_0 : DotDims S8192x128x128 S8192x128x16 S8192x128x16 where
  lhsContracting := [2]
  rhsContracting := [1]
  lhsNonContracting := [1]
  rhsNonContracting := [2]
  lhsBatch := [0]
  rhsBatch := [0]
  wf := dot_S8192x128x128_S8192x128x16_S8192x128x16_2_1_1_2_0_0_wf

class Facts : Prop extends Facts₀ where

variable [Facts]
-- ==== Proof.Spec.lean ====
/-
  The mathematics of the certificate, over the extended reals, with no program in sight.

  One token (one row of the [8192, 2048] activations) is processed independently of every other:
  a pre-norm (mean, centred row, unbiased standard deviation, affine), a linear projection, a
  per-token attention over the 16 heads of width 128 (scores contract the head axis, a softmax
  along the last axis, the context contracts the softmax axis), an output projection with a
  residual, a second pre-norm and a two-layer ReLU network with a second residual.
  `G` is the whole result array as one function of the argument arrays.
-/
import Idealize.ShloMosaic.PureOps.Ideal
import Idealize.ShloMosaic.Lib.ValueIdx

noncomputable section

namespace Cert.Spec

open Idealize.ShloMosaic Idealize.ShloMosaic.ValueIdx

/-- A row of width 2048 and a 2048 × 2048 matrix, as functions. -/
abbrev Row : Type := Fin 2048 → EReal
abbrev Mat : Type := Fin 2048 → Fin 2048 → EReal

/-- The arrays as the programs hold them. -/
abbrev Arr2 : Type := (⟨2, ![8192, 2048]⟩ : Shape).Idx → EReal
abbrev ArrW : Type := (⟨2, ![2048, 2048]⟩ : Shape).Idx → EReal
abbrev Arr1 : Type := (⟨1, ![2048]⟩ : Shape).Idx → EReal

/-- The float words both programs carry: 2048, 1e-6 (as f32), minus infinity, zero. -/
def c2048 : EReal := Ideal.ofBits .f32 0x45000000#32
def eps : EReal := Ideal.ofBits .f32 0x358637BD#32
def negInf : EReal := Ideal.ofBits .f32 0xFF800000#32
def zero32 : EReal := Ideal.ofBits .f32 0x00000000#32
/-- The two exact constants: 1/2047 (the unbiased variance's factor) and the reciprocal of the
    reference's divisor under the scores, the f32 nearest to sqrt 128, which is 11863283 / 2^20. -/
def invN1 : EReal := ((1 / 2047 : ℝ) : EReal)
def scale : EReal := ((1048576 / 11863283 : ℝ) : EReal)

/-! ## One row -/

def mean (x : Row) : EReal := Ideal.div (∑ k : Fin 2048, x k) c2048
def cen (x : Row) : Row := fun j => x j - mean x
def sd (x : Row) : EReal := Ideal.sqrt ((∑ k : Fin 2048, cen x k * cen x k) * invN1)
/-- The pre-norm: `a · (x − mean) / (sd + eps) + b`. -/
def norm (a b x : Row) : Row := fun j => Ideal.div (a j * cen x j) (sd x + eps) + b j
/-- A row times a matrix. -/
def lin (W : Mat) (x : Row) : Row := fun j => ∑ k : Fin 2048, x k * W k j
def proj (W : Mat) (bias x : Row) : Row := fun j => lin W x j + bias j

/-- Position `a` of head `h` in a row of 16 heads of width 128. -/
def hd (h : Fin 16) (a : Fin 128) : Fin 2048 := ⟨128 * h.val + a.val, by omega⟩
def headOf (j : Fin 2048) : Fin 16 := ⟨j.val / 128, by omega⟩
def posOf (j : Fin 2048) : Fin 128 := ⟨j.val % 128, by omega⟩

/-- Scores: contract the head axis, then scale. -/
def score (Q K : Row) (a b : Fin 128) : EReal := (∑ h : Fin 16, Q (hd h a) * K (hd h b)) * scale
/-- The maximum of 128 values, from minus infinity. -/
def rmax (s : Fin 128 → EReal) : EReal := (Finset.univ : Finset (Fin 128)).fold max negInf s
def ex (Q K : Row) (a b : Fin 128) : EReal := Ideal.exp (score Q K a b - rmax (score Q K a))
def prob (Q K : Row) (a b : Fin 128) : EReal := Ideal.div (ex Q K a b) (∑ b' : Fin 128, ex Q K a b')
/-- The context, flattened head-major: entry `128 h + a` contracts the softmax axis. -/
def ctx (Q K V : Row) : Row := fun j => ∑ b : Fin 128, V (hd (headOf j) b) * prob Q K (posOf j) b

/-- The residual stream after attention. -/
def x1 (Q K V v : Row) (Wo : Mat) (bo : Row) : Row := fun j => (v j + lin Wo (ctx Q K V) j) + bo j
def relu (y : Row) : Row := fun j => max (y j) zero32
/-- The feed-forward block with its residual. -/
def ffn (x : Row) (n2a n2b : Row) (W1 : Mat) (b1 : Row) (W2 : Mat) (b2 : Row) : Row :=
  fun j => (x j + lin W2 (relu (proj W1 b1 (norm n2a n2b x))) j) + b2 j
def outRow (Q K V v : Row) (Wo : Mat) (bo n2a n2b : Row) (W1 : Mat) (b1 : Row) (W2 : Mat) (b2 : Row) : Row :=
  ffn (x1 Q K V v Wo bo) n2a n2b W1 b1 W2 b2

/-! ## The arrays -/

def rowOf (X : Arr2) (n : Fin 8192) : Row := fun j => X (ix2 n j)
def matOf (W : ArrW) : Mat := fun k j => W (ix2 k j)
def vecOf (a : Arr1) : Row := fun j => a (ix1 j)
def row0 (i : (⟨2, ![8192, 2048]⟩ : Shape).Idx) : Fin 8192 := ⟨(i 0).val, idx2_lt0 i⟩
def col1 (i : (⟨2, ![8192, 2048]⟩ : Shape).Idx) : Fin 2048 := ⟨(i 1).val, idx2_lt1 i⟩

/-- Pre-norm and projection of every row. -/
def NP (X : Arr2) (a b : Arr1) (W : ArrW) (bias : Arr1) : Arr2 :=
  fun i => proj (matOf W) (vecOf bias) (norm (vecOf a) (vecOf b) (rowOf X (row0 i))) (col1 i)

/-- Attention, output projection, residual, pre-norm, feed-forward, residual, of every row. -/
def AF (Qp Kp Vp v : Arr2) (Wo : ArrW) (bo n2a n2b : Arr1) (W1 : ArrW) (b1 : Arr1) (W2 : ArrW) (b2 : Arr1) : Arr2 :=
  fun i => outRow (rowOf Qp (row0 i)) (rowOf Kp (row0 i)) (rowOf Vp (row0 i)) (rowOf v (row0 i))
    (matOf Wo) (vecOf bo) (vecOf n2a) (vecOf n2b) (matOf W1) (vecOf b1) (matOf W2) (vecOf b2) (col1 i)

/-- The whole result. -/
def G (q k v : Arr2) (nq_a nq_b nk_a nk_b nv_a nv_b n2_a n2_b : Arr1)
    (Wq : ArrW) (bq : Arr1) (Wk : ArrW) (bk : Arr1) (Wv : ArrW) (bv : Arr1) (Wo : ArrW) (bo : Arr1)
    (W1 : ArrW) (b1 : Arr1) (W2 : ArrW) (b2 : Arr1) : Arr2 :=
  AF (NP q nq_a nq_b Wq bq) (NP k nk_a nk_b Wk bk) (NP v nv_a nv_b Wv bv) v Wo bo n2_a n2_b W1 b1 W2 b2

end Cert.Spec

end
-- ==== Proof.KKeep.lean ====
/-
  Which buffers the idealized kernel program's stages leave alone.

  @main is a stretch of six host conversions (each weight matrix rounded to bf16, which over the
  extended reals is the identity) and four kernel regions.  A region changes exactly one array, its
  output; a host conversion writes exactly its own result.  So a buffer read at a later region's
  entry is what it was at the launch, unless it is one of the six converted weights (then it is the
  launch weight, converted) or an earlier region's output.
-/
import proofs.«414706_j8890582303248_3_alg».proof.Proof.Gen.KernelIdeal.Frame
import Idealize.ShloMosaic.Lib.StableHlo.Run

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg)

/-- The host stretch before region 0 writes only the six converted weights. -/
theorem W1_keep (c : Dev nD) (b : Ref sig .tc) (h0 : b ≠ main_v0) (h1 : b ≠ main_v1) (h2 : b ≠ main_v2)
    (h3 : b ≠ main_v3) (h4 : b ≠ main_v4) (h5 : b ≠ main_v5) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))).trans rfl

/-- Region 0 writes only its output array: every other buffer leaves the region as it entered
    (an input window's array is read, never written; a buffer that is no window is not touched). -/
theorem W2_keep (c : Dev nD) (b : Ref sig .tc) (hb : b ≠ main_v6) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W2_arr m ρ c w).trans (((dat0 (V1 m ρ) c).arrAt_in w hin _).trans (A_eq0 (V1 m ρ) c w))
  · exact W2_of_ne m ρ c b (fun w e => h ⟨w, e⟩)

/-- Region 1 writes only its output array: every other buffer leaves the region as it entered
    (an input window's array is read, never written; a buffer that is no window is not touched). -/
theorem W3_keep (c : Dev nD) (b : Ref sig .tc) (hb : b ≠ main_v7) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W3_arr m ρ c w).trans (((dat1 (V2 m ρ) c).arrAt_in w hin _).trans (A_eq1 (V2 m ρ) c w))
  · exact W3_of_ne m ρ c b (fun w e => h ⟨w, e⟩)

/-- Region 2 writes only its output array: every other buffer leaves the region as it entered
    (an input window's array is read, never written; a buffer that is no window is not touched). -/
theorem W4_keep (c : Dev nD) (b : Ref sig .tc) (hb : b ≠ main_v8) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W4_arr m ρ c w).trans (((dat2 (V3 m ρ) c).arrAt_in w hin _).trans (A_eq2 (V3 m ρ) c w))
  · exact W4_of_ne m ρ c b (fun w e => h ⟨w, e⟩)

/-- So a buffer that is neither a converted weight nor a region's output is, at region 3's entry,
    what it was at the launch. -/
theorem W4_launch (c : Dev nD) (b : Ref sig .tc) (h0 : b ≠ main_v0) (h1 : b ≠ main_v1) (h2 : b ≠ main_v2)
    (h3 : b ≠ main_v3) (h4 : b ≠ main_v4) (h5 : b ≠ main_v5) (h6 : b ≠ main_v6) (h7 : b ≠ main_v7) (h8 : b ≠ main_v8) :
    W4 m ρ c (Proc.devRef .tc b) = m ((c : Thread nD τ).loc b) :=
  (W4_keep m ρ c b h8).trans ((W3_keep m ρ c b h7).trans ((W2_keep m ρ c b h6).trans (W1_keep m ρ c b h0 h1 h2 h3 h4 h5)))

end Cert.KernelIdeal.Val

end
-- ==== Proof.KReg0.lean ====
/-
  Region 0 of the kernel: the pre-norm and projection of the activations, 512 rows at a point.
  What the region leaves in its result array, as one function of the arrays it finds: every row
  normalised (mean, centred row, unbiased standard deviation, affine) and multiplied by the weight,
  plus the bias. First the body's stored value at an index, then the blocks put together.
-/
import proofs.«414706_j8890582303248_3_alg».proof.Proof.Gen.KernelIdeal.Frame
import proofs.«414706_j8890582303248_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Reg0

/-! ## The body's layout operations, read at an index

The body keeps a row statistic as a `[512, 1]` column (a sum over the lanes, cast from `[512]`) and
spreads it back over the 2048 lanes; the per-lane parameters enter as `[1, 2048]` rows spread over
the 512 rows (those two are in the library). -/

section Layout
variable {α : Type}

/-- A `[512]` vector cast to a `[512, 1]` column reads, at `(r, u)`, the operand at `r`. -/
theorem colCast_apply (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_two, Shape.rowMajor_val_one]
    show r.val = r.val * 1 + u.val
    omega)

/-- A `[512, 1]` column spread over 2048 lanes reads, at `(r, k)`, the column at `r`. -/
theorem colSpread_apply (v : S512x1.Idx → α) (h : S512x1.Broadcasts S512x2048) (r : Fin 512) (k : Fin 2048) :
    broadcastTo S512x2048 v h (ix2 r k) = v (ix2 r (0 : Fin 1)) := by
  refine broadcastTo_apply v h (ix2 r k) (ix2 r (0 : Fin 1)) fun ax => ?_
  match ax with
  | ⟨0, _⟩ => rfl
  | ⟨1, _⟩ => rfl

end Layout

/-- A sum over the lanes of a `[512, 2048]` block, at row `r`, is the sum of that row's 2048 entries. -/
theorem laneSum_apply (x : FVec Ideal S512x2048 .f32) (h : S512x2048.Reduces [1] S512) (hφ : FKind.Formats .f32)
    (hacc : (0x00000000#32 : BitVec 32) = 0x00000000#32) (r : Fin 512) :
    multiReduction (F := Ideal) .add [1] S512 x 0x00000000#32 h hφ hacc (ix1 r)
      = ∑ k : Fin 2048, x (ix2 r k) :=
  (Ideal.multiReduction_add_single x 0x00000000#32 h hφ hacc (ix1 r)).trans
    (Finset.sum_congr rfl fun k _ => congrArg x (funext fun a => Fin.ext (by
      match a with
      | ⟨0, _⟩ => rfl
      | ⟨1, _⟩ => rfl)))

/-- The named reciprocal is the rational `1 / 2047`, by the certificate's table. -/
theorem inv2047 : Named.named (F := Ideal) Cert.KernelIdeal.κ "inv_2047" (φ := .f32) 0x3A001002#32 = Spec.invN1 :=
  IdealRules.named_const.ideal_named_scalar _ _ _ _ rfl

/-! ## The projection's contraction, re-indexed

The body's matrix product contracts axis 1 of the `[512, 2048]` block with axis 0 of the
`[2048, 2048]` weight: at output `(r, j)` and contraction position `k` the operands are read at
`(r, k)` and `(k, j)`. -/

theorem lhs_proj_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

theorem lhs_proj_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q

theorem rhs_proj_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q

theorem rhs_proj_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The product into the zero accumulator, at `(r, j)`: the sum over `k` of the left operand at
    `(r, k)` times the right operand at `(k, j)`. -/
theorem proj_matmul_apply (a : FVec Ideal S512x2048 .bf16) (w : FVec Ideal S2048x2048 .bf16) (r : Fin 512) (j : Fin 2048) :
    matmul (F := Ideal) dot_S512x2048_S2048x2048_S512x2048_1_0_0_1_n_n none a w (constant (F := Ideal) S512x2048 .f32 0x00000000#32) (ix2 r j)
      = ∑ k : Fin 2048, a (ix2 r k) * w (ix2 k j) := by
  simp only [matmul]
  rw [Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 r j)
      ((contrEquiv1 dot_S512x2048_S2048x2048_S512x2048_1_0_0_1_n_n 2048 rfl rfl).symm k) = ix2 r k :=
    funext fun ax => Fin.ext (by
      match ax with
      | ⟨0, _⟩ => exact lhs_proj_0 _ _
      | ⟨1, _⟩ => exact (lhs_proj_1 _ _).trans hk)
  have er : dot_S512x2048_S2048x2048_S512x2048_1_0_0_1_n_n.rhsIdx (ix2 r j)
      ((contrEquiv1 dot_S512x2048_S2048x2048_S512x2048_1_0_0_1_n_n 2048 rfl rfl).symm k) = ix2 k j :=
    funext fun ax => Fin.ext (by
      match ax with
      | ⟨0, _⟩ => exact (rhs_proj_0 _ _).trans hk
      | ⟨1, _⟩ => exact rhs_proj_1 _ _)
  rw [el, er]

/-! ## The body's result at an index -/

/-- A square root of a vector, at an index. -/
theorem sqrt_apply {s : Shape} {φ : FTy} (a : FVec Ideal s φ) (i : s.Idx) : sqrt a i = Ideal.sqrt (a i) := rfl

/-- The body's one stored value at `(r, j)`: the pre-norm of row `r` of the block, projected, at
    lane `j` (the rounding to the stored format is the identity on the extended reals). -/
theorem pay_apply (x0 : Vec Ideal S512x2048 .f32) (x1 x2 : Vec Ideal S2048 .f32) (x3 : Vec Ideal S2048x2048 .bf16)
    (x4 : Vec Ideal S2048 .f32) (r : Fin 512) (j : Fin 2048) :
    k0_pay1 (F := Ideal) x0 x1 x2 x3 x4 (ix2 r j)
      = Spec.proj (fun k l => x3 (ix2 k l)) (fun l => x4 (ix1 l))
          (Spec.norm (fun l => x1 (ix1 l)) (fun l => x2 (ix1 l)) (fun l => x0 (ix2 r l))) j := by
  unfold k0_pay1
  simp only [truncf_apply, addf_apply, broadcastTo_1b_ab_apply, shapeCast_a_1a_apply, shapeCast_self,
    proj_matmul_apply, divf_apply, mulf_apply, subf_apply, colSpread_apply, colCast_apply, broadcast_apply,
    sqrt_apply, inv2047]
  rw [laneSum_apply, laneSum_apply]
  simp only [mulf_apply, subf_apply, divf_apply, colSpread_apply, colCast_apply, broadcast_apply]
  rw [laneSum_apply]
  unfold Spec.proj Spec.lin Spec.norm Spec.sd Spec.cen Spec.mean Spec.c2048 Spec.eps
  rfl

/-! ## From the blocks to the array

Point `t` of the grid reads rows `512 t … 512 t + 511` of the activations and the four parameter
arrays whole, and writes the same rows of the result. -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 16 points: the activations' and the result's block index
    is `(t, 0)`, every parameter's is zero. -/
theorem idx_facts0 : ∀ t : Fin cfg0.N,
    win0_0.index t (0 : Fin 2) = t.val ∧ win0_0.index t (1 : Fin 2) = 0
    ∧ win0_1.index t (0 : Fin 1) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The activations' block at point `t`, at `(r, l)`, is the array at row `512 t + r`. -/
theorem blk0_0_apply (c : Dev nD) (t : Fin cfg0.N) (r : Fin 512) (l : Fin 2048) (n : Fin 8192)
    (hn : n.val = 512 * t.val + r.val) :
    (iblk0 V c 0 t : Vec Ideal S512x2048 .f32) (ix2 r l) = (V c main_arg0 : S8192x2048.Idx → EReal) (ix2 n l) := by
  obtain ⟨e0, e1, -⟩ := idx_facts0 t
  unfold iblk0
  rw [View.read_apply]
  show (V c main_arg0 : S8192x2048.Idx → EReal) _ = _
  congr 1
  funext a
  apply Fin.ext
  match a with
  | ⟨0, _⟩ => show win0_0.index t (0 : Fin 2) * 512 + 1 * r.val = n.val; rw [e0, hn]; omega
  | ⟨1, _⟩ => show win0_0.index t (1 : Fin 2) * 2048 + 1 * l.val = l.val; rw [e1]; omega

/-- A parameter vector's block is the vector. -/
theorem blk0_1_apply (c : Dev nD) (t : Fin cfg0.N) (l : Fin 2048) :
    (iblk0 V c 1 t : Vec Ideal S2048 .f32) (ix1 l) = (V c main_arg3 : S2048.Idx → EReal) (ix1 l) := by
  obtain ⟨-, -, e, -⟩ := idx_facts0 t
  unfold iblk0
  rw [View.read_apply]
  show (V c main_arg3 : S2048.Idx → EReal) _ = _
  congr 1
  funext a
  apply Fin.ext
  match a with
  | ⟨0, _⟩ => show win0_1.index t (0 : Fin 1) * 2048 + 1 * l.val = l.val; rw [e]; omega

theorem blk0_2_apply (c : Dev nD) (t : Fin cfg0.N) (l : Fin 2048) :
    (iblk0 V c 2 t : Vec Ideal S2048 .f32) (ix1 l) = (V c main_arg4 : S2048.Idx → EReal) (ix1 l) := by
  obtain ⟨-, -, -, e, -⟩ := idx_facts0 t
  unfold iblk0
  rw [View.read_apply]
  show (V c main_arg4 : S2048.Idx → EReal) _ = _
  congr 1
  funext a
  apply Fin.ext
  match a with
  | ⟨0, _⟩ => show win0_2.index t (0 : Fin 1) * 2048 + 1 * l.val = l.val; rw [e]; omega

/-- The weight's block is the weight. -/
theorem blk0_3_apply (c : Dev nD) (t : Fin cfg0.N) (k l : Fin 2048) :
    (iblk0 V c 3 t : Vec Ideal S2048x2048 .bf16) (ix2 k l) = (V c main_v0 : S2048x2048.Idx → EReal) (ix2 k l) := by
  obtain ⟨-, -, -, -, e0, e1, -⟩ := idx_facts0 t
  unfold iblk0
  rw [View.read_apply]
  show (V c main_v0 : S2048x2048.Idx → EReal) _ = _
  congr 1
  funext a
  apply Fin.ext
  match a with
  | ⟨0, _⟩ => show win0_3.index t (0 : Fin 2) * 2048 + 1 * k.val = k.val; rw [e0]; omega
  | ⟨1, _⟩ => show win0_3.index t (1 : Fin 2) * 2048 + 1 * l.val = l.val; rw [e1]; omega

theorem blk0_4_apply (c : Dev nD) (t : Fin cfg0.N) (l : Fin 2048) :
    (iblk0 V c 4 t : Vec Ideal S2048 .f32) (ix1 l) = (V c main_arg12 : S2048.Idx → EReal) (ix1 l) := by
  obtain ⟨-, -, -, -, -, -, e, -⟩ := idx_facts0 t
  unfold iblk0
  rw [View.read_apply]
  show (V c main_arg12 : S2048.Idx → EReal) _ = _
  congr 1
  funext a
  apply Fin.ext
  match a with
  | ⟨0, _⟩ => show win0_4.index t (0 : Fin 1) * 2048 + 1 * l.val = l.val; rw [e]; omega

/-- What point `t` writes back is block `t` of the pre-norm and projection of the whole array. -/
theorem flushed0_eq (c : Dev nD) (t : Fin cfg0.N) :
    (dat0 (F := Ideal) V c).flushed 5 t
      = ((cfg0.win 5).blk t).view.read (Elt Ideal)
          (Spec.NP (V c main_arg0) (V c main_arg3) (V c main_arg4) (V c main_v0) (V c main_arg12)) := by
  show (cfg0.win 5).cut (grid0.coords t) ((dat0 (F := Ideal) V c).after 5 t) = _
  rw [after0_5]
  unfold out0_5
  rw [View.canon_unit_zero zero2]
  simp only [View.ld_unit_zero (S := S512x2048) zero2, View.ld_unit_zero (S := S2048) zero1,
    View.ld_unit_zero (S := S2048x2048) zero2]
  obtain ⟨-, -, -, -, -, -, -, e0, e1⟩ := idx_facts0 t
  funext y
  show k0_pay1 (F := Ideal) (iblk0 V c 0 t) (iblk0 V c 1 t) (iblk0 V c 2 t) (iblk0 V c 3 t) (iblk0 V c 4 t) y
    = Spec.NP (V c main_arg0) (V c main_arg3) (V c main_arg4) (V c main_v0) (V c main_arg12)
        (((cfg0.win 5).blk t).view.emb y)
  refine (congrArg _ (eq_ix2 y)).trans ((pay_apply _ _ _ _ _ (y 0) (y 1)).trans ?_)
  have hW : (fun k l : Fin 2048 => (iblk0 V c 3 t : Vec Ideal S2048x2048 .bf16) (ix2 k l)) = Spec.matOf (V c main_v0) :=
    funext fun k => funext fun l => blk0_3_apply V c t k l
  have hb : (fun l : Fin 2048 => (iblk0 V c 4 t : Vec Ideal S2048 .f32) (ix1 l)) = Spec.vecOf (V c main_arg12) :=
    funext fun l => blk0_4_apply V c t l
  have ha : (fun l : Fin 2048 => (iblk0 V c 1 t : Vec Ideal S2048 .f32) (ix1 l)) = Spec.vecOf (V c main_arg3) :=
    funext fun l => blk0_1_apply V c t l
  have hn : (fun l : Fin 2048 => (iblk0 V c 2 t : Vec Ideal S2048 .f32) (ix1 l)) = Spec.vecOf (V c main_arg4) :=
    funext fun l => blk0_2_apply V c t l
  have hx : (fun l : Fin 2048 => (iblk0 V c 0 t : Vec Ideal S512x2048 .f32) (ix2 (y 0) l))
      = Spec.rowOf (V c main_arg0) (Spec.row0 (((cfg0.win 5).blk t).view.emb y)) :=
    funext fun l => blk0_0_apply V c t (y 0) l _ (by
      show win0_5.index t (0 : Fin 2) * 512 + 1 * (y 0).val = 512 * t.val + (y 0).val
      rw [e0]; omega)
  have hj : (y 1 : Fin 2048) = Spec.col1 (((cfg0.win 5).blk t).view.emb y) := Fin.ext (by
    show (y 1).val = win0_5.index t (1 : Fin 2) * 2048 + 1 * (y 1).val
    rw [e1]; omega)
  rw [hW, hb, ha, hn, hx, hj]
  rfl

/-- An index of the result is in point `t`'s block iff each coordinate is in the block's range. -/
theorem mem_blk0 (t : Fin cfg0.N) (i : S8192x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v6).slice (win0_5.rect t)).set ↔ _
  rw [View.set_slice_whole, Rect.mem_set_unit]
  exact Iff.rfl

end Reg0

variable (V : (c : Dev nD) → (b : Ref sig .tc) → Buf (Elt Ideal) ((c : Thread nD τ).loc b))

/-- REGION 0: the result array after the region is the pre-norm and projection of every row. -/
theorem region0_arr (c : Dev nD) :
    (dat0 (F := Ideal) V c).arrAt 5 cfg0.N
      = Spec.NP (V c main_arg0) (V c main_arg3) (V c main_arg4) (V c main_v0) (V c main_arg12) :=
  (dat0 (F := Ideal) V c).arrAt_eq_of_cover 5 _ (fun t _ => Reg0.flushed0_eq V c t) fun i => by
    have hN : cfg0.N = 16 := N_0
    have hi0 : (i 0).val < 8192 := (i 0).isLt
    have hi1 : (i 1).val < 2048 := (i 1).isLt
    obtain ⟨t, ht⟩ : ∃ t : Fin cfg0.N, t.val = (i 0).val / 512 := ⟨⟨(i 0).val / 512, by omega⟩, rfl⟩
    obtain ⟨-, -, -, -, -, -, -, e0, e1⟩ := Reg0.idx_facts0 t
    refine ⟨t, flush0_5 t, ?_⟩
    rw [Reg0.mem_blk0]
    intro a
    match a with
    | ⟨0, _⟩ =>
      show win0_5.index t (0 : Fin 2) * 512 ≤ (i 0).val ∧ (i 0).val < win0_5.index t (0 : Fin 2) * 512 + 512
      rw [e0, ht]; omega
    | ⟨1, _⟩ =>
      show win0_5.index t (1 : Fin 2) * 2048 ≤ (i 1).val ∧ (i 1).val < win0_5.index t (1 : Fin 2) * 2048 + 2048
      rw [e1]; omega

end Cert.KernelIdeal.Val

end
-- ==== Proof.KReg1.lean ====
/-
  Region 1 of the kernel: the pre-norm and projection of the second activations array, 512 rows
  at a point. The body computes the same value as region 0's, on this region's own arrays, so the
  stored value at an index is region 0's lemma; what is written here is how this region's blocks
  sit in its arrays, and the blocks put together.
-/
import proofs.«414706_j8890582303248_3_alg».proof.Proof.KReg0

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Reg1

variable (V : (c : Dev nD) → (b : Ref sig .tc) → Buf (Elt Ideal) ((c : Thread nD τ).loc b))

/-- This region's body is region 0's: the same operations in the same order. -/
theorem pay_eq : k1_pay1 (F := Ideal) = k0_pay1 (F := Ideal) := rfl

/-- The printed index maps, decided over the 16 points: the activations' and the result's block index
    is `(t, 0)`, every parameter's is zero. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The activations' block at point `t`, at `(r, l)`, is the array at row `512 t + r`. -/
theorem blk1_0_apply (c : Dev nD) (t : Fin cfg1.N) (r : Fin 512) (l : Fin 2048) (n : Fin 8192)
    (hn : n.val = 512 * t.val + r.val) :
    (iblk1 V c 0 t : Vec Ideal S512x2048 .f32) (ix2 r l) = (V c main_arg1 : S8192x2048.Idx → EReal) (ix2 n l) := by
  obtain ⟨e0, e1, -⟩ := idx_facts1 t
  unfold iblk1
  rw [View.read_apply]
  show (V c main_arg1 : S8192x2048.Idx → EReal) _ = _
  congr 1
  funext a
  apply Fin.ext
  match a with
  | ⟨0, _⟩ => show win1_0.index t (0 : Fin 2) * 512 + 1 * r.val = n.val; rw [e0, hn]; omega
  | ⟨1, _⟩ => show win1_0.index t (1 : Fin 2) * 2048 + 1 * l.val = l.val; rw [e1]; omega

/-- The norm's scale: its block is the vector. -/
theorem blk1_1_apply (c : Dev nD) (t : Fin cfg1.N) (l : Fin 2048) :
    (iblk1 V c 1 t : Vec Ideal S2048 .f32) (ix1 l) = (V c main_arg5 : S2048.Idx → EReal) (ix1 l) := by
  obtain ⟨-, -, e, -⟩ := idx_facts1 t
  unfold iblk1
  rw [View.read_apply]
  show (V c main_arg5 : S2048.Idx → EReal) _ = _
  congr 1
  funext a
  apply Fin.ext
  match a with
  | ⟨0, _⟩ => show win1_1.index t (0 : Fin 1) * 2048 + 1 * l.val = l.val; rw [e]; omega

/-- The norm's shift: its block is the vector. -/
theorem blk1_2_apply (c : Dev nD) (t : Fin cfg1.N) (l : Fin 2048) :
    (iblk1 V c 2 t : Vec Ideal S2048 .f32) (ix1 l) = (V c main_arg6 : S2048.Idx → EReal) (ix1 l) := by
  obtain ⟨-, -, -, e, -⟩ := idx_facts1 t
  unfold iblk1
  rw [View.read_apply]
  show (V c main_arg6 : S2048.Idx → EReal) _ = _
  congr 1
  funext a
  apply Fin.ext
  match a with
  | ⟨0, _⟩ => show win1_2.index t (0 : Fin 1) * 2048 + 1 * l.val = l.val; rw [e]; omega

/-- The weight's block is the weight. -/
theorem blk1_3_apply (c : Dev nD) (t : Fin cfg1.N) (k l : Fin 2048) :
    (iblk1 V c 3 t : Vec Ideal S2048x2048 .bf16) (ix2 k l) = (V c main_v1 : S2048x2048.Idx → EReal) (ix2 k l) := by
  obtain ⟨-, -, -, -, e0, e1, -⟩ := idx_facts1 t
  unfold iblk1
  rw [View.read_apply]
  show (V c main_v1 : S2048x2048.Idx → EReal) _ = _
  congr 1
  funext a
  apply Fin.ext
  match a with
  | ⟨0, _⟩ => show win1_3.index t (0 : Fin 2) * 2048 + 1 * k.val = k.val; rw [e0]; omega
  | ⟨1, _⟩ => show win1_3.index t (1 : Fin 2) * 2048 + 1 * l.val = l.val; rw [e1]; omega

/-- The projection's bias: its block is the vector. -/
theorem blk1_4_apply (c : Dev nD) (t : Fin cfg1.N) (l : Fin 2048) :
    (iblk1 V c 4 t : Vec Ideal S2048 .f32) (ix1 l) = (V c main_arg14 : S2048.Idx → EReal) (ix1 l) := by
  obtain ⟨-, -, -, -, -, -, e, -⟩ := idx_facts1 t
  unfold iblk1
  rw [View.read_apply]
  show (V c main_arg14 : S2048.Idx → EReal) _ = _
  congr 1
  funext a
  apply Fin.ext
  match a with
  | ⟨0, _⟩ => show win1_4.index t (0 : Fin 1) * 2048 + 1 * l.val = l.val; rw [e]; omega

/-- What point `t` writes back is block `t` of the pre-norm and projection of the whole array. -/
theorem flushed1_eq (c : Dev nD) (t : Fin cfg1.N) :
    (dat1 (F := Ideal) V c).flushed 5 t
      = ((cfg1.win 5).blk t).view.read (Elt Ideal)
          (Spec.NP (V c main_arg1) (V c main_arg5) (V c main_arg6) (V c main_v1) (V c main_arg14)) := by
  show (cfg1.win 5).cut (grid1.coords t) ((dat1 (F := Ideal) V c).after 5 t) = _
  rw [after1_5]
  unfold out1_5
  rw [View.canon_unit_zero Reg0.zero2]
  simp only [View.ld_unit_zero (S := S512x2048) Reg0.zero2, View.ld_unit_zero (S := S2048) Reg0.zero1,
    View.ld_unit_zero (S := S2048x2048) Reg0.zero2]
  obtain ⟨-, -, -, -, -, -, -, e0, e1⟩ := idx_facts1 t
  funext y
  show k1_pay1 (F := Ideal) (iblk1 V c 0 t) (iblk1 V c 1 t) (iblk1 V c 2 t) (iblk1 V c 3 t) (iblk1 V c 4 t) y
    = Spec.NP (V c main_arg1) (V c main_arg5) (V c main_arg6) (V c main_v1) (V c main_arg14)
        (((cfg1.win 5).blk t).view.emb y)
  rw [pay_eq]
  refine (congrArg _ (eq_ix2 y)).trans ((Reg0.pay_apply _ _ _ _ _ (y 0) (y 1)).trans ?_)
  have hW : (fun k l : Fin 2048 => (iblk1 V c 3 t : Vec Ideal S2048x2048 .bf16) (ix2 k l)) = Spec.matOf (V c main_v1) :=
    funext fun k => funext fun l => blk1_3_apply V c t k l
  have hb : (fun l : Fin 2048 => (iblk1 V c 4 t : Vec Ideal S2048 .f32) (ix1 l)) = Spec.vecOf (V c main_arg14) :=
    funext fun l => blk1_4_apply V c t l
  have ha : (fun l : Fin 2048 => (iblk1 V c 1 t : Vec Ideal S2048 .f32) (ix1 l)) = Spec.vecOf (V c main_arg5) :=
    funext fun l => blk1_1_apply V c t l
  have hn : (fun l : Fin 2048 => (iblk1 V c 2 t : Vec Ideal S2048 .f32) (ix1 l)) = Spec.vecOf (V c main_arg6) :=
    funext fun l => blk1_2_apply V c t l
  have hx : (fun l : Fin 2048 => (iblk1 V c 0 t : Vec Ideal S512x2048 .f32) (ix2 (y 0) l))
      = Spec.rowOf (V c main_arg1) (Spec.row0 (((cfg1.win 5).blk t).view.emb y)) :=
    funext fun l => blk1_0_apply V c t (y 0) l _ (by
      show win1_5.index t (0 : Fin 2) * 512 + 1 * (y 0).val = 512 * t.val + (y 0).val
      rw [e0]; omega)
  have hj : (y 1 : Fin 2048) = Spec.col1 (((cfg1.win 5).blk t).view.emb y) := Fin.ext (by
    show (y 1).val = win1_5.index t (1 : Fin 2) * 2048 + 1 * (y 1).val
    rw [e1]; omega)
  rw [hW, hb, ha, hn, hx, hj]
  rfl

/-- An index of the result is in point `t`'s block iff each coordinate is in the block's range. -/
theorem mem_blk1 (t : Fin cfg1.N) (i : S8192x2048.Idx) :
    i ∈ ((cfg1.win 5).blk t).view.set ↔ ∀ a : Fin 2, win1_5.index t a * S512x2048.size a ≤ (i a).val
      ∧ (i a).val < win1_5.index t a * S512x2048.size a + S512x2048.size a := by
  show i ∈ ((View.whole main_v7).slice (win1_5.rect t)).set ↔ _
  rw [View.set_slice_whole, Rect.mem_set_unit]
  exact Iff.rfl

end Reg1

variable (V : (c : Dev nD) → (b : Ref sig .tc) → Buf (Elt Ideal) ((c : Thread nD τ).loc b))

/-- REGION 1: the result array after the region is the pre-norm and projection of every row. -/
theorem region1_arr (c : Dev nD) :
    (dat1 (F := Ideal) V c).arrAt 5 cfg1.N
      = Spec.NP (V c main_arg1) (V c main_arg5) (V c main_arg6) (V c main_v1) (V c main_arg14) :=
  (dat1 (F := Ideal) V c).arrAt_eq_of_cover 5 _ (fun t _ => Reg1.flushed1_eq V c t) fun i => by
    have hN : cfg1.N = 16 := N_1
    have hi0 : (i 0).val < 8192 := (i 0).isLt
    have hi1 : (i 1).val < 2048 := (i 1).isLt
    obtain ⟨t, ht⟩ : ∃ t : Fin cfg1.N, t.val = (i 0).val / 512 := ⟨⟨(i 0).val / 512, by omega⟩, rfl⟩
    obtain ⟨-, -, -, -, -, -, -, e0, e1⟩ := Reg1.idx_facts1 t
    refine ⟨t, flush1_5 t, ?_⟩
    rw [Reg1.mem_blk1]
    intro a
    match a with
    | ⟨0, _⟩ =>
      show win1_5.index t (0 : Fin 2) * 512 ≤ (i 0).val ∧ (i 0).val < win1_5.index t (0 : Fin 2) * 512 + 512
      rw [e0, ht]; omega
    | ⟨1, _⟩ =>
      show win1_5.index t (1 : Fin 2) * 2048 ≤ (i 1).val ∧ (i 1).val < win1_5.index t (1 : Fin 2) * 2048 + 2048
      rw [e1]; omega

end Cert.KernelIdeal.Val

end
-- ==== Proof.KReg2.lean ====
/-
  Region 2 of the kernel: the pre-norm and projection of the third activations array, 512 rows
  at a point. The body computes the same value as region 0's, on this region's own arrays, so the
  stored value at an index is region 0's lemma; what is written here is how this region's blocks
  sit in its arrays, and the blocks put together.
-/
import proofs.«414706_j8890582303248_3_alg».proof.Proof.KReg0

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Reg2

variable (V : (c : Dev nD) → (b : Ref sig .tc) → Buf (Elt Ideal) ((c : Thread nD τ).loc b))

/-- This region's body is region 0's: the same operations in the same order. -/
theorem pay_eq : k2_pay1 (F := Ideal) = k0_pay1 (F := Ideal) := rfl

/-- The printed index maps, decided over the 16 points: the activations' and the result's block index
    is `(t, 0)`, every parameter's is zero. -/
theorem idx_facts2 : ∀ t : Fin cfg2.N,
    win2_0.index t (0 : Fin 2) = t.val ∧ win2_0.index t (1 : Fin 2) = 0
    ∧ win2_1.index t (0 : Fin 1) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The activations' block at point `t`, at `(r, l)`, is the array at row `512 t + r`. -/
theorem blk2_0_apply (c : Dev nD) (t : Fin cfg2.N) (r : Fin 512) (l : Fin 2048) (n : Fin 8192)
    (hn : n.val = 512 * t.val + r.val) :
    (iblk2 V c 0 t : Vec Ideal S512x2048 .f32) (ix2 r l) = (V c main_arg2 : S8192x2048.Idx → EReal) (ix2 n l) := by
  obtain ⟨e0, e1, -⟩ := idx_facts2 t
  unfold iblk2
  rw [View.read_apply]
  show (V c main_arg2 : S8192x2048.Idx → EReal) _ = _
  congr 1
  funext a
  apply Fin.ext
  match a with
  | ⟨0, _⟩ => show win2_0.index t (0 : Fin 2) * 512 + 1 * r.val = n.val; rw [e0, hn]; omega
  | ⟨1, _⟩ => show win2_0.index t (1 : Fin 2) * 2048 + 1 * l.val = l.val; rw [e1]; omega

/-- The norm's scale: its block is the vector. -/
theorem blk2_1_apply (c : Dev nD) (t : Fin cfg2.N) (l : Fin 2048) :
    (iblk2 V c 1 t : Vec Ideal S2048 .f32) (ix1 l) = (V c main_arg7 : S2048.Idx → EReal) (ix1 l) := by
  obtain ⟨-, -, e, -⟩ := idx_facts2 t
  unfold iblk2
  rw [View.read_apply]
  show (V c main_arg7 : S2048.Idx → EReal) _ = _
  congr 1
  funext a
  apply Fin.ext
  match a with
  | ⟨0, _⟩ => show win2_1.index t (0 : Fin 1) * 2048 + 1 * l.val = l.val; rw [e]; omega

/-- The norm's shift: its block is the vector. -/
theorem blk2_2_apply (c : Dev nD) (t : Fin cfg2.N) (l : Fin 2048) :
    (iblk2 V c 2 t : Vec Ideal S2048 .f32) (ix1 l) = (V c main_arg8 : S2048.Idx → EReal) (ix1 l) := by
  obtain ⟨-, -, -, e, -⟩ := idx_facts2 t
  unfold iblk2
  rw [View.read_apply]
  show (V c main_arg8 : S2048.Idx → EReal) _ = _
  congr 1
  funext a
  apply Fin.ext
  match a with
  | ⟨0, _⟩ => show win2_2.index t (0 : Fin 1) * 2048 + 1 * l.val = l.val; rw [e]; omega

/-- The weight's block is the weight. -/
theorem blk2_3_apply (c : Dev nD) (t : Fin cfg2.N) (k l : Fin 2048) :
    (iblk2 V c 3 t : Vec Ideal S2048x2048 .bf16) (ix2 k l) = (V c main_v2 : S2048x2048.Idx → EReal) (ix2 k l) := by
  obtain ⟨-, -, -, -, e0, e1, -⟩ := idx_facts2 t
  unfold iblk2
  rw [View.read_apply]
  show (V c main_v2 : S2048x2048.Idx → EReal) _ = _
  congr 1
  funext a
  apply Fin.ext
  match a with
  | ⟨0, _⟩ => show win2_3.index t (0 : Fin 2) * 2048 + 1 * k.val = k.val; rw [e0]; omega
  | ⟨1, _⟩ => show win2_3.index t (1 : Fin 2) * 2048 + 1 * l.val = l.val; rw [e1]; omega

/-- The projection's bias: its block is the vector. -/
theorem blk2_4_apply (c : Dev nD) (t : Fin cfg2.N) (l : Fin 2048) :
    (iblk2 V c 4 t : Vec Ideal S2048 .f32) (ix1 l) = (V c main_arg16 : S2048.Idx → EReal) (ix1 l) := by
  obtain ⟨-, -, -, -, -, -, e, -⟩ := idx_facts2 t
  unfold iblk2
  rw [View.read_apply]
  show (V c main_arg16 : S2048.Idx → EReal) _ = _
  congr 1
  funext a
  apply Fin.ext
  match a with
  | ⟨0, _⟩ => show win2_4.index t (0 : Fin 1) * 2048 + 1 * l.val = l.val; rw [e]; omega

/-- What point `t` writes back is block `t` of the pre-norm and projection of the whole array. -/
theorem flushed2_eq (c : Dev nD) (t : Fin cfg2.N) :
    (dat2 (F := Ideal) V c).flushed 5 t
      = ((cfg2.win 5).blk t).view.read (Elt Ideal)
          (Spec.NP (V c main_arg2) (V c main_arg7) (V c main_arg8) (V c main_v2) (V c main_arg16)) := by
  show (cfg2.win 5).cut (grid2.coords t) ((dat2 (F := Ideal) V c).after 5 t) = _
  rw [after2_5]
  unfold out2_5
  rw [View.canon_unit_zero Reg0.zero2]
  simp only [View.ld_unit_zero (S := S512x2048) Reg0.zero2, View.ld_unit_zero (S := S2048) Reg0.zero1,
    View.ld_unit_zero (S := S2048x2048) Reg0.zero2]
  obtain ⟨-, -, -, -, -, -, -, e0, e1⟩ := idx_facts2 t
  funext y
  show k2_pay1 (F := Ideal) (iblk2 V c 0 t) (iblk2 V c 1 t) (iblk2 V c 2 t) (iblk2 V c 3 t) (iblk2 V c 4 t) y
    = Spec.NP (V c main_arg2) (V c main_arg7) (V c main_arg8) (V c main_v2) (V c main_arg16)
        (((cfg2.win 5).blk t).view.emb y)
  rw [pay_eq]
  refine (congrArg _ (eq_ix2 y)).trans ((Reg0.pay_apply _ _ _ _ _ (y 0) (y 1)).trans ?_)
  have hW : (fun k l : Fin 2048 => (iblk2 V c 3 t : Vec Ideal S2048x2048 .bf16) (ix2 k l)) = Spec.matOf (V c main_v2) :=
    funext fun k => funext fun l => blk2_3_apply V c t k l
  have hb : (fun l : Fin 2048 => (iblk2 V c 4 t : Vec Ideal S2048 .f32) (ix1 l)) = Spec.vecOf (V c main_arg16) :=
    funext fun l => blk2_4_apply V c t l
  have ha : (fun l : Fin 2048 => (iblk2 V c 1 t : Vec Ideal S2048 .f32) (ix1 l)) = Spec.vecOf (V c main_arg7) :=
    funext fun l => blk2_1_apply V c t l
  have hn : (fun l : Fin 2048 => (iblk2 V c 2 t : Vec Ideal S2048 .f32) (ix1 l)) = Spec.vecOf (V c main_arg8) :=
    funext fun l => blk2_2_apply V c t l
  have hx : (fun l : Fin 2048 => (iblk2 V c 0 t : Vec Ideal S512x2048 .f32) (ix2 (y 0) l))
      = Spec.rowOf (V c main_arg2) (Spec.row0 (((cfg2.win 5).blk t).view.emb y)) :=
    funext fun l => blk2_0_apply V c t (y 0) l _ (by
      show win2_5.index t (0 : Fin 2) * 512 + 1 * (y 0).val = 512 * t.val + (y 0).val
      rw [e0]; omega)
  have hj : (y 1 : Fin 2048) = Spec.col1 (((cfg2.win 5).blk t).view.emb y) := Fin.ext (by
    show (y 1).val = win2_5.index t (1 : Fin 2) * 2048 + 1 * (y 1).val
    rw [e1]; omega)
  rw [hW, hb, ha, hn, hx, hj]
  rfl

/-- An index of the result is in point `t`'s block iff each coordinate is in the block's range. -/
theorem mem_blk2 (t : Fin cfg2.N) (i : S8192x2048.Idx) :
    i ∈ ((cfg2.win 5).blk t).view.set ↔ ∀ a : Fin 2, win2_5.index t a * S512x2048.size a ≤ (i a).val
      ∧ (i a).val < win2_5.index t a * S512x2048.size a + S512x2048.size a := by
  show i ∈ ((View.whole main_v8).slice (win2_5.rect t)).set ↔ _
  rw [View.set_slice_whole, Rect.mem_set_unit]
  exact Iff.rfl

end Reg2

variable (V : (c : Dev nD) → (b : Ref sig .tc) → Buf (Elt Ideal) ((c : Thread nD τ).loc b))

/-- REGION 2: the result array after the region is the pre-norm and projection of every row. -/
theorem region2_arr (c : Dev nD) :
    (dat2 (F := Ideal) V c).arrAt 5 cfg2.N
      = Spec.NP (V c main_arg2) (V c main_arg7) (V c main_arg8) (V c main_v2) (V c main_arg16) :=
  (dat2 (F := Ideal) V c).arrAt_eq_of_cover 5 _ (fun t _ => Reg2.flushed2_eq V c t) fun i => by
    have hN : cfg2.N = 16 := N_2
    have hi0 : (i 0).val < 8192 := (i 0).isLt
    have hi1 : (i 1).val < 2048 := (i 1).isLt
    obtain ⟨t, ht⟩ : ∃ t : Fin cfg2.N, t.val = (i 0).val / 512 := ⟨⟨(i 0).val / 512, by omega⟩, rfl⟩
    obtain ⟨-, -, -, -, -, -, -, e0, e1⟩ := Reg2.idx_facts2 t
    refine ⟨t, flush2_5 t, ?_⟩
    rw [Reg2.mem_blk2]
    intro a
    match a with
    | ⟨0, _⟩ =>
      show win2_5.index t (0 : Fin 2) * 512 ≤ (i 0).val ∧ (i 0).val < win2_5.index t (0 : Fin 2) * 512 + 512
      rw [e0, ht]; omega
    | ⟨1, _⟩ =>
      show win2_5.index t (1 : Fin 2) * 2048 ≤ (i 1).val ∧ (i 1).val < win2_5.index t (1 : Fin 2) * 2048 + 2048
      rw [e1]; omega

end Cert.KernelIdeal.Val

end
-- ==== Proof.KAttn.lean ====
/-
  Region 3's first half read at an index: the residual stream after attention.

  One row of a 64-row block is one token. Its three projected rows are cut into 16 heads of
  width 128 (column 128·h + a is position a of head h); the scores contract the head axis and
  are scaled by a named constant; a softmax runs along the last axis (the row maximum from minus
  infinity, the exponential of the difference, the row sum, the quotient); the context contracts
  the softmax axis against the values; the heads are laid side by side again; the output
  projection, the residual input and the bias are added. Each step is stated for vectors of the
  literal shapes and read at coordinates, and the last theorem says the whole payload at (r, j)
  is the specification's row function at j of the r-th rows.
-/
import proofs.«414706_j8890582303248_3_alg».proof.Proof.Gen.KernelIdeal.Skeleton
import proofs.«414706_j8890582303248_3_alg».proof.Proof.Spec
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Val

open Idealize.ShloMosaic Idealize.SL.Sem Idealize.ShloMosaic.ValueIdx
open Cert.KernelIdeal Cert.KernelIdeal.Gen

/-! ## The payload in named pieces -/

/-- A [64, 2048] block cut into heads: [64, 16, 128]. -/
def heads (x : Vec Ideal S64x2048 .bf16) : FVec Ideal S64x16x128 .bf16 :=
  shapeCast S64x16x128 (shapeCast S64x2048 x shapeCasts_S64x2048_S64x2048) shapeCasts_S64x2048_S64x16x128

/-- The scaled scores [64, 128, 128]. -/
def scores (q k : Vec Ideal S64x2048 .bf16) : FVec Ideal S64x128x128 .f32 :=
  mulf (matmul dot_S64x16x128_S64x16x128_S64x128x128_1_1_2_2_0_0 none (heads q) (heads k)
      (constant S64x128x128 .f32 0x00000000#32))
    (broadcast S64x128x128 (Named.named κ "inv_sqrt_dk" (φ := .f32) 0x3DB504F3#32))

/-- The row maxima [64, 128]. -/
def rowMax (q k : Vec Ideal S64x2048 .bf16) : FVec Ideal S64x128 .f32 :=
  multiReduction .maximumf [2] S64x128 (scores q k) 0xFF800000#32 reduces_S64x128x128_S64x128 (.inl rfl) rfl

/-- The exponentials of the scores less their row maximum. -/
def exps (q k : Vec Ideal S64x2048 .bf16) : FVec Ideal S64x128x128 .f32 :=
  exp (subf (scores q k) (broadcastTo S64x128x128 (shapeCast S64x128x1 (rowMax q k) shapeCasts_S64x128_S64x128x1)
    broadcasts_S64x128x1_S64x128x128))

/-- Their row sums [64, 128]. -/
def rowSum (q k : Vec Ideal S64x2048 .bf16) : FVec Ideal S64x128 .f32 :=
  multiReduction .add [2] S64x128 (exps q k) 0x00000000#32 reduces_S64x128x128_S64x128 (.inl rfl) rfl

/-- The softmax weights. -/
def probs (q k : Vec Ideal S64x2048 .bf16) : FVec Ideal S64x128x128 .bf16 :=
  truncf .bf16 (divf (exps q k) (broadcastTo S64x128x128 (shapeCast S64x128x1 (rowSum q k) shapeCasts_S64x128_S64x128x1)
    broadcasts_S64x128x1_S64x128x128)) bitsLt_bf16_f32

/-- The context, heads side by side again: [64, 2048]. -/
def context (q k v : Vec Ideal S64x2048 .bf16) : FVec Ideal S64x2048 .bf16 :=
  truncf .bf16 (shapeCast S64x2048 (matmul dot_S64x16x128_S64x128x128_S64x16x128_2_2_1_1_0_0 none (heads v) (probs q k)
      (constant S64x16x128 .f32 0x00000000#32)) shapeCasts_S64x16x128_S64x2048) bitsLt_bf16_f32

/-- The payload is these pieces put together. -/
theorem pay2_eq (x0 x1 x2 : Vec Ideal S64x2048 .bf16) (x4 : Vec Ideal S2048x2048 .bf16) (x3 : Vec Ideal S64x2048 .f32)
    (x5 : Vec Ideal S2048 .f32) :
    k3_pay2 (F := Ideal) x0 x1 x2 x4 x3 x5
      = addf (addf x3 (matmul dot_S64x2048_S2048x2048_S64x2048_1_0_0_1_n_n none (context x0 x1 x2)
            (shapeCast S2048x2048 x4 shapeCasts_S2048x2048_S2048x2048 : FVec Ideal S2048x2048 .bf16)
            (constant S64x2048 .f32 0x00000000#32)))
          (broadcastTo S64x2048 (shapeCast S1x2048 x5 shapeCasts_S2048_S1x2048) broadcasts_S1x2048_S64x2048) := rfl

/-! ## Layout -/

/-- The cut into heads reads column 128·h + a. -/
theorem heads_apply (x : Vec Ideal S64x2048 .bf16) (n : Fin 64) (h : Fin 16) (a : Fin 128) :
    heads x (ix3 n h a) = x (ix2 n (Spec.hd h a)) := by
  unfold heads
  refine (shapeCast_apply _ _ (ix3 n h a) (ix2 n (Spec.hd h a)) ?_).trans (congrFun (shapeCast_self x _) _)
  rw [Shape.rowMajor_val_two, Shape.rowMajor_val_three]
  show n.val * 2048 + (128 * h.val + a.val) = (n.val * 16 + h.val) * 128 + a.val
  omega

/-- The heads laid side by side again: column j is position j mod 128 of head j / 128. -/
theorem merge_apply {α : Type} (y : S64x16x128.Idx → α) (hc : S64x16x128.ShapeCasts S64x2048) (n : Fin 64) (j : Fin 2048) :
    shapeCast S64x2048 y hc (ix2 n j) = y (ix3 n (Spec.headOf j) (Spec.posOf j)) := by
  refine shapeCast_apply y hc (ix2 n j) (ix3 n (Spec.headOf j) (Spec.posOf j)) ?_
  rw [Shape.rowMajor_val_two, Shape.rowMajor_val_three]
  show (n.val * 16 + j.val / 128) * 128 + j.val % 128 = n.val * 2048 + j.val
  omega

/-- A [64, 128] vector given a trailing unit axis and broadcast along it reads its (n, a) entry. -/
theorem keep_apply {α : Type} (v : S64x128.Idx → α) (h1 : S64x128.ShapeCasts S64x128x1) (h2 : S64x128x1.Broadcasts S64x128x128)
    (n : Fin 64) (a b : Fin 128) :
    broadcastTo S64x128x128 (shapeCast S64x128x1 v h1) h2 (ix3 n a b) = v (ix2 n a) := by
  refine (broadcastTo_apply _ h2 (ix3 n a b) (ix3 n a (0 : Fin 1)) fun ax => ?_).trans ?_
  · match ax with
    | ⟨0, _⟩ => rfl
    | ⟨1, _⟩ => rfl
    | ⟨2, _⟩ => rfl
  · refine shapeCast_apply v h1 (ix3 n a (0 : Fin 1)) (ix2 n a) ?_
    rw [Shape.rowMajor_val_two, Shape.rowMajor_val_three]
    show n.val * 128 + a.val = (n.val * 128 + a.val) * 1 + 0
    omega

/-- The bias as one row, broadcast over the 64 rows. -/
theorem bias_apply {α : Type} (v : S2048.Idx → α) (h1 : S2048.ShapeCasts S1x2048) (h2 : S1x2048.Broadcasts S64x2048)
    (r : Fin 64) (j : Fin 2048) :
    broadcastTo S64x2048 (shapeCast S1x2048 v h1) h2 (ix2 r j) = v (ix1 j) :=
  (broadcastTo_1b_ab_apply _ h2 r j).trans (shapeCast_a_1a_apply v h1 0 j)

/-! ## The three products -/

/-- The scores' product: batch axis 0, the head axis 1 contracted on both sides, the left operand's axis 2 the result's
    axis 1 and the right operand's axis 2 the result's axis 2. -/
theorem sc_lhs_0 (j : S64x128x128.Idx) (k : dot_S64x16x128_S64x16x128_S64x128x128_1_1_2_2_0_0.contr.Idx) :
    (dot_S64x16x128_S64x16x128_S64x128x128_1_1_2_2_0_0.lhsIdx j k 0 : ℕ) = j 0 := by
  simp [DotDims.lhsIdx, dot_S64x16x128_S64x16x128_S64x128x128_1_1_2_2_0_0]; rfl
theorem sc_lhs_1 (j : S64x128x128.Idx) (k : dot_S64x16x128_S64x16x128_S64x128x128_1_1_2_2_0_0.contr.Idx) :
    (dot_S64x16x128_S64x16x128_S64x128x128_1_1_2_2_0_0.lhsIdx j k 1 : ℕ) = k ⟨0, by decide⟩ := by
  simp [DotDims.lhsIdx, dot_S64x16x128_S64x16x128_S64x128x128_1_1_2_2_0_0]; rfl
theorem sc_lhs_2 (j : S64x128x128.Idx) (k : dot_S64x16x128_S64x16x128_S64x128x128_1_1_2_2_0_0.contr.Idx) :
    (dot_S64x16x128_S64x16x128_S64x128x128_1_1_2_2_0_0.lhsIdx j k 2 : ℕ) = j 1 := by
  simp [DotDims.lhsIdx, dot_S64x16x128_S64x16x128_S64x128x128_1_1_2_2_0_0]; rfl
theorem sc_rhs_0 (j : S64x128x128.Idx) (k : dot_S64x16x128_S64x16x128_S64x128x128_1_1_2_2_0_0.contr.Idx) :
    (dot_S64x16x128_S64x16x128_S64x128x128_1_1_2_2_0_0.rhsIdx j k 0 : ℕ) = j 0 := by
  simp [DotDims.rhsIdx, dot_S64x16x128_S64x16x128_S64x128x128_1_1_2_2_0_0]; rfl
theorem sc_rhs_1 (j : S64x128x128.Idx) (k : dot_S64x16x128_S64x16x128_S64x128x128_1_1_2_2_0_0.contr.Idx) :
    (dot_S64x16x128_S64x16x128_S64x128x128_1_1_2_2_0_0.rhsIdx j k 1 : ℕ) = k ⟨0, by decide⟩ := by
  simp [DotDims.rhsIdx, dot_S64x16x128_S64x16x128_S64x128x128_1_1_2_2_0_0]; rfl
theorem sc_rhs_2 (j : S64x128x128.Idx) (k : dot_S64x16x128_S64x16x128_S64x128x128_1_1_2_2_0_0.contr.Idx) :
    (dot_S64x16x128_S64x16x128_S64x128x128_1_1_2_2_0_0.rhsIdx j k 2 : ℕ) = j 2 := by
  simp [DotDims.rhsIdx, dot_S64x16x128_S64x16x128_S64x128x128_1_1_2_2_0_0]; rfl

theorem scores_mm_apply (A B : FVec Ideal S64x16x128 .bf16) (n : Fin 64) (a b : Fin 128) :
    matmul dot_S64x16x128_S64x16x128_S64x128x128_1_1_2_2_0_0 none A B (constant S64x128x128 .f32 0x00000000#32) (ix3 n a b)
      = ∑ h : Fin 16, A (ix3 n h a) * B (ix3 n h b) := by
  refine (Ideal.matmul_constant_zero_apply _ none A B (ix3 n a b)).trans ?_
  rw [← Equiv.sum_comp (contrEquiv1 dot_S64x16x128_S64x16x128_S64x128x128_1_1_2_2_0_0 16 rfl rfl).symm]
  refine Finset.sum_congr rfl fun h _ => ?_
  have hl : dot_S64x16x128_S64x16x128_S64x128x128_1_1_2_2_0_0.lhsIdx (ix3 n a b)
      ((contrEquiv1 dot_S64x16x128_S64x16x128_S64x128x128_1_1_2_2_0_0 16 rfl rfl).symm h) = ix3 n h a := by
    funext ax; refine Fin.ext ?_
    match ax with
    | ⟨0, _⟩ => exact sc_lhs_0 _ _
    | ⟨1, _⟩ => exact (sc_lhs_1 _ _).trans (contrEquiv1_symm_val _ 16 rfl rfl h)
    | ⟨2, _⟩ => exact sc_lhs_2 _ _
  have hr : dot_S64x16x128_S64x16x128_S64x128x128_1_1_2_2_0_0.rhsIdx (ix3 n a b)
      ((contrEquiv1 dot_S64x16x128_S64x16x128_S64x128x128_1_1_2_2_0_0 16 rfl rfl).symm h) = ix3 n h b := by
    funext ax; refine Fin.ext ?_
    match ax with
    | ⟨0, _⟩ => exact sc_rhs_0 _ _
    | ⟨1, _⟩ => exact (sc_rhs_1 _ _).trans (contrEquiv1_symm_val _ 16 rfl rfl h)
    | ⟨2, _⟩ => exact sc_rhs_2 _ _
  rw [hl, hr]

/-- The context's product: batch axis 0, the last axis contracted on both sides, the left operand's axis 1 the result's
    axis 1 and the right operand's axis 1 the result's axis 2. -/
theorem cx_lhs_0 (j : S64x16x128.Idx) (k : dot_S64x16x128_S64x128x128_S64x16x128_2_2_1_1_0_0.contr.Idx) :
    (dot_S64x16x128_S64x128x128_S64x16x128_2_2_1_1_0_0.lhsIdx j k 0 : ℕ) = j 0 := by
  simp [DotDims.lhsIdx, dot_S64x16x128_S64x128x128_S64x16x128_2_2_1_1_0_0]; rfl
theorem cx_lhs_1 (j : S64x16x128.Idx) (k : dot_S64x16x128_S64x128x128_S64x16x128_2_2_1_1_0_0.contr.Idx) :
    (dot_S64x16x128_S64x128x128_S64x16x128_2_2_1_1_0_0.lhsIdx j k 1 : ℕ) = j 1 := by
  simp [DotDims.lhsIdx, dot_S64x16x128_S64x128x128_S64x16x128_2_2_1_1_0_0]; rfl
theorem cx_lhs_2 (j : S64x16x128.Idx) (k : dot_S64x16x128_S64x128x128_S64x16x128_2_2_1_1_0_0.contr.Idx) :
    (dot_S64x16x128_S64x128x128_S64x16x128_2_2_1_1_0_0.lhsIdx j k 2 : ℕ) = k ⟨0, by decide⟩ := by
  simp [DotDims.lhsIdx, dot_S64x16x128_S64x128x128_S64x16x128_2_2_1_1_0_0]; rfl
theorem cx_rhs_0 (j : S64x16x128.Idx) (k : dot_S64x16x128_S64x128x128_S64x16x128_2_2_1_1_0_0.contr.Idx) :
    (dot_S64x16x128_S64x128x128_S64x16x128_2_2_1_1_0_0.rhsIdx j k 0 : ℕ) = j 0 := by
  simp [DotDims.rhsIdx, dot_S64x16x128_S64x128x128_S64x16x128_2_2_1_1_0_0]; rfl
theorem cx_rhs_1 (j : S64x16x128.Idx) (k : dot_S64x16x128_S64x128x128_S64x16x128_2_2_1_1_0_0.contr.Idx) :
    (dot_S64x16x128_S64x128x128_S64x16x128_2_2_1_1_0_0.rhsIdx j k 1 : ℕ) = j 2 := by
  simp [DotDims.rhsIdx, dot_S64x16x128_S64x128x128_S64x16x128_2_2_1_1_0_0]; rfl
theorem cx_rhs_2 (j : S64x16x128.Idx) (k : dot_S64x16x128_S64x128x128_S64x16x128_2_2_1_1_0_0.contr.Idx) :
    (dot_S64x16x128_S64x128x128_S64x16x128_2_2_1_1_0_0.rhsIdx j k 2 : ℕ) = k ⟨0, by decide⟩ := by
  simp [DotDims.rhsIdx, dot_S64x16x128_S64x128x128_S64x16x128_2_2_1_1_0_0]; rfl

theorem context_mm_apply (V : FVec Ideal S64x16x128 .bf16) (P : FVec Ideal S64x128x128 .bf16) (n : Fin 64) (h : Fin 16) (a : Fin 128) :
    matmul dot_S64x16x128_S64x128x128_S64x16x128_2_2_1_1_0_0 none V P (constant S64x16x128 .f32 0x00000000#32) (ix3 n h a)
      = ∑ b : Fin 128, V (ix3 n h b) * P (ix3 n a b) := by
  refine (Ideal.matmul_constant_zero_apply _ none V P (ix3 n h a)).trans ?_
  rw [← Equiv.sum_comp (contrEquiv1 dot_S64x16x128_S64x128x128_S64x16x128_2_2_1_1_0_0 128 rfl rfl).symm]
  refine Finset.sum_congr rfl fun b _ => ?_
  have hl : dot_S64x16x128_S64x128x128_S64x16x128_2_2_1_1_0_0.lhsIdx (ix3 n h a)
      ((contrEquiv1 dot_S64x16x128_S64x128x128_S64x16x128_2_2_1_1_0_0 128 rfl rfl).symm b) = ix3 n h b := by
    funext ax; refine Fin.ext ?_
    match ax with
    | ⟨0, _⟩ => exact cx_lhs_0 _ _
    | ⟨1, _⟩ => exact cx_lhs_1 _ _
    | ⟨2, _⟩ => exact (cx_lhs_2 _ _).trans (contrEquiv1_symm_val _ 128 rfl rfl b)
  have hr : dot_S64x16x128_S64x128x128_S64x16x128_2_2_1_1_0_0.rhsIdx (ix3 n h a)
      ((contrEquiv1 dot_S64x16x128_S64x128x128_S64x16x128_2_2_1_1_0_0 128 rfl rfl).symm b) = ix3 n a b := by
    funext ax; refine Fin.ext ?_
    match ax with
    | ⟨0, _⟩ => exact cx_rhs_0 _ _
    | ⟨1, _⟩ => exact cx_rhs_1 _ _
    | ⟨2, _⟩ => exact (cx_rhs_2 _ _).trans (contrEquiv1_symm_val _ 128 rfl rfl b)
  rw [hl, hr]

/-- The output projection's product: rows times columns, no batch axis. -/
theorem ln_lhs_0 (j : S64x2048.Idx) (k : dot_S64x2048_S2048x2048_S64x2048_1_0_0_1_n_n.contr.Idx) :
    (dot_S64x2048_S2048x2048_S64x2048_1_0_0_1_n_n.lhsIdx j k 0 : ℕ) = j 0 := by
  simp [DotDims.lhsIdx, dot_S64x2048_S2048x2048_S64x2048_1_0_0_1_n_n]; rfl
theorem ln_lhs_1 (j : S64x2048.Idx) (k : dot_S64x2048_S2048x2048_S64x2048_1_0_0_1_n_n.contr.Idx) :
    (dot_S64x2048_S2048x2048_S64x2048_1_0_0_1_n_n.lhsIdx j k 1 : ℕ) = k ⟨0, by decide⟩ := by
  simp [DotDims.lhsIdx, dot_S64x2048_S2048x2048_S64x2048_1_0_0_1_n_n]; rfl
theorem ln_rhs_0 (j : S64x2048.Idx) (k : dot_S64x2048_S2048x2048_S64x2048_1_0_0_1_n_n.contr.Idx) :
    (dot_S64x2048_S2048x2048_S64x2048_1_0_0_1_n_n.rhsIdx j k 0 : ℕ) = k ⟨0, by decide⟩ := by
  simp [DotDims.rhsIdx, dot_S64x2048_S2048x2048_S64x2048_1_0_0_1_n_n]; rfl
theorem ln_rhs_1 (j : S64x2048.Idx) (k : dot_S64x2048_S2048x2048_S64x2048_1_0_0_1_n_n.contr.Idx) :
    (dot_S64x2048_S2048x2048_S64x2048_1_0_0_1_n_n.rhsIdx j k 1 : ℕ) = j 1 := by
  simp [DotDims.rhsIdx, dot_S64x2048_S2048x2048_S64x2048_1_0_0_1_n_n]; rfl

theorem lin_mm_apply (X : FVec Ideal S64x2048 .bf16) (W : FVec Ideal S2048x2048 .bf16) (r : Fin 64) (j : Fin 2048) :
    matmul dot_S64x2048_S2048x2048_S64x2048_1_0_0_1_n_n none X W (constant S64x2048 .f32 0x00000000#32) (ix2 r j)
      = ∑ k : Fin 2048, X (ix2 r k) * W (ix2 k j) := by
  refine (Ideal.matmul_constant_zero_apply _ none X W (ix2 r j)).trans ?_
  rw [← Equiv.sum_comp (contrEquiv1 dot_S64x2048_S2048x2048_S64x2048_1_0_0_1_n_n 2048 rfl rfl).symm]
  refine Finset.sum_congr rfl fun k _ => ?_
  have hl : dot_S64x2048_S2048x2048_S64x2048_1_0_0_1_n_n.lhsIdx (ix2 r j)
      ((contrEquiv1 dot_S64x2048_S2048x2048_S64x2048_1_0_0_1_n_n 2048 rfl rfl).symm k) = ix2 r k := by
    funext ax; refine Fin.ext ?_
    match ax with
    | ⟨0, _⟩ => exact ln_lhs_0 _ _
    | ⟨1, _⟩ => exact (ln_lhs_1 _ _).trans (contrEquiv1_symm_val _ 2048 rfl rfl k)
  have hr : dot_S64x2048_S2048x2048_S64x2048_1_0_0_1_n_n.rhsIdx (ix2 r j)
      ((contrEquiv1 dot_S64x2048_S2048x2048_S64x2048_1_0_0_1_n_n 2048 rfl rfl).symm k) = ix2 k j := by
    funext ax; refine Fin.ext ?_
    match ax with
    | ⟨0, _⟩ => exact (ln_rhs_0 _ _).trans (contrEquiv1_symm_val _ 2048 rfl rfl k)
    | ⟨1, _⟩ => exact ln_rhs_1 _ _
  rw [hl, hr]

/-! ## The softmax -/

theorem scale_eq : Named.named (F := Ideal) κ "inv_sqrt_dk" (φ := .f32) 0x3DB504F3#32 = Spec.scale :=
  IdealRules.named_const.ideal_named_scalar _ _ _ _ rfl

theorem scores_apply (q k : Vec Ideal S64x2048 .bf16) (n : Fin 64) (a b : Fin 128) :
    scores q k (ix3 n a b) = Spec.score (fun l => q (ix2 n l)) (fun l => k (ix2 n l)) a b := by
  unfold scores Spec.score
  show matmul dot_S64x16x128_S64x16x128_S64x128x128_1_1_2_2_0_0 none (heads q) (heads k)
      (constant S64x128x128 .f32 0x00000000#32) (ix3 n a b)
    * Named.named (F := Ideal) κ "inv_sqrt_dk" (φ := .f32) 0x3DB504F3#32 = _
  rw [scores_mm_apply, scale_eq]
  refine congrArg (· * Spec.scale) (Finset.sum_congr rfl fun h _ => ?_)
  rw [heads_apply, heads_apply]

/-- The reduced index (n, a) with the coordinate b put back on the last axis is (n, a, b). -/
theorem lift_eq (n : Fin 64) (a b : Fin 128) :
    reduces_S64x128x128_S64x128.lift (ix2 n a) b = ix3 n a b := by
  funext ax; refine Fin.ext ?_
  match ax with
  | ⟨0, _⟩ => rfl
  | ⟨1, _⟩ => rfl
  | ⟨2, _⟩ => rfl

theorem rowMax_apply (q k : Vec Ideal S64x2048 .bf16) (n : Fin 64) (a : Fin 128) :
    rowMax q k (ix2 n a) = Spec.rmax (Spec.score (fun l => q (ix2 n l)) (fun l => k (ix2 n l)) a) := by
  unfold rowMax Spec.rmax
  refine (Ideal.multiReduction_maximumf_single (scores q k) _ reduces_S64x128x128_S64x128 _ _ (ix2 n a)).trans ?_
  show (Finset.univ : Finset (Fin 128)).fold max Spec.negInf
      (fun b : Fin 128 => scores q k (reduces_S64x128x128_S64x128.lift (ix2 n a) b)) = _
  refine congrArg (fun f : Fin 128 → EReal => (Finset.univ : Finset (Fin 128)).fold max Spec.negInf f) (funext fun b => ?_)
  rw [lift_eq, scores_apply]

theorem exps_apply (q k : Vec Ideal S64x2048 .bf16) (n : Fin 64) (a b : Fin 128) :
    exps q k (ix3 n a b) = Spec.ex (fun l => q (ix2 n l)) (fun l => k (ix2 n l)) a b := by
  unfold exps Spec.ex
  show Ideal.exp (scores q k (ix3 n a b)
      - broadcastTo S64x128x128 (shapeCast S64x128x1 (rowMax q k) shapeCasts_S64x128_S64x128x1)
          broadcasts_S64x128x1_S64x128x128 (ix3 n a b)) = _
  rw [keep_apply, scores_apply, rowMax_apply]

theorem rowSum_apply (q k : Vec Ideal S64x2048 .bf16) (n : Fin 64) (a : Fin 128) :
    rowSum q k (ix2 n a) = ∑ b : Fin 128, Spec.ex (fun l => q (ix2 n l)) (fun l => k (ix2 n l)) a b := by
  unfold rowSum
  refine (Ideal.multiReduction_add_single (exps q k) _ reduces_S64x128x128_S64x128 _ _ (ix2 n a)).trans ?_
  show ∑ b : Fin 128, exps q k (reduces_S64x128x128_S64x128.lift (ix2 n a) b) = _
  refine Finset.sum_congr rfl fun b _ => ?_
  rw [lift_eq, exps_apply]

theorem probs_apply (q k : Vec Ideal S64x2048 .bf16) (n : Fin 64) (a b : Fin 128) :
    probs q k (ix3 n a b) = Spec.prob (fun l => q (ix2 n l)) (fun l => k (ix2 n l)) a b := by
  unfold probs Spec.prob
  show Ideal.div (exps q k (ix3 n a b))
      (broadcastTo S64x128x128 (shapeCast S64x128x1 (rowSum q k) shapeCasts_S64x128_S64x128x1)
          broadcasts_S64x128x1_S64x128x128 (ix3 n a b)) = _
  rw [keep_apply, exps_apply, rowSum_apply]

theorem context_apply (q k v : Vec Ideal S64x2048 .bf16) (n : Fin 64) (j : Fin 2048) :
    context q k v (ix2 n j) = Spec.ctx (fun l => q (ix2 n l)) (fun l => k (ix2 n l)) (fun l => v (ix2 n l)) j := by
  unfold context Spec.ctx
  show shapeCast S64x2048 (matmul dot_S64x16x128_S64x128x128_S64x16x128_2_2_1_1_0_0 none (heads v) (probs q k)
      (constant S64x16x128 .f32 0x00000000#32)) shapeCasts_S64x16x128_S64x2048 (ix2 n j) = _
  rw [merge_apply, context_mm_apply]
  refine Finset.sum_congr rfl fun b _ => ?_
  rw [heads_apply, probs_apply]

/-! ## The residual stream after attention -/

theorem pay2_apply (x0 x1 x2 : Vec Ideal S64x2048 .bf16) (x4 : Vec Ideal S2048x2048 .bf16) (x3 : Vec Ideal S64x2048 .f32)
    (x5 : Vec Ideal S2048 .f32) (r : Fin 64) (j : Fin 2048) :
    k3_pay2 (F := Ideal) x0 x1 x2 x4 x3 x5 (ix2 r j)
      = Spec.x1 (fun l => x0 (ix2 r l)) (fun l => x1 (ix2 r l)) (fun l => x2 (ix2 r l)) (fun l => x3 (ix2 r l))
          (fun k l => x4 (ix2 k l)) (fun l => x5 (ix1 l)) j := by
  rw [pay2_eq]
  unfold Spec.x1 Spec.lin
  show (x3 (ix2 r j) + matmul dot_S64x2048_S2048x2048_S64x2048_1_0_0_1_n_n none (context x0 x1 x2)
        (shapeCast S2048x2048 x4 shapeCasts_S2048x2048_S2048x2048 : FVec Ideal S2048x2048 .bf16)
        (constant S64x2048 .f32 0x00000000#32) (ix2 r j))
      + broadcastTo S64x2048 (shapeCast S1x2048 x5 shapeCasts_S2048_S1x2048) broadcasts_S1x2048_S64x2048 (ix2 r j) = _
  rw [lin_mm_apply, bias_apply, shapeCast_self]
  refine congrArg (· + x5 (ix1 j)) (congrArg (x3 (ix2 r j) + ·) (Finset.sum_congr rfl fun k _ => ?_))
  rw [context_apply]

end Cert.KernelIdeal.Val

end
-- ==== Proof.KFfn.lean ====
/-
  The second half of the fused block's body, read at an index over the extended reals: the second
  pre-norm (the centred row, its unbiased standard deviation, the affine map) and the two-layer
  rectifier network with its residual. Every row of the 64-row block is treated alone: entry
  (r, j) of the result depends on row r of the residual stream only.
-/
import proofs.«414706_j8890582303248_3_alg».proof.Proof.Gen.KernelIdeal.Skeleton
import proofs.«414706_j8890582303248_3_alg».proof.Proof.Spec
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

set_option synthInstance.maxSize 4096

noncomputable section

namespace Cert.KernelIdeal.Val

open Idealize.ShloMosaic Idealize.SL.Sem Idealize.ShloMosaic.ValueIdx
open Cert.KernelIdeal Cert.KernelIdeal.Gen

/-! The auxiliary lemmas live in a namespace of their own; the two results the other modules cite follow it. -/
namespace Ffn

/-! ## The operations that are not entrywise, each read at an index -/

/-- The named reciprocal is 1/2047 at the extended reals. -/
theorem inv_2047_eq : Named.named (F := Ideal) κ "inv_2047" (φ := .f32) 0x3A001002#32 = Spec.invN1 :=
  IdealRules.named_const.ideal_named_scalar _ _ _ _ rfl

/-- A lane sum of a [64, 2048] array at row r is the sum of that row. -/
theorem laneSum_apply (Y : FVec Ideal S64x2048 .f32) (r : Fin 64) :
    multiReduction .add [1] S64 Y 0x00000000#32 reduces_S64x2048_S64 (.inl rfl) rfl (ix1 r)
      = ∑ k : Fin 2048, Y (ix2 r k) := by
  refine (Ideal.multiReduction_add_single Y 0x00000000#32 reduces_S64x2048_S64 (.inl rfl) rfl (ix1 r)).trans ?_
  refine Finset.sum_congr rfl fun k _ => congrArg Y (funext fun a => Fin.ext ?_)
  match a with
  | ⟨0, _⟩ => rfl
  | ⟨1, _⟩ => rfl

/-- A [64] array viewed as a [64, 1] column reads its entry r at (r, u). -/
theorem col_apply {α : Type} (v : S64.Idx → α) (r : Fin 64) (u : Fin 1) :
    shapeCast S64x1 v shapeCasts_S64_S64x1 (ix2 r u) = v (ix1 r) :=
  shapeCast_apply v shapeCasts_S64_S64x1 _ _ (by
    have hu : u.val = 0 := by omega
    rw [Shape.rowMajor_val_two, Shape.rowMajor_val_one]
    show r.val = r.val * 1 + u.val
    rw [hu, Nat.mul_one, Nat.add_zero])

/-- A [64, 1] column repeated along 2048 lanes reads its entry (r, 0) at (r, j). -/
theorem colBcast_apply {α : Type} (w : S64x1.Idx → α) (r : Fin 64) (j : Fin 2048) :
    broadcastTo S64x2048 w broadcasts_S64x1_S64x2048 (ix2 r j) = w (ix2 r (0 : Fin 1)) := by
  refine broadcastTo_apply w broadcasts_S64x1_S64x2048 (ix2 r j) (ix2 r (0 : Fin 1)) fun ax => ?_
  match ax with
  | ⟨0, _⟩ => rfl
  | ⟨1, _⟩ => rfl

/-- A [2048] vector viewed as one row and repeated down 64 rows reads its entry j at (r, j). -/
theorem rowBcast_apply {α : Type} (a : S2048.Idx → α) (r : Fin 64) (j : Fin 2048) :
    broadcastTo S64x2048 (shapeCast S1x2048 a shapeCasts_S2048_S1x2048) broadcasts_S1x2048_S64x2048 (ix2 r j)
      = a (ix1 j) :=
  (broadcastTo_1b_ab_apply _ broadcasts_S1x2048_S64x2048 r j).trans
    (shapeCast_a_1a_apply a shapeCasts_S2048_S1x2048 (0 : Fin 1) j)

/-! ### The block product -/

/-- The left operand's row coordinate is the output's. -/
theorem lhs_dot_S64x2048_S2048x2048_S64x2048_1_0_0_1_n_n_0 (i : S64x2048.Idx) (k : dot_S64x2048_S2048x2048_S64x2048_1_0_0_1_n_n.contr.Idx) :
    (dot_S64x2048_S2048x2048_S64x2048_1_0_0_1_n_n.lhsIdx i k 0).val = (i 0).val := by
  simp [DotDims.lhsIdx, dot_S64x2048_S2048x2048_S64x2048_1_0_0_1_n_n]; rfl

/-- The left operand's lane coordinate is the contraction position. -/
theorem lhs_dot_S64x2048_S2048x2048_S64x2048_1_0_0_1_n_n_1 (i : S64x2048.Idx) (k : dot_S64x2048_S2048x2048_S64x2048_1_0_0_1_n_n.contr.Idx) :
    (dot_S64x2048_S2048x2048_S64x2048_1_0_0_1_n_n.lhsIdx i k 1).val = (k ⟨0, by decide⟩).val :=
  dot_S64x2048_S2048x2048_S64x2048_1_0_0_1_n_n.lhsIdx_val_of_single rfl i k

/-- The right operand's row coordinate is the contraction position. -/
theorem rhs_dot_S64x2048_S2048x2048_S64x2048_1_0_0_1_n_n_0 (i : S64x2048.Idx) (k : dot_S64x2048_S2048x2048_S64x2048_1_0_0_1_n_n.contr.Idx) :
    (dot_S64x2048_S2048x2048_S64x2048_1_0_0_1_n_n.rhsIdx i k 0).val = (k ⟨0, by decide⟩).val :=
  dot_S64x2048_S2048x2048_S64x2048_1_0_0_1_n_n.rhsIdx_val_of_single rfl i k

/-- The right operand's lane coordinate is the output's. -/
theorem rhs_dot_S64x2048_S2048x2048_S64x2048_1_0_0_1_n_n_1 (i : S64x2048.Idx) (k : dot_S64x2048_S2048x2048_S64x2048_1_0_0_1_n_n.contr.Idx) :
    (dot_S64x2048_S2048x2048_S64x2048_1_0_0_1_n_n.rhsIdx i k 1).val = (i 1).val := by
  simp [DotDims.rhsIdx, dot_S64x2048_S2048x2048_S64x2048_1_0_0_1_n_n]; rfl

/-- A [64, 2048] block times a [2048, 2048] matrix, accumulated into zero, at (r, j): row r against column j. -/
theorem mm_apply (A : FVec Ideal S64x2048 .bf16) (W : FVec Ideal S2048x2048 .bf16) (r : Fin 64) (j : Fin 2048) :
    matmul dot_S64x2048_S2048x2048_S64x2048_1_0_0_1_n_n none A
        (shapeCast S2048x2048 W shapeCasts_S2048x2048_S2048x2048) (constant (F := Ideal) S64x2048 .f32 0x00000000#32) (ix2 r j)
      = ∑ k : Fin 2048, A (ix2 r k) * W (ix2 k j) := by
  show FloatOps.matmul dot_S64x2048_S2048x2048_S64x2048_1_0_0_1_n_n none A _ (constant (F := Ideal) S64x2048 .f32 0x00000000#32) (ix2 r j) = _
  rw [Ideal.matmul_constant_zero_apply, shapeCast_self,
    ← Equiv.sum_comp (contrEquiv1 dot_S64x2048_S2048x2048_S64x2048_1_0_0_1_n_n 2048 rfl rfl).symm]
  refine Finset.sum_congr rfl fun c _ => ?_
  have hc := contrEquiv1_symm_val dot_S64x2048_S2048x2048_S64x2048_1_0_0_1_n_n 2048 rfl rfl c
  have hl : dot_S64x2048_S2048x2048_S64x2048_1_0_0_1_n_n.lhsIdx (ix2 r j) ((contrEquiv1 dot_S64x2048_S2048x2048_S64x2048_1_0_0_1_n_n 2048 rfl rfl).symm c) = ix2 r c := by
    funext ax; apply Fin.ext
    match ax with
    | ⟨0, _⟩ => exact lhs_dot_S64x2048_S2048x2048_S64x2048_1_0_0_1_n_n_0 _ _
    | ⟨1, _⟩ => exact (lhs_dot_S64x2048_S2048x2048_S64x2048_1_0_0_1_n_n_1 _ _).trans hc
  have hr : dot_S64x2048_S2048x2048_S64x2048_1_0_0_1_n_n.rhsIdx (ix2 r j) ((contrEquiv1 dot_S64x2048_S2048x2048_S64x2048_1_0_0_1_n_n 2048 rfl rfl).symm c) = ix2 c j := by
    funext ax; apply Fin.ext
    match ax with
    | ⟨0, _⟩ => exact (rhs_dot_S64x2048_S2048x2048_S64x2048_1_0_0_1_n_n_0 _ _).trans hc
    | ⟨1, _⟩ => exact rhs_dot_S64x2048_S2048x2048_S64x2048_1_0_0_1_n_n_1 _ _
  rw [hl, hr]

/-! ## The centred row -/

/-- The row mean's subtraction, for an arbitrary array in place of the residual stream. -/
theorem cen_apply (Y : FVec Ideal S64x2048 .f32) (r : Fin 64) (j : Fin 2048) :
    subf Y (broadcastTo S64x2048
        (divf (shapeCast S64x1 (multiReduction .add [1] S64 Y 0x00000000#32 reduces_S64x2048_S64 (.inl rfl) rfl) shapeCasts_S64_S64x1)
          (broadcast S64x1 (Scalar.ofBits (F := Ideal) .f32 0x45000000#32))) broadcasts_S64x1_S64x2048) (ix2 r j)
      = Spec.cen (fun l => Y (ix2 r l)) j := by
  rw [subf_apply, colBcast_apply, divf_apply, col_apply, laneSum_apply, broadcast_apply]
  rfl

/-! ## The pre-norm and the two-layer network -/

/-- The body's [64, 1] column: the root of (the lane sum of squares times 1/2047), plus the small constant. -/
def sdCol (D : FVec Ideal S64x2048 .f32) : FVec Ideal S64x1 .f32 :=
  addf (sqrt (mulf
      (shapeCast S64x1 (multiReduction .add [1] S64 (mulf D D) 0x00000000#32 reduces_S64x2048_S64 (.inl rfl) rfl) shapeCasts_S64_S64x1)
      (broadcast S64x1 (Named.named (F := Ideal) κ "inv_2047" (φ := .f32) 0x3A001002#32))))
    (broadcast S64x1 (Scalar.ofBits (F := Ideal) .f32 0x358637BD#32))

/-- The body's normalised block: scale times the centred array over the column, plus shift. -/
def normed (D : FVec Ideal S64x2048 .f32) (x6 x7 : Vec Ideal S2048 .f32) : FVec Ideal S64x2048 .bf16 :=
  truncf .bf16
    (addf
      (divf (mulf (broadcastTo S64x2048 (shapeCast S1x2048 x6 shapeCasts_S2048_S1x2048 : FVec Ideal S1x2048 .f32) broadcasts_S1x2048_S64x2048) D)
        (broadcastTo S64x2048 (sdCol D) broadcasts_S64x1_S64x2048))
      (broadcastTo S64x2048 (shapeCast S1x2048 x7 shapeCasts_S2048_S1x2048 : FVec Ideal S1x2048 .f32) broadcasts_S1x2048_S64x2048))
    bitsLt_bf16_f32

/-- The body's hidden block: the first product plus its bias, rectified. -/
def hidden (D : FVec Ideal S64x2048 .f32) (x6 x7 : Vec Ideal S2048 .f32) (x8 : Vec Ideal S2048x2048 .bf16)
    (x9 : Vec Ideal S2048 .f32) : FVec Ideal S64x2048 .bf16 :=
  truncf .bf16
    (maximumf
      (addf
        (matmul dot_S64x2048_S2048x2048_S64x2048_1_0_0_1_n_n none (normed D x6 x7)
          (shapeCast S2048x2048 x8 shapeCasts_S2048x2048_S2048x2048 : FVec Ideal S2048x2048 .bf16) (constant (F := Ideal) S64x2048 .f32 0x00000000#32))
        (broadcastTo S64x2048 (shapeCast S1x2048 x9 shapeCasts_S2048_S1x2048 : FVec Ideal S1x2048 .f32) broadcasts_S1x2048_S64x2048))
      (broadcast S64x2048 (Scalar.ofBits (F := Ideal) .f32 0x00000000#32)))
    bitsLt_bf16_f32

/-- The last payload is the residual plus the second product of the hidden block, plus the last bias. -/
theorem pay1_eq (Y D : FVec Ideal S64x2048 .f32) (x6 x7 : Vec Ideal S2048 .f32) (x8 : Vec Ideal S2048x2048 .bf16)
    (x9 : Vec Ideal S2048 .f32) (x10 : Vec Ideal S2048x2048 .bf16) (x11 : Vec Ideal S2048 .f32) :
    k3_pay1 (F := Ideal) Y D x6 x7 x8 x9 x10 x11
      = addf
          (addf Y
            (matmul dot_S64x2048_S2048x2048_S64x2048_1_0_0_1_n_n none (hidden D x6 x7 x8 x9)
              (shapeCast S2048x2048 x10 shapeCasts_S2048x2048_S2048x2048 : FVec Ideal S2048x2048 .bf16) (constant (F := Ideal) S64x2048 .f32 0x00000000#32)))
          (broadcastTo S64x2048 (shapeCast S1x2048 x11 shapeCasts_S2048_S1x2048 : FVec Ideal S1x2048 .f32) broadcasts_S1x2048_S64x2048) := rfl

/-- A root taken entrywise. -/
theorem sqrt_apply {s : Shape} {φ : FTy} (a : FVec Ideal s φ) (i : s.Idx) : sqrt a i = Ideal.sqrt (a i) := rfl

theorem sdCol_apply (D : FVec Ideal S64x2048 .f32) (r : Fin 64) :
    sdCol D (ix2 r (0 : Fin 1))
      = Ideal.sqrt ((∑ k : Fin 2048, D (ix2 r k) * D (ix2 r k)) * Spec.invN1) + Spec.eps := by
  unfold sdCol
  rw [addf_apply, broadcast_apply, sqrt_apply, mulf_apply, col_apply, laneSum_apply, broadcast_apply, inv_2047_eq]
  rfl

theorem normed_apply (D : FVec Ideal S64x2048 .f32) (x6 x7 : Vec Ideal S2048 .f32) (r : Fin 64) (l : Fin 2048) :
    normed D x6 x7 (ix2 r l)
      = Ideal.div (x6 (ix1 l) * D (ix2 r l))
          (Ideal.sqrt ((∑ k : Fin 2048, D (ix2 r k) * D (ix2 r k)) * Spec.invN1) + Spec.eps) + x7 (ix1 l) := by
  unfold normed
  rw [truncf_apply, addf_apply, divf_apply, mulf_apply, rowBcast_apply, rowBcast_apply, colBcast_apply, sdCol_apply]

theorem hidden_apply (D : FVec Ideal S64x2048 .f32) (x6 x7 : Vec Ideal S2048 .f32) (x8 : Vec Ideal S2048x2048 .bf16)
    (x9 : Vec Ideal S2048 .f32) (r : Fin 64) (k : Fin 2048) :
    hidden D x6 x7 x8 x9 (ix2 r k)
      = Spec.relu (Spec.proj (fun a l => x8 (ix2 a l)) (fun l => x9 (ix1 l))
          (fun l => Ideal.div (x6 (ix1 l) * D (ix2 r l))
            (Ideal.sqrt ((∑ a : Fin 2048, D (ix2 r a) * D (ix2 r a)) * Spec.invN1) + Spec.eps) + x7 (ix1 l))) k := by
  unfold hidden
  rw [truncf_apply, maximumf_apply, addf_apply, mm_apply, rowBcast_apply, broadcast_apply]
  simp only [normed_apply]
  rfl

/-- The body's last payload over an arbitrary residual array Y and an arbitrary centred array D. -/
theorem pay1_gen (Y D : FVec Ideal S64x2048 .f32) (x6 x7 : Vec Ideal S2048 .f32) (x8 : Vec Ideal S2048x2048 .bf16)
    (x9 : Vec Ideal S2048 .f32) (x10 : Vec Ideal S2048x2048 .bf16) (x11 : Vec Ideal S2048 .f32) (r : Fin 64) (j : Fin 2048) :
    k3_pay1 (F := Ideal) Y D x6 x7 x8 x9 x10 x11 (ix2 r j)
      = (Y (ix2 r j) + Spec.lin (fun k l => x10 (ix2 k l))
          (Spec.relu (Spec.proj (fun k l => x8 (ix2 k l)) (fun l => x9 (ix1 l))
            (fun l => Ideal.div (x6 (ix1 l) * D (ix2 r l))
              (Ideal.sqrt ((∑ k : Fin 2048, D (ix2 r k) * D (ix2 r k)) * Spec.invN1) + Spec.eps) + x7 (ix1 l)))) j)
        + x11 (ix1 j) := by
  rw [pay1_eq, addf_apply, addf_apply, mm_apply, rowBcast_apply]
  simp only [hidden_apply]
  rfl

end Ffn

open Ffn

/-! ## The two payloads of the block's second half -/

/-- The centred payload is the residual payload minus its row means. -/
theorem pay3_apply (x0 x1 x2 : Vec Ideal S64x2048 .bf16) (x4 : Vec Ideal S2048x2048 .bf16) (x3 : Vec Ideal S64x2048 .f32)
    (x5 : Vec Ideal S2048 .f32) (r : Fin 64) (j : Fin 2048) :
    k3_pay3 (F := Ideal) x0 x1 x2 x4 x3 x5 (ix2 r j)
      = Spec.cen (fun l => k3_pay2 (F := Ideal) x0 x1 x2 x4 x3 x5 (ix2 r l)) j := by
  unfold k3_pay3
  generalize k3_pay2 (F := Ideal) x0 x1 x2 x4 x3 x5 = Y
  exact cen_apply Y r j

/-- The last payload is the feed-forward block, with its residual, of the residual payload's row. -/
theorem pay1_apply (x0 x1 x2 : Vec Ideal S64x2048 .bf16) (x4 : Vec Ideal S2048x2048 .bf16) (x3 : Vec Ideal S64x2048 .f32)
    (x5 x6 x7 : Vec Ideal S2048 .f32) (x8 : Vec Ideal S2048x2048 .bf16) (x9 : Vec Ideal S2048 .f32)
    (x10 : Vec Ideal S2048x2048 .bf16) (x11 : Vec Ideal S2048 .f32) (r : Fin 64) (j : Fin 2048) :
    k3_pay1 (F := Ideal) (k3_pay2 x0 x1 x2 x4 x3 x5) (k3_pay3 x0 x1 x2 x4 x3 x5) x6 x7 x8 x9 x10 x11 (ix2 r j)
      = Spec.ffn (fun l => k3_pay2 (F := Ideal) x0 x1 x2 x4 x3 x5 (ix2 r l)) (fun l => x6 (ix1 l)) (fun l => x7 (ix1 l))
          (fun k l => x8 (ix2 k l)) (fun l => x9 (ix1 l)) (fun k l => x10 (ix2 k l)) (fun l => x11 (ix1 l)) j := by
  rw [pay1_gen]
  simp only [pay3_apply]
  generalize k3_pay2 (F := Ideal) x0 x1 x2 x4 x3 x5 = Y
  rfl

end Cert.KernelIdeal.Val

end
-- ==== Proof.KReg3.lean ====
/-
  Region 3's output array as one function of the arrays the region finds.

  The grid has 128 points; point t reads rows 64·t … 64·t + 63 of the three projected arrays and of
  the residual input, and the whole of every weight and bias, and writes rows 64·t … 64·t + 63 of the
  output. The body's one store leaves, at row r and column j of its block, the specification's row
  function of the r-th rows of the four row blocks; a block's coordinate is the block index times the
  block size plus the coordinate inside the block, so that is the specification's array at row
  64·t + r and column j. Every row n of the output is in the block of point n / 64, hence the array
  after the last write-back is the specification's array everywhere.
-/
import proofs.«414706_j8890582303248_3_alg».proof.Proof.Gen.KernelIdeal.Frame
import proofs.«414706_j8890582303248_3_alg».proof.Proof.Spec
import proofs.«414706_j8890582303248_3_alg».proof.Proof.KAttn
import proofs.«414706_j8890582303248_3_alg».proof.Proof.KFfn
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

namespace Reg3

/-! ## The body's store at an index -/

theorem zero2 : (![0, 0] : Fin 2 → Nat) = fun _ => 0 := funext fun a => by fin_cases a <;> rfl
theorem zero1 : (![0] : Fin 1 → Nat) = fun _ => 0 := funext fun a => by fin_cases a <;> rfl

/-- What the body leaves in the output's buffer, at row r and column j: the specification's row function of the
    r-th rows of the row blocks, the weights and the biases. -/
theorem out_apply (x0 x1 x2 : Vec Ideal S64x2048 .bf16) (x3 : Vec Ideal S64x2048 .f32) (x4 : Vec Ideal S2048x2048 .bf16)
    (x5 x6 x7 : Vec Ideal S2048 .f32) (x8 : Vec Ideal S2048x2048 .bf16) (x9 : Vec Ideal S2048 .f32)
    (x10 : Vec Ideal S2048x2048 .bf16) (x11 : Vec Ideal S2048 .f32) (r : Fin 64) (j : Fin 2048) :
    out3_12 (F := Ideal) x0 x1 x2 x3 x4 x5 x6 x7 x8 x9 x10 x11 (ix2 r j)
      = Spec.outRow (fun l => x0 (ix2 r l)) (fun l => x1 (ix2 r l)) (fun l => x2 (ix2 r l)) (fun l => x3 (ix2 r l))
          (fun k l => x4 (ix2 k l)) (fun l => x5 (ix1 l)) (fun l => x6 (ix1 l)) (fun l => x7 (ix1 l))
          (fun k l => x8 (ix2 k l)) (fun l => x9 (ix1 l)) (fun k l => x10 (ix2 k l)) (fun l => x11 (ix1 l)) j := by
  unfold out3_12
  rw [View.canon_unit_zero zero2]
  simp only [View.ld_unit_zero (S := S64x2048) zero2, View.ld_unit_zero (S := S2048x2048) zero2,
    View.ld_unit_zero (S := S2048) zero1]
  refine (pay1_apply x0 x1 x2 x4 x3 x5 x6 x7 x8 x9 x10 x11 r j).trans ?_
  unfold Spec.outRow
  exact congrArg (fun X : Spec.Row => Spec.ffn X (fun l => x6 (ix1 l)) (fun l => x7 (ix1 l)) (fun k l => x8 (ix2 k l))
    (fun l => x9 (ix1 l)) (fun k l => x10 (ix2 k l)) (fun l => x11 (ix1 l)) j)
    (funext fun l => pay2_apply x0 x1 x2 x4 x3 x5 r l)

/-! ## The blocks, read off the arrays -/

/-- The printed index maps over the grid: the row-blocked windows are at block (t, 0), the others at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 1) = 0
    ∧ win3_6.index t (0 : Fin 1) = 0
    ∧ win3_7.index t (0 : Fin 1) = 0
    ∧ win3_8.index t (0 : Fin 2) = 0 ∧ win3_8.index t (1 : Fin 2) = 0
    ∧ win3_9.index t (0 : Fin 1) = 0
    ∧ win3_10.index t (0 : Fin 2) = 0 ∧ win3_10.index t (1 : Fin 2) = 0
    ∧ win3_11.index t (0 : Fin 1) = 0
    ∧ win3_12.index t (0 : Fin 2) = t.val ∧ win3_12.index t (1 : Fin 2) = 0 :=
  (by decide +kernel : ∀ t : Fin grid3.N, _)

/-- Window 0's block at point t, at row r and column l, is the array at row 64·t + r and column l. -/
theorem blk0_apply (c : Dev nD) (t : Fin cfg3.N) (r : Fin 64) (l : Fin 2048) (n : Fin 8192) (hn : n.val = 64 * t.val + r.val) :
    (iblk3 V c 0 t : Vec Ideal S64x2048 .bf16) (ix2 r l) = (V c main_v6 : Spec.Arr2) (ix2 n l) := by
  obtain ⟨a00, a01, a10, a11, a20, a21, a30, a31, a40, a41, a50, a60, a70, a80, a81, a90, aA0, aA1, aB0, aC0, aC1⟩ := idx_facts t
  unfold iblk3
  rw [View.read_apply]
  show (V c main_v6 : Spec.Arr2) _ = _
  refine congrArg (V c main_v6 : Spec.Arr2) (funext fun a => Fin.ext ?_)
  match a with
  | ⟨0, _⟩ => show win3_0.index t (0 : Fin 2) * 64 + 1 * r.val = n.val; rw [a00, hn]; omega
  | ⟨1, _⟩ => show win3_0.index t (1 : Fin 2) * 2048 + 1 * l.val = l.val; rw [a01]; omega

theorem blk1_apply (c : Dev nD) (t : Fin cfg3.N) (r : Fin 64) (l : Fin 2048) (n : Fin 8192) (hn : n.val = 64 * t.val + r.val) :
    (iblk3 V c 1 t : Vec Ideal S64x2048 .bf16) (ix2 r l) = (V c main_v7 : Spec.Arr2) (ix2 n l) := by
  obtain ⟨a00, a01, a10, a11, a20, a21, a30, a31, a40, a41, a50, a60, a70, a80, a81, a90, aA0, aA1, aB0, aC0, aC1⟩ := idx_facts t
  unfold iblk3
  rw [View.read_apply]
  show (V c main_v7 : Spec.Arr2) _ = _
  refine congrArg (V c main_v7 : Spec.Arr2) (funext fun a => Fin.ext ?_)
  match a with
  | ⟨0, _⟩ => show win3_1.index t (0 : Fin 2) * 64 + 1 * r.val = n.val; rw [a10, hn]; omega
  | ⟨1, _⟩ => show win3_1.index t (1 : Fin 2) * 2048 + 1 * l.val = l.val; rw [a11]; omega

theorem blk2_apply (c : Dev nD) (t : Fin cfg3.N) (r : Fin 64) (l : Fin 2048) (n : Fin 8192) (hn : n.val = 64 * t.val + r.val) :
    (iblk3 V c 2 t : Vec Ideal S64x2048 .bf16) (ix2 r l) = (V c main_v8 : Spec.Arr2) (ix2 n l) := by
  obtain ⟨a00, a01, a10, a11, a20, a21, a30, a31, a40, a41, a50, a60, a70, a80, a81, a90, aA0, aA1, aB0, aC0, aC1⟩ := idx_facts t
  unfold iblk3
  rw [View.read_apply]
  show (V c main_v8 : Spec.Arr2) _ = _
  refine congrArg (V c main_v8 : Spec.Arr2) (funext fun a => Fin.ext ?_)
  match a with
  | ⟨0, _⟩ => show win3_2.index t (0 : Fin 2) * 64 + 1 * r.val = n.val; rw [a20, hn]; omega
  | ⟨1, _⟩ => show win3_2.index t (1 : Fin 2) * 2048 + 1 * l.val = l.val; rw [a21]; omega

theorem blk3_apply (c : Dev nD) (t : Fin cfg3.N) (r : Fin 64) (l : Fin 2048) (n : Fin 8192) (hn : n.val = 64 * t.val + r.val) :
    (iblk3 V c 3 t : Vec Ideal S64x2048 .f32) (ix2 r l) = (V c main_arg2 : Spec.Arr2) (ix2 n l) := by
  obtain ⟨a00, a01, a10, a11, a20, a21, a30, a31, a40, a41, a50, a60, a70, a80, a81, a90, aA0, aA1, aB0, aC0, aC1⟩ := idx_facts t
  unfold iblk3
  rw [View.read_apply]
  show (V c main_arg2 : Spec.Arr2) _ = _
  refine congrArg (V c main_arg2 : Spec.Arr2) (funext fun a => Fin.ext ?_)
  match a with
  | ⟨0, _⟩ => show win3_3.index t (0 : Fin 2) * 64 + 1 * r.val = n.val; rw [a30, hn]; omega
  | ⟨1, _⟩ => show win3_3.index t (1 : Fin 2) * 2048 + 1 * l.val = l.val; rw [a31]; omega

/-- The weights' and biases' windows hold the whole array at every point. -/
theorem blk4_apply (c : Dev nD) (t : Fin cfg3.N) (k l : Fin 2048) :
    (iblk3 V c 4 t : Vec Ideal S2048x2048 .bf16) (ix2 k l) = (V c main_v3 : Spec.ArrW) (ix2 k l) := by
  obtain ⟨a00, a01, a10, a11, a20, a21, a30, a31, a40, a41, a50, a60, a70, a80, a81, a90, aA0, aA1, aB0, aC0, aC1⟩ := idx_facts t
  unfold iblk3
  rw [View.read_apply]
  show (V c main_v3 : Spec.ArrW) _ = _
  refine congrArg (V c main_v3 : Spec.ArrW) (funext fun a => Fin.ext ?_)
  match a with
  | ⟨0, _⟩ => show win3_4.index t (0 : Fin 2) * 2048 + 1 * k.val = k.val; rw [a40]; omega
  | ⟨1, _⟩ => show win3_4.index t (1 : Fin 2) * 2048 + 1 * l.val = l.val; rw [a41]; omega

theorem blk5_apply (c : Dev nD) (t : Fin cfg3.N) (l : Fin 2048) :
    (iblk3 V c 5 t : Vec Ideal S2048 .f32) (ix1 l) = (V c main_arg18 : Spec.Arr1) (ix1 l) := by
  obtain ⟨a00, a01, a10, a11, a20, a21, a30, a31, a40, a41, a50, a60, a70, a80, a81, a90, aA0, aA1, aB0, aC0, aC1⟩ := idx_facts t
  unfold iblk3
  rw [View.read_apply]
  show (V c main_arg18 : Spec.Arr1) _ = _
  refine congrArg (V c main_arg18 : Spec.Arr1) (funext fun a => Fin.ext ?_)
  match a with
  | ⟨0, _⟩ => show win3_5.index t (0 : Fin 1) * 2048 + 1 * l.val = l.val; rw [a50]; omega

theorem blk6_apply (c : Dev nD) (t : Fin cfg3.N) (l : Fin 2048) :
    (iblk3 V c 6 t : Vec Ideal S2048 .f32) (ix1 l) = (V c main_arg9 : Spec.Arr1) (ix1 l) := by
  obtain ⟨a00, a01, a10, a11, a20, a21, a30, a31, a40, a41, a50, a60, a70, a80, a81, a90, aA0, aA1, aB0, aC0, aC1⟩ := idx_facts t
  unfold iblk3
  rw [View.read_apply]
  show (V c main_arg9 : Spec.Arr1) _ = _
  refine congrArg (V c main_arg9 : Spec.Arr1) (funext fun a => Fin.ext ?_)
  match a with
  | ⟨0, _⟩ => show win3_6.index t (0 : Fin 1) * 2048 + 1 * l.val = l.val; rw [a60]; omega

theorem blk7_apply (c : Dev nD) (t : Fin cfg3.N) (l : Fin 2048) :
    (iblk3 V c 7 t : Vec Ideal S2048 .f32) (ix1 l) = (V c main_arg10 : Spec.Arr1) (ix1 l) := by
  obtain ⟨a00, a01, a10, a11, a20, a21, a30, a31, a40, a41, a50, a60, a70, a80, a81, a90, aA0, aA1, aB0, aC0, aC1⟩ := idx_facts t
  unfold iblk3
  rw [View.read_apply]
  show (V c main_arg10 : Spec.Arr1) _ = _
  refine congrArg (V c main_arg10 : Spec.Arr1) (funext fun a => Fin.ext ?_)
  match a with
  | ⟨0, _⟩ => show win3_7.index t (0 : Fin 1) * 2048 + 1 * l.val = l.val; rw [a70]; omega

theorem blk8_apply (c : Dev nD) (t : Fin cfg3.N) (k l : Fin 2048) :
    (iblk3 V c 8 t : Vec Ideal S2048x2048 .bf16) (ix2 k l) = (V c main_v4 : Spec.ArrW) (ix2 k l) := by
  obtain ⟨a00, a01, a10, a11, a20, a21, a30, a31, a40, a41, a50, a60, a70, a80, a81, a90, aA0, aA1, aB0, aC0, aC1⟩ := idx_facts t
  unfold iblk3
  rw [View.read_apply]
  show (V c main_v4 : Spec.ArrW) _ = _
  refine congrArg (V c main_v4 : Spec.ArrW) (funext fun a => Fin.ext ?_)
  match a with
  | ⟨0, _⟩ => show win3_8.index t (0 : Fin 2) * 2048 + 1 * k.val = k.val; rw [a80]; omega
  | ⟨1, _⟩ => show win3_8.index t (1 : Fin 2) * 2048 + 1 * l.val = l.val; rw [a81]; omega

theorem blk9_apply (c : Dev nD) (t : Fin cfg3.N) (l : Fin 2048) :
    (iblk3 V c 9 t : Vec Ideal S2048 .f32) (ix1 l) = (V c main_arg20 : Spec.Arr1) (ix1 l) := by
  obtain ⟨a00, a01, a10, a11, a20, a21, a30, a31, a40, a41, a50, a60, a70, a80, a81, a90, aA0, aA1, aB0, aC0, aC1⟩ := idx_facts t
  unfold iblk3
  rw [View.read_apply]
  show (V c main_arg20 : Spec.Arr1) _ = _
  refine congrArg (V c main_arg20 : Spec.Arr1) (funext fun a => Fin.ext ?_)
  match a with
  | ⟨0, _⟩ => show win3_9.index t (0 : Fin 1) * 2048 + 1 * l.val = l.val; rw [a90]; omega

theorem blk10_apply (c : Dev nD) (t : Fin cfg3.N) (k l : Fin 2048) :
    (iblk3 V c 10 t : Vec Ideal S2048x2048 .bf16) (ix2 k l) = (V c main_v5 : Spec.ArrW) (ix2 k l) := by
  obtain ⟨a00, a01, a10, a11, a20, a21, a30, a31, a40, a41, a50, a60, a70, a80, a81, a90, aA0, aA1, aB0, aC0, aC1⟩ := idx_facts t
  unfold iblk3
  rw [View.read_apply]
  show (V c main_v5 : Spec.ArrW) _ = _
  refine congrArg (V c main_v5 : Spec.ArrW) (funext fun a => Fin.ext ?_)
  match a with
  | ⟨0, _⟩ => show win3_10.index t (0 : Fin 2) * 2048 + 1 * k.val = k.val; rw [aA0]; omega
  | ⟨1, _⟩ => show win3_10.index t (1 : Fin 2) * 2048 + 1 * l.val = l.val; rw [aA1]; omega

theorem blk11_apply (c : Dev nD) (t : Fin cfg3.N) (l : Fin 2048) :
    (iblk3 V c 11 t : Vec Ideal S2048 .f32) (ix1 l) = (V c main_arg22 : Spec.Arr1) (ix1 l) := by
  obtain ⟨a00, a01, a10, a11, a20, a21, a30, a31, a40, a41, a50, a60, a70, a80, a81, a90, aA0, aA1, aB0, aC0, aC1⟩ := idx_facts t
  unfold iblk3
  rw [View.read_apply]
  show (V c main_arg22 : Spec.Arr1) _ = _
  refine congrArg (V c main_arg22 : Spec.Arr1) (funext fun a => Fin.ext ?_)
  match a with
  | ⟨0, _⟩ => show win3_11.index t (0 : Fin 1) * 2048 + 1 * l.val = l.val; rw [aB0]; omega

/-- The output's block at point t sits at rows 64·t … 64·t + 63. -/
theorem emb12 (t : Fin cfg3.N) (r : Fin 64) (l : Fin 2048) (n : Fin 8192) (hn : n.val = 64 * t.val + r.val) :
    ((cfg3.win 12).blk t).view.emb (ix2 r l) = (ix2 n l : S8192x2048.Idx) := by
  obtain ⟨a00, a01, a10, a11, a20, a21, a30, a31, a40, a41, a50, a60, a70, a80, a81, a90, aA0, aA1, aB0, aC0, aC1⟩ := idx_facts t
  funext a; refine Fin.ext ?_
  match a with
  | ⟨0, _⟩ => show win3_12.index t (0 : Fin 2) * 64 + 1 * r.val = n.val; rw [aC0, hn]; omega
  | ⟨1, _⟩ => show win3_12.index t (1 : Fin 2) * 2048 + 1 * l.val = l.val; rw [aC1]; omega

/-! ## What a point writes back -/

/-- The row function at equal arguments. -/
theorem outRow_congr {Q Q' K K' X X' v v' : Spec.Row} {Wo Wo' : Spec.Mat} {bo bo' na na' nb nb' : Spec.Row} {W1 W1' : Spec.Mat}
    {b1 b1' : Spec.Row} {W2 W2' : Spec.Mat} {b2 b2' : Spec.Row} (j : Fin 2048)
    (hQ : Q = Q') (hK : K = K') (hX : X = X') (hv : v = v') (hWo : Wo = Wo') (hbo : bo = bo') (hna : na = na') (hnb : nb = nb')
    (hW1 : W1 = W1') (hb1 : b1 = b1') (hW2 : W2 = W2') (hb2 : b2 = b2') :
    Spec.outRow Q K X v Wo bo na nb W1 b1 W2 b2 j = Spec.outRow Q' K' X' v' Wo' bo' na' nb' W1' b1' W2' b2' j := by
  subst hQ hK hX hv hWo hbo hna hnb hW1 hb1 hW2 hb2; rfl

theorem row0_ix2 (n : Fin 8192) (l : Fin 2048) : Spec.row0 (ix2 n l) = n := rfl
theorem col1_ix2 (n : Fin 8192) (l : Fin 2048) : Spec.col1 (ix2 n l) = l := rfl

/-- Point t writes back its block of the specification's array. -/
theorem flushed_eq (c : Dev nD) (t : Fin cfg3.N) :
    (dat3 (F := Ideal) V c).flushed 12 t
      = ((cfg3.win 12).blk t).view.read (Elt Ideal) (Spec.AF (V c main_v6) (V c main_v7) (V c main_v8) (V c main_arg2) (V c main_v3) (V c main_arg18)
          (V c main_arg9) (V c main_arg10) (V c main_v4) (V c main_arg20) (V c main_v5) (V c main_arg22)) := by
  show (cfg3.win 12).cut (grid3.coords t) ((dat3 (F := Ideal) V c).after 12 t) = _
  rw [after3_12]
  refine funext fun (j : S64x2048.Idx) => ?_
  obtain ⟨r, l, rfl⟩ : ∃ (r : Fin 64) (l : Fin 2048), j = ix2 r l := ⟨j 0, j 1, eq_ix2 j⟩
  have ht : t.val < 128 := t.isLt
  have hr : r.val < 64 := r.isLt
  rw [View.read_apply, emb12 t r l ⟨64 * t.val + r.val, by omega⟩ rfl]
  refine (out_apply (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t) r l).trans ?_
  unfold Spec.AF
  rw [row0_ix2, col1_ix2]
  exact outRow_congr l
    (funext fun l' => blk0_apply V c t r l' _ rfl) (funext fun l' => blk1_apply V c t r l' _ rfl)
    (funext fun l' => blk2_apply V c t r l' _ rfl) (funext fun l' => blk3_apply V c t r l' _ rfl)
    (funext fun k => funext fun l' => blk4_apply V c t k l') (funext fun l' => blk5_apply V c t l')
    (funext fun l' => blk6_apply V c t l') (funext fun l' => blk7_apply V c t l')
    (funext fun k => funext fun l' => blk8_apply V c t k l') (funext fun l' => blk9_apply V c t l')
    (funext fun k => funext fun l' => blk10_apply V c t k l') (funext fun l' => blk11_apply V c t l')

/-! ## The cover, and the array -/

/-- An index of the array is in point t's block iff each coordinate is in the block's range on its axis. -/
theorem mem_blk (t : Fin cfg3.N) (i : S8192x2048.Idx) :
    i ∈ ((cfg3.win 12).blk t).view.set ↔ ∀ a : Fin 2, win3_12.index t a * S64x2048.size a ≤ (i a).val
      ∧ (i a).val < win3_12.index t a * S64x2048.size a + S64x2048.size a := by
  show i ∈ ((View.whole main_v9).slice (win3_12.rect t)).set ↔ _
  rw [View.set_slice_whole, Rect.mem_set_unit]
  exact Iff.rfl

/-- Row n is in the block of point n / 64. -/
theorem cover (i : S8192x2048.Idx) :
    ∃ t : Fin cfg3.N, (cfg3.win 12).flush t = true ∧ i ∈ ((cfg3.win 12).blk t).view.set := by
  have h0 : (i 0).val < 8192 := (i 0).isLt
  have h1 : (i 1).val < 2048 := (i 1).isLt
  have hq : (i 0).val / 64 < cfg3.N := by show _ < 128; omega
  obtain ⟨a00, a01, a10, a11, a20, a21, a30, a31, a40, a41, a50, a60, a70, a80, a81, a90, aA0, aA1, aB0, aC0, aC1⟩ := idx_facts ⟨(i 0).val / 64, hq⟩
  have e0 : win3_12.index ⟨(i 0).val / 64, hq⟩ (0 : Fin 2) = (i 0).val / 64 := aC0
  refine ⟨⟨(i 0).val / 64, hq⟩, flush3_12 _, ?_⟩
  rw [mem_blk]
  intro a
  match a with
  | ⟨0, _⟩ =>
    show win3_12.index ⟨(i 0).val / 64, hq⟩ (0 : Fin 2) * 64 ≤ (i 0).val
      ∧ (i 0).val < win3_12.index ⟨(i 0).val / 64, hq⟩ (0 : Fin 2) * 64 + 64
    rw [e0]; omega
  | ⟨1, _⟩ =>
    show win3_12.index ⟨(i 0).val / 64, hq⟩ (1 : Fin 2) * 2048 ≤ (i 1).val
      ∧ (i 1).val < win3_12.index ⟨(i 0).val / 64, hq⟩ (1 : Fin 2) * 2048 + 2048
    rw [aC1]; omega

end Reg3

/-- The output array after the region: the specification's array of the arrays the region finds. -/
theorem region3_arr (c : Dev nD) :
    (dat3 (F := Ideal) V c).arrAt 12 cfg3.N
      = Spec.AF (V c main_v6) (V c main_v7) (V c main_v8) (V c main_arg2) (V c main_v3) (V c main_arg18)
          (V c main_arg9) (V c main_arg10) (V c main_v4) (V c main_arg20) (V c main_v5) (V c main_arg22) :=
  (dat3 (F := Ideal) V c).arrAt_eq_of_cover 12
    (Spec.AF (V c main_v6) (V c main_v7) (V c main_v8) (V c main_arg2) (V c main_v3) (V c main_arg18)
          (V c main_arg9) (V c main_arg10) (V c main_v4) (V c main_arg20) (V c main_v5) (V c main_arg22))
    (fun t _ => Reg3.flushed_eq V c t) Reg3.cover

end Cert.KernelIdeal.Val

end
-- ==== Proof.KPlumb.lean ====
/-
  The idealized kernel program's result as one function of the launch arrays.

  Region 3's output array is the attention / feed-forward function `Spec.AF` of the arrays region 3
  finds; three of those are the outputs of regions 0, 1, 2, each the pre-norm + projection `Spec.NP` of
  arrays that are still the launch arrays when that region starts; the converted weights are the launch
  weights (rounding to bf16 is the identity over the extended reals).  Chaining these gives `Spec.G`.
-/
import proofs.«414706_j8890582303248_3_alg».proof.Proof.Gen.KernelIdeal.Frame
import proofs.«414706_j8890582303248_3_alg».proof.Proof.Spec
import proofs.«414706_j8890582303248_3_alg».proof.Proof.KKeep
import proofs.«414706_j8890582303248_3_alg».proof.Proof.KReg0
import proofs.«414706_j8890582303248_3_alg».proof.Proof.KReg1
import proofs.«414706_j8890582303248_3_alg».proof.Proof.KReg2
import proofs.«414706_j8890582303248_3_alg».proof.Proof.KReg3
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-! ## The six converted weights hold the launch weights: rounding to bf16 is the identity over the extended reals -/

theorem W1_v0 (c : Dev nD) : (W1 m ρ c (Proc.devRef .tc main_v0) : S2048x2048.Idx → EReal) = (m ((c : Thread nD τ).loc main_arg11)) := by
  show StableHlo.after hostOps0 (W0 m ρ c) (Proc.devRef .tc main_v0) = _; after_results; rfl
theorem W1_v1 (c : Dev nD) : (W1 m ρ c (Proc.devRef .tc main_v1) : S2048x2048.Idx → EReal) = (m ((c : Thread nD τ).loc main_arg13)) := by
  show StableHlo.after hostOps0 (W0 m ρ c) (Proc.devRef .tc main_v1) = _; after_results; rfl
theorem W1_v2 (c : Dev nD) : (W1 m ρ c (Proc.devRef .tc main_v2) : S2048x2048.Idx → EReal) = (m ((c : Thread nD τ).loc main_arg15)) := by
  show StableHlo.after hostOps0 (W0 m ρ c) (Proc.devRef .tc main_v2) = _; after_results; rfl
theorem W1_v3 (c : Dev nD) : (W1 m ρ c (Proc.devRef .tc main_v3) : S2048x2048.Idx → EReal) = (m ((c : Thread nD τ).loc main_arg17)) := by
  show StableHlo.after hostOps0 (W0 m ρ c) (Proc.devRef .tc main_v3) = _; after_results; rfl
theorem W1_v4 (c : Dev nD) : (W1 m ρ c (Proc.devRef .tc main_v4) : S2048x2048.Idx → EReal) = (m ((c : Thread nD τ).loc main_arg19)) := by
  show StableHlo.after hostOps0 (W0 m ρ c) (Proc.devRef .tc main_v4) = _; after_results; rfl
theorem W1_v5 (c : Dev nD) : (W1 m ρ c (Proc.devRef .tc main_v5) : S2048x2048.Idx → EReal) = (m ((c : Thread nD τ).loc main_arg21)) := by
  show StableHlo.after hostOps0 (W0 m ρ c) (Proc.devRef .tc main_v5) = _; after_results; rfl

/-! ## The three projections' outputs, as functions of the launch arrays -/

/-- Region 0 leaves in its output the pre-norm and projection of q. -/
theorem W2_v6 (c : Dev nD) : (W2 m ρ c (Proc.devRef .tc main_v6) : S8192x2048.Idx → EReal)
    = Spec.NP (m ((c : Thread nD τ).loc main_arg0)) (m ((c : Thread nD τ).loc main_arg3)) (m ((c : Thread nD τ).loc main_arg4)) (m ((c : Thread nD τ).loc main_arg11)) (m ((c : Thread nD τ).loc main_arg12)) := by
  have e := (W2_arr m ρ c 5).trans (region0_arr (V1 m ρ) c)
  refine e.trans ?_
  rw [show V1 m ρ c main_arg0 = _ from W1_keep m ρ c main_arg0 (by decide) (by decide) (by decide) (by decide) (by decide) (by decide),
    show V1 m ρ c main_arg3 = _ from W1_keep m ρ c main_arg3 (by decide) (by decide) (by decide) (by decide) (by decide) (by decide),
    show V1 m ρ c main_arg4 = _ from W1_keep m ρ c main_arg4 (by decide) (by decide) (by decide) (by decide) (by decide) (by decide),
    show V1 m ρ c main_arg12 = _ from W1_keep m ρ c main_arg12 (by decide) (by decide) (by decide) (by decide) (by decide) (by decide),
    show (V1 m ρ c main_v0 : S2048x2048.Idx → EReal) = _ from W1_v0 m ρ c]

/-- Region 1 leaves in its output the pre-norm and projection of k. -/
theorem W3_v7 (c : Dev nD) : (W3 m ρ c (Proc.devRef .tc main_v7) : S8192x2048.Idx → EReal)
    = Spec.NP (m ((c : Thread nD τ).loc main_arg1)) (m ((c : Thread nD τ).loc main_arg5)) (m ((c : Thread nD τ).loc main_arg6)) (m ((c : Thread nD τ).loc main_arg13)) (m ((c : Thread nD τ).loc main_arg14)) := by
  have e := (W3_arr m ρ c 5).trans (region1_arr (V2 m ρ) c)
  refine e.trans ?_
  rw [show V2 m ρ c main_arg1 = _ from (W2_keep m ρ c main_arg1 (by decide)).trans (W1_keep m ρ c main_arg1 (by decide) (by decide) (by decide) (by decide) (by decide) (by decide)),
    show V2 m ρ c main_arg5 = _ from (W2_keep m ρ c main_arg5 (by decide)).trans (W1_keep m ρ c main_arg5 (by decide) (by decide) (by decide) (by decide) (by decide) (by decide)),
    show V2 m ρ c main_arg6 = _ from (W2_keep m ρ c main_arg6 (by decide)).trans (W1_keep m ρ c main_arg6 (by decide) (by decide) (by decide) (by decide) (by decide) (by decide)),
    show V2 m ρ c main_arg14 = _ from (W2_keep m ρ c main_arg14 (by decide)).trans (W1_keep m ρ c main_arg14 (by decide) (by decide) (by decide) (by decide) (by decide) (by decide)),
    show (V2 m ρ c main_v1 : S2048x2048.Idx → EReal) = _ from (W2_keep m ρ c main_v1 (by decide)).trans (W1_v1 m ρ c)]

/-- Region 2 leaves in its output the pre-norm and projection of v. -/
theorem W4_v8 (c : Dev nD) : (W4 m ρ c (Proc.devRef .tc main_v8) : S8192x2048.Idx → EReal)
    = Spec.NP (m ((c : Thread nD τ).loc main_arg2)) (m ((c : Thread nD τ).loc main_arg7)) (m ((c : Thread nD τ).loc main_arg8)) (m ((c : Thread nD τ).loc main_arg15)) (m ((c : Thread nD τ).loc main_arg16)) := by
  have e := (W4_arr m ρ c 5).trans (region2_arr (V3 m ρ) c)
  refine e.trans ?_
  have k3 : ∀ b : Ref sig .tc, b ≠ main_v7 → b ≠ main_v6 → W3 m ρ c (Proc.devRef .tc b) = W1 m ρ c (Proc.devRef .tc b) :=
    fun b h7 h6 => (W3_keep m ρ c b h7).trans (W2_keep m ρ c b h6)
  rw [show V3 m ρ c main_arg2 = _ from (k3 main_arg2 (by decide) (by decide)).trans (W1_keep m ρ c main_arg2 (by decide) (by decide) (by decide) (by decide) (by decide) (by decide)),
    show V3 m ρ c main_arg7 = _ from (k3 main_arg7 (by decide) (by decide)).trans (W1_keep m ρ c main_arg7 (by decide) (by decide) (by decide) (by decide) (by decide) (by decide)),
    show V3 m ρ c main_arg8 = _ from (k3 main_arg8 (by decide) (by decide)).trans (W1_keep m ρ c main_arg8 (by decide) (by decide) (by decide) (by decide) (by decide) (by decide)),
    show V3 m ρ c main_arg16 = _ from (k3 main_arg16 (by decide) (by decide)).trans (W1_keep m ρ c main_arg16 (by decide) (by decide) (by decide) (by decide) (by decide) (by decide)),
    show (V3 m ρ c main_v2 : S2048x2048.Idx → EReal) = _ from (k3 main_v2 (by decide) (by decide)).trans (W1_v2 m ρ c)]

/-! ## The result -/

/-- After region 3 the result buffer holds `Spec.G` of the launch arrays. -/
theorem W5_v9 (c : Dev nD) : (W5 m ρ c (Proc.devRef .tc main_v9) : S8192x2048.Idx → EReal)
    = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  have e := (W5_arr m ρ c 12).trans (region3_arr (V4 m ρ) c)
  refine e.trans ?_
  have k4 : ∀ b : Ref sig .tc, b ≠ main_v8 → b ≠ main_v7 → b ≠ main_v6 → W4 m ρ c (Proc.devRef .tc b) = W1 m ρ c (Proc.devRef .tc b) :=
    fun b h8 h7 h6 => (W4_keep m ρ c b h8).trans ((W3_keep m ρ c b h7).trans (W2_keep m ρ c b h6))
  have kl : ∀ b : Ref sig .tc, b ≠ main_v0 → b ≠ main_v1 → b ≠ main_v2 → b ≠ main_v3 → b ≠ main_v4 → b ≠ main_v5 →
      b ≠ main_v6 → b ≠ main_v7 → b ≠ main_v8 → V4 m ρ c b = m ((c : Thread nD τ).loc b) :=
    fun b h0 h1 h2 h3 h4 h5 h6 h7 h8 => W4_launch m ρ c b h0 h1 h2 h3 h4 h5 h6 h7 h8
  rw [show (V4 m ρ c main_v6 : S8192x2048.Idx → EReal) = _ from ((W4_keep m ρ c main_v6 (by decide)).trans (W3_keep m ρ c main_v6 (by decide))).trans (W2_v6 m ρ c),
    show (V4 m ρ c main_v7 : S8192x2048.Idx → EReal) = _ from (W4_keep m ρ c main_v7 (by decide)).trans (W3_v7 m ρ c),
    show (V4 m ρ c main_v8 : S8192x2048.Idx → EReal) = _ from W4_v8 m ρ c,
    kl main_arg2 (by decide) (by decide) (by decide) (by decide) (by decide) (by decide) (by decide) (by decide) (by decide), kl main_arg18 (by decide) (by decide) (by decide) (by decide) (by decide) (by decide) (by decide) (by decide) (by decide), kl main_arg9 (by decide) (by decide) (by decide) (by decide) (by decide) (by decide) (by decide) (by decide) (by decide), kl main_arg10 (by decide) (by decide) (by decide) (by decide) (by decide) (by decide) (by decide) (by decide) (by decide),
    kl main_arg20 (by decide) (by decide) (by decide) (by decide) (by decide) (by decide) (by decide) (by decide) (by decide), kl main_arg22 (by decide) (by decide) (by decide) (by decide) (by decide) (by decide) (by decide) (by decide) (by decide),
    show (V4 m ρ c main_v3 : S2048x2048.Idx → EReal) = _ from (k4 main_v3 (by decide) (by decide) (by decide)).trans (W1_v3 m ρ c),
    show (V4 m ρ c main_v4 : S2048x2048.Idx → EReal) = _ from (k4 main_v4 (by decide) (by decide) (by decide)).trans (W1_v4 m ρ c),
    show (V4 m ρ c main_v5 : S2048x2048.Idx → EReal) = _ from (k4 main_v5 (by decide) (by decide) (by decide)).trans (W1_v5 m ρ c)]
  rfl

end Cert.KernelIdeal.Val

end
-- ==== Proof.RRunList.lean ====
import proofs.«414706_j8890582303248_3_alg».proof.ReferenceIdeal
import Idealize.ShloMosaic.Lib.StableHlo.Run

noncomputable section

namespace Cert.ReferenceIdeal.Val

open Idealize.ShloMosaic Idealize.SL.Sem Idealize.ShloMosaic.StableHlo
open Cert.ReferenceIdeal Cert.ReferenceIdeal.Facts₀

variable {F : FTy → Type} [FloatOps F] [Facts]

/-- @main's statements 1 … 21, the calls among them unfolded: 44 operations. -/
abbrev cN1 : List (HloOp τ sig (Elt F)) :=
  [ StableHlo.nullary main_cst (constant S_ .f32 0x00000000#32),
    StableHlo.binary main_arg0 main_cst main_v0 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v0 main_v1 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x45000000#32),
    StableHlo.unary main_cst_0 main_v2 (broadcastInDim S8192x1 ![] bcast_S_S8192x1 : (⟨S_, .f32⟩ : BufTy).Contents (Elt F) → (⟨S8192x1, .f32⟩ : BufTy).Contents (Elt F)),
    StableHlo.binary main_v1 main_v2 main_v3 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 1#32),
    StableHlo.TRef.nullary main_call0.call0.cst (constant S_ .f32 0x00000000#32),
    StableHlo.TRef.binary (.of main_arg0 : StableHlo.TRef sig ⟨S8192x2048, .f32⟩) main_call0.call0.cst main_call0.call0.v0 (fun x v => Host.reduceAdd x v reducesTo_S8192x2048_S8192_d1 h_S_),
    StableHlo.TRef.unary main_call0.call0.v0 main_call0.call0.v1 (broadcastInDim S8192x1 ![0] bcast_S8192_S8192x1_0),
    StableHlo.TRef.nullary main_call0.call0.cst_0 (constant S_ .f32 0x45000000#32),
    StableHlo.TRef.unary main_call0.call0.cst_0 main_call0.call0.v2 (broadcastInDim S8192x1 ![] bcast_S_S8192x1),
    StableHlo.TRef.binary main_call0.call0.v1 main_call0.call0.v2 main_call0.call0.v3 Host.divf,
    StableHlo.TRef.unary main_call0.call0.v3 main_call0.call0.v4 (broadcastInDim S8192x2048 ![0, 1] bcast_S8192x1_S8192x2048_0_1),
    StableHlo.TRef.binary (.of main_arg0 : StableHlo.TRef sig ⟨S8192x2048, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x45000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S8192x2048_S8192_d1 h_S_),
    StableHlo.TRef.unary main_call0.call0.v9 main_call0.call0.v10 (broadcastInDim S8192x1 ![0] bcast_S8192_S8192x1_0),
    StableHlo.TRef.unary main_call0.call0.v8 main_call0.call0.v11 (broadcastInDim S8192x1 ![] bcast_S_S8192x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S8192x1 ![] bcast_S_S8192x1),
    StableHlo.TRef.ternary main_call0.call0.v13 main_call0.call0.v12 main_call0.call0.call0.v1 main_call0.call0.call0.v2 (fun p a b => select (broadcastInDim S8192x1 ![] bcast_S_S8192x1 p) a b),
    StableHlo.TRef.unary main_call0.call0.call0.v2 main_call0.v1 Host.sqrt,
    StableHlo.unary main_v3 main_v5 (broadcastInDim S8192x2048 ![0, 1] bcast_S8192x1_S8192x2048_0_1 : (⟨S8192x1, .f32⟩ : BufTy).Contents (Elt F) → (⟨S8192x2048, .f32⟩ : BufTy).Contents (Elt F)),
    StableHlo.binary main_arg0 main_v5 main_v6 (subf : (⟨S8192x2048, .f32⟩ : BufTy).Contents (Elt F) → (⟨S8192x2048, .f32⟩ : BufTy).Contents (Elt F) → (⟨S8192x2048, .f32⟩ : BufTy).Contents (Elt F)),
    StableHlo.unary main_arg3 main_v7 (broadcastInDim S1x2048 ![1] bcast_S2048_S1x2048_1 : (⟨S2048, .f32⟩ : BufTy).Contents (Elt F) → (⟨S1x2048, .f32⟩ : BufTy).Contents (Elt F)),
    StableHlo.unary main_v7 main_v8 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v8 main_v6 main_v9 (mulf : (⟨S8192x2048, .f32⟩ : BufTy).Contents (Elt F) → (⟨S8192x2048, .f32⟩ : BufTy).Contents (Elt F) → (⟨S8192x2048, .f32⟩ : BufTy).Contents (Elt F)),
    StableHlo.nullary main_cst_1 (constant S_ .f32 0x358637BD#32),
    StableHlo.unary main_cst_1 main_v10 (broadcastInDim S8192x1 ![] bcast_S_S8192x1 : (⟨S_, .f32⟩ : BufTy).Contents (Elt F) → (⟨S8192x1, .f32⟩ : BufTy).Contents (Elt F)),
    StableHlo.binary main_v4 main_v10 main_v11 (addf : (⟨S8192x1, .f32⟩ : BufTy).Contents (Elt F) → (⟨S8192x1, .f32⟩ : BufTy).Contents (Elt F) → (⟨S8192x1, .f32⟩ : BufTy).Contents (Elt F)),
    StableHlo.unary main_v11 main_v12 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v9 main_v12 main_v13 (Host.divf : (⟨S8192x2048, .f32⟩ : BufTy).Contents (Elt F) → (⟨S8192x2048, .f32⟩ : BufTy).Contents (Elt F) → (⟨S8192x2048, .f32⟩ : BufTy).Contents (Elt F)),
    StableHlo.unary main_arg4 main_v14 (broadcastInDim S1x2048 ![1] bcast_S2048_S1x2048_1 : (⟨S2048, .f32⟩ : BufTy).Contents (Elt F) → (⟨S1x2048, .f32⟩ : BufTy).Contents (Elt F)),
    StableHlo.unary main_v14 main_v15 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v13 main_v15 main_v16 (addf : (⟨S8192x2048, .f32⟩ : BufTy).Contents (Elt F) → (⟨S8192x2048, .f32⟩ : BufTy).Contents (Elt F) → (⟨S8192x2048, .f32⟩ : BufTy).Contents (Elt F)) ]

/-- @main's statements 22 … 42, the calls among them unfolded: 44 operations. -/
abbrev cN2 : List (HloOp τ sig (Elt F)) :=
  [ StableHlo.nullary main_cst_2 (constant S_ .f32 0x00000000#32),
    StableHlo.binary main_arg1 main_cst_2 main_v17 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v17 main_v18 (broadcastInDim S8192x1 ![0] bcast_S8192_S8192x1_0 : (⟨S8192, .f32⟩ : BufTy).Contents (Elt F) → (⟨S8192x1, .f32⟩ : BufTy).Contents (Elt F)),
    StableHlo.nullary main_cst_3 (constant S_ .f32 0x45000000#32),
    StableHlo.unary main_cst_3 main_v19 (broadcastInDim S8192x1 ![] bcast_S_S8192x1 : (⟨S_, .f32⟩ : BufTy).Contents (Elt F) → (⟨S8192x1, .f32⟩ : BufTy).Contents (Elt F)),
    StableHlo.binary main_v18 main_v19 main_v20 (Host.divf : (⟨S8192x1, .f32⟩ : BufTy).Contents (Elt F) → (⟨S8192x1, .f32⟩ : BufTy).Contents (Elt F) → (⟨S8192x1, .f32⟩ : BufTy).Contents (Elt F)),
    StableHlo.nullary main_c_4 (constantI S_ 32 1#32),
    StableHlo.TRef.nullary main_call1.call0.cst (constant S_ .f32 0x00000000#32),
    StableHlo.TRef.binary (.of main_arg1 : StableHlo.TRef sig ⟨S8192x2048, .f32⟩) main_call1.call0.cst main_call1.call0.v0 (fun x v => Host.reduceAdd x v reducesTo_S8192x2048_S8192_d1 h_S_),
    StableHlo.TRef.unary main_call1.call0.v0 main_call1.call0.v1 (broadcastInDim S8192x1 ![0] bcast_S8192_S8192x1_0),
    StableHlo.TRef.nullary main_call1.call0.cst_0 (constant S_ .f32 0x45000000#32),
    StableHlo.TRef.unary main_call1.call0.cst_0 main_call1.call0.v2 (broadcastInDim S8192x1 ![] bcast_S_S8192x1),
    StableHlo.TRef.binary main_call1.call0.v1 main_call1.call0.v2 main_call1.call0.v3 Host.divf,
    StableHlo.TRef.unary main_call1.call0.v3 main_call1.call0.v4 (broadcastInDim S8192x2048 ![0, 1] bcast_S8192x1_S8192x2048_0_1),
    StableHlo.TRef.binary (.of main_arg1 : StableHlo.TRef sig ⟨S8192x2048, .f32⟩) main_call1.call0.v4 main_call1.call0.v5 subf,
    StableHlo.TRef.binary main_call1.call0.v5 main_call1.call0.v5 main_call1.call0.v6 mulf,
    StableHlo.TRef.unary (.of main_c_4 : StableHlo.TRef sig ⟨S_, .i32⟩) main_call1.call0.v7 (sitofp .f32),
    StableHlo.TRef.nullary main_call1.call0.cst_1 (constant S_ .f32 0x45000000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S8192x2048_S8192_d1 h_S_),
    StableHlo.TRef.unary main_call1.call0.v9 main_call1.call0.v10 (broadcastInDim S8192x1 ![0] bcast_S8192_S8192x1_0),
    StableHlo.TRef.unary main_call1.call0.v8 main_call1.call0.v11 (broadcastInDim S8192x1 ![] bcast_S_S8192x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S8192x1 ![] bcast_S_S8192x1),
    StableHlo.TRef.ternary main_call1.call0.v13 main_call1.call0.v12 main_call1.call0.call0.v1 main_call1.call0.call0.v2 (fun p a b => select (broadcastInDim S8192x1 ![] bcast_S_S8192x1 p) a b),
    StableHlo.TRef.unary main_call1.call0.call0.v2 main_call1.v1 Host.sqrt,
    StableHlo.unary main_v20 main_v22 (broadcastInDim S8192x2048 ![0, 1] bcast_S8192x1_S8192x2048_0_1 : (⟨S8192x1, .f32⟩ : BufTy).Contents (Elt F) → (⟨S8192x2048, .f32⟩ : BufTy).Contents (Elt F)),
    StableHlo.binary main_arg1 main_v22 main_v23 (subf : (⟨S8192x2048, .f32⟩ : BufTy).Contents (Elt F) → (⟨S8192x2048, .f32⟩ : BufTy).Contents (Elt F) → (⟨S8192x2048, .f32⟩ : BufTy).Contents (Elt F)),
    StableHlo.unary main_arg5 main_v24 (broadcastInDim S1x2048 ![1] bcast_S2048_S1x2048_1 : (⟨S2048, .f32⟩ : BufTy).Contents (Elt F) → (⟨S1x2048, .f32⟩ : BufTy).Contents (Elt F)),
    StableHlo.unary main_v24 main_v25 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v25 main_v23 main_v26 (mulf : (⟨S8192x2048, .f32⟩ : BufTy).Contents (Elt F) → (⟨S8192x2048, .f32⟩ : BufTy).Contents (Elt F) → (⟨S8192x2048, .f32⟩ : BufTy).Contents (Elt F)),
    StableHlo.nullary main_cst_5 (constant S_ .f32 0x358637BD#32),
    StableHlo.unary main_cst_5 main_v27 (broadcastInDim S8192x1 ![] bcast_S_S8192x1 : (⟨S_, .f32⟩ : BufTy).Contents (Elt F) → (⟨S8192x1, .f32⟩ : BufTy).Contents (Elt F)),
    StableHlo.binary main_v21 main_v27 main_v28 (addf : (⟨S8192x1, .f32⟩ : BufTy).Contents (Elt F) → (⟨S8192x1, .f32⟩ : BufTy).Contents (Elt F) → (⟨S8192x1, .f32⟩ : BufTy).Contents (Elt F)),
    StableHlo.unary main_v28 main_v29 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v26 main_v29 main_v30 (Host.divf : (⟨S8192x2048, .f32⟩ : BufTy).Contents (Elt F) → (⟨S8192x2048, .f32⟩ : BufTy).Contents (Elt F) → (⟨S8192x2048, .f32⟩ : BufTy).Contents (Elt F)),
    StableHlo.unary main_arg6 main_v31 (broadcastInDim S1x2048 ![1] bcast_S2048_S1x2048_1 : (⟨S2048, .f32⟩ : BufTy).Contents (Elt F) → (⟨S1x2048, .f32⟩ : BufTy).Contents (Elt F)),
    StableHlo.unary main_v31 main_v32 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v30 main_v32 main_v33 (addf : (⟨S8192x2048, .f32⟩ : BufTy).Contents (Elt F) → (⟨S8192x2048, .f32⟩ : BufTy).Contents (Elt F) → (⟨S8192x2048, .f32⟩ : BufTy).Contents (Elt F)) ]

/-- @main's statements 43 … 60, the calls among them unfolded: 41 operations. -/
abbrev cN3a : List (HloOp τ sig (Elt F)) :=
  [ StableHlo.nullary main_cst_6 (constant S_ .f32 0x00000000#32),
    StableHlo.binary main_arg2 main_cst_6 main_v34 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v34 main_v35 (broadcastInDim S8192x1 ![0] bcast_S8192_S8192x1_0 : (⟨S8192, .f32⟩ : BufTy).Contents (Elt F) → (⟨S8192x1, .f32⟩ : BufTy).Contents (Elt F)),
    StableHlo.nullary main_cst_7 (constant S_ .f32 0x45000000#32),
    StableHlo.unary main_cst_7 main_v36 (broadcastInDim S8192x1 ![] bcast_S_S8192x1 : (⟨S_, .f32⟩ : BufTy).Contents (Elt F) → (⟨S8192x1, .f32⟩ : BufTy).Contents (Elt F)),
    StableHlo.binary main_v35 main_v36 main_v37 (Host.divf : (⟨S8192x1, .f32⟩ : BufTy).Contents (Elt F) → (⟨S8192x1, .f32⟩ : BufTy).Contents (Elt F) → (⟨S8192x1, .f32⟩ : BufTy).Contents (Elt F)),
    StableHlo.nullary main_c_8 (constantI S_ 32 1#32),
    StableHlo.TRef.nullary main_call2.call0.cst (constant S_ .f32 0x00000000#32),
    StableHlo.TRef.binary (.of main_arg2 : StableHlo.TRef sig ⟨S8192x2048, .f32⟩) main_call2.call0.cst main_call2.call0.v0 (fun x v => Host.reduceAdd x v reducesTo_S8192x2048_S8192_d1 h_S_),
    StableHlo.TRef.unary main_call2.call0.v0 main_call2.call0.v1 (broadcastInDim S8192x1 ![0] bcast_S8192_S8192x1_0),
    StableHlo.TRef.nullary main_call2.call0.cst_0 (constant S_ .f32 0x45000000#32),
    StableHlo.TRef.unary main_call2.call0.cst_0 main_call2.call0.v2 (broadcastInDim S8192x1 ![] bcast_S_S8192x1),
    StableHlo.TRef.binary main_call2.call0.v1 main_call2.call0.v2 main_call2.call0.v3 Host.divf,
    StableHlo.TRef.unary main_call2.call0.v3 main_call2.call0.v4 (broadcastInDim S8192x2048 ![0, 1] bcast_S8192x1_S8192x2048_0_1),
    StableHlo.TRef.binary (.of main_arg2 : StableHlo.TRef sig ⟨S8192x2048, .f32⟩) main_call2.call0.v4 main_call2.call0.v5 subf,
    StableHlo.TRef.binary main_call2.call0.v5 main_call2.call0.v5 main_call2.call0.v6 mulf,
    StableHlo.TRef.unary (.of main_c_8 : StableHlo.TRef sig ⟨S_, .i32⟩) main_call2.call0.v7 (sitofp .f32),
    StableHlo.TRef.nullary main_call2.call0.cst_1 (constant S_ .f32 0x45000000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S8192x2048_S8192_d1 h_S_),
    StableHlo.TRef.unary main_call2.call0.v9 main_call2.call0.v10 (broadcastInDim S8192x1 ![0] bcast_S8192_S8192x1_0),
    StableHlo.TRef.unary main_call2.call0.v8 main_call2.call0.v11 (broadcastInDim S8192x1 ![] bcast_S_S8192x1),
    StableHlo.TRef.binary main_call2.call0.v10 main_call2.call0.v11 main_call2.call0.v12 Host.divf,
    StableHlo.TRef.nullary main_call2.call0.cst_3 (constant S_ .f32 0x00000000#32),
    StableHlo.TRef.binary main_call2.call0.v8 main_call2.call0.cst_3 main_call2.call0.v13 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S8192x1 ![] bcast_S_S8192x1),
    StableHlo.TRef.ternary main_call2.call0.v13 main_call2.call0.v12 main_call2.call0.call0.v1 main_call2.call0.call0.v2 (fun p a b => select (broadcastInDim S8192x1 ![] bcast_S_S8192x1 p) a b),
    StableHlo.TRef.unary main_call2.call0.call0.v2 main_call2.v1 Host.sqrt,
    StableHlo.unary main_v37 main_v39 (broadcastInDim S8192x2048 ![0, 1] bcast_S8192x1_S8192x2048_0_1 : (⟨S8192x1, .f32⟩ : BufTy).Contents (Elt F) → (⟨S8192x2048, .f32⟩ : BufTy).Contents (Elt F)),
    StableHlo.binary main_arg2 main_v39 main_v40 (subf : (⟨S8192x2048, .f32⟩ : BufTy).Contents (Elt F) → (⟨S8192x2048, .f32⟩ : BufTy).Contents (Elt F) → (⟨S8192x2048, .f32⟩ : BufTy).Contents (Elt F)),
    StableHlo.unary main_arg7 main_v41 (broadcastInDim S1x2048 ![1] bcast_S2048_S1x2048_1 : (⟨S2048, .f32⟩ : BufTy).Contents (Elt F) → (⟨S1x2048, .f32⟩ : BufTy).Contents (Elt F)),
    StableHlo.unary main_v41 main_v42 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v42 main_v40 main_v43 (mulf : (⟨S8192x2048, .f32⟩ : BufTy).Contents (Elt F) → (⟨S8192x2048, .f32⟩ : BufTy).Contents (Elt F) → (⟨S8192x2048, .f32⟩ : BufTy).Contents (Elt F)),
    StableHlo.nullary main_cst_9 (constant S_ .f32 0x358637BD#32),
    StableHlo.unary main_cst_9 main_v44 (broadcastInDim S8192x1 ![] bcast_S_S8192x1 : (⟨S_, .f32⟩ : BufTy).Contents (Elt F) → (⟨S8192x1, .f32⟩ : BufTy).Contents (Elt F)),
    StableHlo.binary main_v38 main_v44 main_v45 (addf : (⟨S8192x1, .f32⟩ : BufTy).Contents (Elt F) → (⟨S8192x1, .f32⟩ : BufTy).Contents (Elt F) → (⟨S8192x1, .f32⟩ : BufTy).Contents (Elt F)),
    StableHlo.unary main_v45 main_v46 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v43 main_v46 main_v47 (Host.divf : (⟨S8192x2048, .f32⟩ : BufTy).Contents (Elt F) → (⟨S8192x2048, .f32⟩ : BufTy).Contents (Elt F) → (⟨S8192x2048, .f32⟩ : BufTy).Contents (Elt F)) ]

/-- @main's statements 61 … 63, the calls among them unfolded: 3 operations. -/
abbrev cN3b : List (HloOp τ sig (Elt F)) :=
  [ StableHlo.unary main_arg8 main_v48 (broadcastInDim S1x2048 ![1] bcast_S2048_S1x2048_1 : (⟨S2048, .f32⟩ : BufTy).Contents (Elt F) → (⟨S1x2048, .f32⟩ : BufTy).Contents (Elt F)),
    StableHlo.unary main_v48 main_v49 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v47 main_v49 main_v50 (addf : (⟨S8192x2048, .f32⟩ : BufTy).Contents (Elt F) → (⟨S8192x2048, .f32⟩ : BufTy).Contents (Elt F) → (⟨S8192x2048, .f32⟩ : BufTy).Contents (Elt F)) ]

/-- @main's statements 64 … 102, the calls among them unfolded: 39 operations. -/
abbrev cPA : List (HloOp τ sig (Elt F)) :=
  [ StableHlo.binary main_v16 main_arg11 main_v51 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg12 main_v52 (broadcastInDim S1x2048 ![1] bcast_S2048_S1x2048_1 : (⟨S2048, .f32⟩ : BufTy).Contents (Elt F) → (⟨S1x2048, .f32⟩ : BufTy).Contents (Elt F)),
    StableHlo.unary main_v52 main_v53 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v51 main_v53 main_v54 (addf : (⟨S8192x2048, .f32⟩ : BufTy).Contents (Elt F) → (⟨S8192x2048, .f32⟩ : BufTy).Contents (Elt F) → (⟨S8192x2048, .f32⟩ : BufTy).Contents (Elt F)),
    StableHlo.reshape main_v54 main_v55 rfl shapeCasts_S8192x2048_S8192x16x128,
    StableHlo.unary main_v55 main_v56 ((transpose S8192x128x16 [0, 2, 1] · transposes_S8192x16x128_S8192x128x16_0_2_1) : (⟨S8192x16x128, .f32⟩ : BufTy).Contents (Elt F) → (⟨S8192x128x16, .f32⟩ : BufTy).Contents (Elt F)),
    StableHlo.binary main_v33 main_arg13 main_v57 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg14 main_v58 (broadcastInDim S1x2048 ![1] bcast_S2048_S1x2048_1 : (⟨S2048, .f32⟩ : BufTy).Contents (Elt F) → (⟨S1x2048, .f32⟩ : BufTy).Contents (Elt F)),
    StableHlo.unary main_v58 main_v59 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v57 main_v59 main_v60 (addf : (⟨S8192x2048, .f32⟩ : BufTy).Contents (Elt F) → (⟨S8192x2048, .f32⟩ : BufTy).Contents (Elt F) → (⟨S8192x2048, .f32⟩ : BufTy).Contents (Elt F)),
    StableHlo.reshape main_v60 main_v61 rfl shapeCasts_S8192x2048_S8192x16x128,
    StableHlo.unary main_v61 main_v62 ((transpose S8192x128x16 [0, 2, 1] · transposes_S8192x16x128_S8192x128x16_0_2_1) : (⟨S8192x16x128, .f32⟩ : BufTy).Contents (Elt F) → (⟨S8192x128x16, .f32⟩ : BufTy).Contents (Elt F)),
    StableHlo.binary main_v50 main_arg15 main_v63 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg16 main_v64 (broadcastInDim S1x2048 ![1] bcast_S2048_S1x2048_1 : (⟨S2048, .f32⟩ : BufTy).Contents (Elt F) → (⟨S1x2048, .f32⟩ : BufTy).Contents (Elt F)),
    StableHlo.unary main_v64 main_v65 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v63 main_v65 main_v66 (addf : (⟨S8192x2048, .f32⟩ : BufTy).Contents (Elt F) → (⟨S8192x2048, .f32⟩ : BufTy).Contents (Elt F) → (⟨S8192x2048, .f32⟩ : BufTy).Contents (Elt F)),
    StableHlo.reshape main_v66 main_v67 rfl shapeCasts_S8192x2048_S8192x16x128,
    StableHlo.unary main_v67 main_v68 ((transpose S8192x128x16 [0, 2, 1] · transposes_S8192x16x128_S8192x128x16_0_2_1) : (⟨S8192x16x128, .f32⟩ : BufTy).Contents (Elt F) → (⟨S8192x128x16, .f32⟩ : BufTy).Contents (Elt F)),
    StableHlo.binary main_v56 main_v62 main_v69 ((fun l r => Host.dotGeneral dot_S8192x128x16_S8192x128x16_S8192x128x128_2_2_1_1_0_0 none l r) : (⟨S8192x128x16, .f32⟩ : BufTy).Contents (Elt F) → (⟨S8192x128x16, .f32⟩ : BufTy).Contents (Elt F) → (⟨S8192x128x128, .f32⟩ : BufTy).Contents (Elt F)),
    StableHlo.nullary main_cst_10 (constant S_ .f32 0x413504F3#32),
    StableHlo.unary main_cst_10 main_v70 (broadcastInDim S8192x128x128 ![] bcast_S_S8192x128x128 : (⟨S_, .f32⟩ : BufTy).Contents (Elt F) → (⟨S8192x128x128, .f32⟩ : BufTy).Contents (Elt F)),
    StableHlo.binary main_v69 main_v70 main_v71 (Host.divf : (⟨S8192x128x128, .f32⟩ : BufTy).Contents (Elt F) → (⟨S8192x128x128, .f32⟩ : BufTy).Contents (Elt F) → (⟨S8192x128x128, .f32⟩ : BufTy).Contents (Elt F)),
    StableHlo.nullary main_cst_11 (constant S_ .f32 0xFF800000#32),
    StableHlo.binary main_v71 main_cst_11 main_v72 ((fun x v => Host.reduce FloatOps.maximumf x v reducesTo_S8192x128x128_S8192x128_d2 h_S_) : (⟨S8192x128x128, .f32⟩ : BufTy).Contents (Elt F) → (⟨S_, .f32⟩ : BufTy).Contents (Elt F) → (⟨S8192x128, .f32⟩ : BufTy).Contents (Elt F)),
    StableHlo.nullary main_cst_12 (constant S_ .f32 0xFF800000#32),
    StableHlo.unary main_cst_12 main_v73 (broadcastInDim S8192x128 ![] bcast_S_S8192x128 : (⟨S_, .f32⟩ : BufTy).Contents (Elt F) → (⟨S8192x128, .f32⟩ : BufTy).Contents (Elt F)),
    StableHlo.binary main_v73 main_v72 main_v74 (maximumf : (⟨S8192x128, .f32⟩ : BufTy).Contents (Elt F) → (⟨S8192x128, .f32⟩ : BufTy).Contents (Elt F) → (⟨S8192x128, .f32⟩ : BufTy).Contents (Elt F)),
    StableHlo.unary main_v74 main_v75 (broadcastInDim S8192x128x1 ![0, 1] bcast_S8192x128_S8192x128x1_0_1 : (⟨S8192x128, .f32⟩ : BufTy).Contents (Elt F) → (⟨S8192x128x1, .f32⟩ : BufTy).Contents (Elt F)),
    StableHlo.unary main_v75 main_v76 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    StableHlo.binary main_v71 main_v76 main_v77 (subf : (⟨S8192x128x128, .f32⟩ : BufTy).Contents (Elt F) → (⟨S8192x128x128, .f32⟩ : BufTy).Contents (Elt F) → (⟨S8192x128x128, .f32⟩ : BufTy).Contents (Elt F)),
    StableHlo.unary main_v77 main_v78 (Host.exp : (⟨S8192x128x128, .f32⟩ : BufTy).Contents (Elt F) → (⟨S8192x128x128, .f32⟩ : BufTy).Contents (Elt F)),
    StableHlo.nullary main_cst_13 (constant S_ .f32 0x00000000#32),
    StableHlo.binary main_v78 main_cst_13 main_v79 ((fun x v => Host.reduceAdd x v reducesTo_S8192x128x128_S8192x128_d2 h_S_) : (⟨S8192x128x128, .f32⟩ : BufTy).Contents (Elt F) → (⟨S_, .f32⟩ : BufTy).Contents (Elt F) → (⟨S8192x128, .f32⟩ : BufTy).Contents (Elt F)),
    StableHlo.unary main_v79 main_v80 (broadcastInDim S8192x128x1 ![0, 1] bcast_S8192x128_S8192x128x1_0_1 : (⟨S8192x128, .f32⟩ : BufTy).Contents (Elt F) → (⟨S8192x128x1, .f32⟩ : BufTy).Contents (Elt F)),
    StableHlo.unary main_v80 main_v81 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    StableHlo.binary main_v78 main_v81 main_v82 (Host.divf : (⟨S8192x128x128, .f32⟩ : BufTy).Contents (Elt F) → (⟨S8192x128x128, .f32⟩ : BufTy).Contents (Elt F) → (⟨S8192x128x128, .f32⟩ : BufTy).Contents (Elt F)),
    StableHlo.binary main_v82 main_v68 main_v83 ((fun l r => Host.dotGeneral dot_S8192x128x128_S8192x128x16_S8192x128x16_2_1_1_2_0_0 none l r) : (⟨S8192x128x128, .f32⟩ : BufTy).Contents (Elt F) → (⟨S8192x128x16, .f32⟩ : BufTy).Contents (Elt F) → (⟨S8192x128x16, .f32⟩ : BufTy).Contents (Elt F)),
    StableHlo.unary main_v83 main_v84 ((transpose S8192x16x128 [0, 2, 1] · transposes_S8192x128x16_S8192x16x128_0_2_1) : (⟨S8192x128x16, .f32⟩ : BufTy).Contents (Elt F) → (⟨S8192x16x128, .f32⟩ : BufTy).Contents (Elt F)),
    StableHlo.reshape main_v84 main_v85 rfl shapeCasts_S8192x16x128_S8192x2048 ]

/-- @main's statements 103 … 107, the calls among them unfolded: 5 operations. -/
abbrev cO : List (HloOp τ sig (Elt F)) :=
  [ StableHlo.binary main_v85 main_arg17 main_v86 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg18 main_v87 (broadcastInDim S1x2048 ![1] bcast_S2048_S1x2048_1 : (⟨S2048, .f32⟩ : BufTy).Contents (Elt F) → (⟨S1x2048, .f32⟩ : BufTy).Contents (Elt F)),
    StableHlo.unary main_v87 main_v88 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v86 main_v88 main_v89 (addf : (⟨S8192x2048, .f32⟩ : BufTy).Contents (Elt F) → (⟨S8192x2048, .f32⟩ : BufTy).Contents (Elt F) → (⟨S8192x2048, .f32⟩ : BufTy).Contents (Elt F)),
    StableHlo.binary main_arg2 main_v89 main_v90 (addf : (⟨S8192x2048, .f32⟩ : BufTy).Contents (Elt F) → (⟨S8192x2048, .f32⟩ : BufTy).Contents (Elt F) → (⟨S8192x2048, .f32⟩ : BufTy).Contents (Elt F)) ]

/-- @main's statements 108 … 120, the calls among them unfolded: 36 operations. -/
abbrev cN4a : List (HloOp τ sig (Elt F)) :=
  [ StableHlo.nullary main_cst_14 (constant S_ .f32 0x00000000#32),
    StableHlo.binary main_v90 main_cst_14 main_v91 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v91 main_v92 (broadcastInDim S8192x1 ![0] bcast_S8192_S8192x1_0 : (⟨S8192, .f32⟩ : BufTy).Contents (Elt F) → (⟨S8192x1, .f32⟩ : BufTy).Contents (Elt F)),
    StableHlo.nullary main_cst_15 (constant S_ .f32 0x45000000#32),
    StableHlo.unary main_cst_15 main_v93 (broadcastInDim S8192x1 ![] bcast_S_S8192x1 : (⟨S_, .f32⟩ : BufTy).Contents (Elt F) → (⟨S8192x1, .f32⟩ : BufTy).Contents (Elt F)),
    StableHlo.binary main_v92 main_v93 main_v94 (Host.divf : (⟨S8192x1, .f32⟩ : BufTy).Contents (Elt F) → (⟨S8192x1, .f32⟩ : BufTy).Contents (Elt F) → (⟨S8192x1, .f32⟩ : BufTy).Contents (Elt F)),
    StableHlo.nullary main_c_16 (constantI S_ 32 1#32),
    StableHlo.TRef.nullary main_call3.call0.cst (constant S_ .f32 0x00000000#32),
    StableHlo.TRef.binary (.of main_v90 : StableHlo.TRef sig ⟨S8192x2048, .f32⟩) main_call3.call0.cst main_call3.call0.v0 (fun x v => Host.reduceAdd x v reducesTo_S8192x2048_S8192_d1 h_S_),
    StableHlo.TRef.unary main_call3.call0.v0 main_call3.call0.v1 (broadcastInDim S8192x1 ![0] bcast_S8192_S8192x1_0),
    StableHlo.TRef.nullary main_call3.call0.cst_0 (constant S_ .f32 0x45000000#32),
    StableHlo.TRef.unary main_call3.call0.cst_0 main_call3.call0.v2 (broadcastInDim S8192x1 ![] bcast_S_S8192x1),
    StableHlo.TRef.binary main_call3.call0.v1 main_call3.call0.v2 main_call3.call0.v3 Host.divf,
    StableHlo.TRef.unary main_call3.call0.v3 main_call3.call0.v4 (broadcastInDim S8192x2048 ![0, 1] bcast_S8192x1_S8192x2048_0_1),
    StableHlo.TRef.binary (.of main_v90 : StableHlo.TRef sig ⟨S8192x2048, .f32⟩) main_call3.call0.v4 main_call3.call0.v5 subf,
    StableHlo.TRef.binary main_call3.call0.v5 main_call3.call0.v5 main_call3.call0.v6 mulf,
    StableHlo.TRef.unary (.of main_c_16 : StableHlo.TRef sig ⟨S_, .i32⟩) main_call3.call0.v7 (sitofp .f32),
    StableHlo.TRef.nullary main_call3.call0.cst_1 (constant S_ .f32 0x45000000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S8192x2048_S8192_d1 h_S_),
    StableHlo.TRef.unary main_call3.call0.v9 main_call3.call0.v10 (broadcastInDim S8192x1 ![0] bcast_S8192_S8192x1_0),
    StableHlo.TRef.unary main_call3.call0.v8 main_call3.call0.v11 (broadcastInDim S8192x1 ![] bcast_S_S8192x1),
    StableHlo.TRef.binary main_call3.call0.v10 main_call3.call0.v11 main_call3.call0.v12 Host.divf,
    StableHlo.TRef.nullary main_call3.call0.cst_3 (constant S_ .f32 0x00000000#32),
    StableHlo.TRef.binary main_call3.call0.v8 main_call3.call0.cst_3 main_call3.call0.v13 (cmpf .ogt),
    StableHlo.TRef.nullary main_call3.call0.cst_4 (constant S_ .f32 0x7FC00000#32),
    StableHlo.TRef.unary main_call3.call0.cst_4 main_call3.call0.call0.v0 id,
    StableHlo.TRef.unary main_call3.call0.call0.v0 main_call3.call0.call0.v1 (broadcastInDim S8192x1 ![] bcast_S_S8192x1),
    StableHlo.TRef.ternary main_call3.call0.v13 main_call3.call0.v12 main_call3.call0.call0.v1 main_call3.call0.call0.v2 (fun p a b => select (broadcastInDim S8192x1 ![] bcast_S_S8192x1 p) a b),
    StableHlo.TRef.unary main_call3.call0.call0.v2 main_call3.v1 Host.sqrt,
    StableHlo.unary main_v94 main_v96 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v90 main_v96 main_v97 (subf : (⟨S8192x2048, .f32⟩ : BufTy).Contents (Elt F) → (⟨S8192x2048, .f32⟩ : BufTy).Contents (Elt F) → (⟨S8192x2048, .f32⟩ : BufTy).Contents (Elt F)),
    StableHlo.unary main_arg9 main_v98 (broadcastInDim S1x2048 ![1] bcast_S2048_S1x2048_1 : (⟨S2048, .f32⟩ : BufTy).Contents (Elt F) → (⟨S1x2048, .f32⟩ : BufTy).Contents (Elt F)),
    StableHlo.unary main_v98 main_v99 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v99 main_v97 main_v100 (mulf : (⟨S8192x2048, .f32⟩ : BufTy).Contents (Elt F) → (⟨S8192x2048, .f32⟩ : BufTy).Contents (Elt F) → (⟨S8192x2048, .f32⟩ : BufTy).Contents (Elt F)) ]

/-- @main's statements 121 … 128, the calls among them unfolded: 8 operations. -/
abbrev cN4b : List (HloOp τ sig (Elt F)) :=
  [ StableHlo.nullary main_cst_17 (constant S_ .f32 0x358637BD#32),
    StableHlo.unary main_cst_17 main_v101 (broadcastInDim S8192x1 ![] bcast_S_S8192x1 : (⟨S_, .f32⟩ : BufTy).Contents (Elt F) → (⟨S8192x1, .f32⟩ : BufTy).Contents (Elt F)),
    StableHlo.binary main_v95 main_v101 main_v102 (addf : (⟨S8192x1, .f32⟩ : BufTy).Contents (Elt F) → (⟨S8192x1, .f32⟩ : BufTy).Contents (Elt F) → (⟨S8192x1, .f32⟩ : BufTy).Contents (Elt F)),
    StableHlo.unary main_v102 main_v103 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v100 main_v103 main_v104 (Host.divf : (⟨S8192x2048, .f32⟩ : BufTy).Contents (Elt F) → (⟨S8192x2048, .f32⟩ : BufTy).Contents (Elt F) → (⟨S8192x2048, .f32⟩ : BufTy).Contents (Elt F)),
    StableHlo.unary main_arg10 main_v105 (broadcastInDim S1x2048 ![1] bcast_S2048_S1x2048_1 : (⟨S2048, .f32⟩ : BufTy).Contents (Elt F) → (⟨S1x2048, .f32⟩ : BufTy).Contents (Elt F)),
    StableHlo.unary main_v105 main_v106 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v104 main_v106 main_v107 (addf : (⟨S8192x2048, .f32⟩ : BufTy).Contents (Elt F) → (⟨S8192x2048, .f32⟩ : BufTy).Contents (Elt F) → (⟨S8192x2048, .f32⟩ : BufTy).Contents (Elt F)) ]

/-- @main's statements 129 … 138, the calls among them unfolded: 12 operations. -/
abbrev cF : List (HloOp τ sig (Elt F)) :=
  [ StableHlo.binary main_v107 main_arg19 main_v108 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg20 main_v109 (broadcastInDim S1x2048 ![1] bcast_S2048_S1x2048_1 : (⟨S2048, .f32⟩ : BufTy).Contents (Elt F) → (⟨S1x2048, .f32⟩ : BufTy).Contents (Elt F)),
    StableHlo.unary main_v109 main_v110 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v108 main_v110 main_v111 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call4.cst (constant S_ .f32 0x00000000#32),
    StableHlo.TRef.unary main_call4.cst main_call4.v0 (broadcastInDim S8192x2048 ![] bcast_S_S8192x2048),
    StableHlo.TRef.binary (.of main_v111 : StableHlo.TRef sig ⟨S8192x2048, .f32⟩) main_call4.v0 main_call4.v1 maximumf,
    StableHlo.binary main_v112 main_arg21 main_v113 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg22 main_v114 (broadcastInDim S1x2048 ![1] bcast_S2048_S1x2048_1 : (⟨S2048, .f32⟩ : BufTy).Contents (Elt F) → (⟨S1x2048, .f32⟩ : BufTy).Contents (Elt F)),
    StableHlo.unary main_v114 main_v115 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v113 main_v115 main_v116 (addf : (⟨S8192x2048, .f32⟩ : BufTy).Contents (Elt F) → (⟨S8192x2048, .f32⟩ : BufTy).Contents (Elt F) → (⟨S8192x2048, .f32⟩ : BufTy).Contents (Elt F)),
    StableHlo.binary main_v90 main_v116 main_v117 (addf : (⟨S8192x2048, .f32⟩ : BufTy).Contents (Elt F) → (⟨S8192x2048, .f32⟩ : BufTy).Contents (Elt F) → (⟨S8192x2048, .f32⟩ : BufTy).Contents (Elt F)) ]

end Cert.ReferenceIdeal.Val

end
-- ==== Proof.RRunOps.lean ====
/-
  The reference program as one straight line of operations.

  @main is printed in three windows that run in order, and calls five outlined functions; with the
  functions' bodies written out over each call's buffer record, every window is a sequence of
  single operations, and the whole of @main is the sequence of the nine stage lists of the table
  module taken in order. From that: every weakly fair execution of @main terminates with each
  buffer holding the fold of the operations over what the device held at launch.
-/
import proofs.«414706_j8890582303248_3_alg».proof.Proof.RRunList
import Mathlib.Data.List.Basic

noncomputable section

namespace Cert.ReferenceIdeal.Val

open Idealize.ShloMosaic Idealize.SL.Sem Idealize.ShloMosaic.StableHlo
open Cert.ReferenceIdeal Cert.ReferenceIdeal.Facts₀

variable {F : FTy → Type} [FloatOps F] [Facts]

/-- The fold over two lists one after the other is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations of the three windows. -/
abbrev ops0 : List (HloOp τ sig (Elt F)) := cN1 ++ (cN2 ++ cN3a)
abbrev ops1 : List (HloOp τ sig (Elt F)) := cN3b ++ (cPA ++ (cO ++ cN4a))
abbrev ops2 : List (HloOp τ sig (Elt F)) := cN4b ++ cF
/-- @main's operations, in order. -/
abbrev ops : List (HloOp τ sig (Elt F)) := ops0 ++ (ops1 ++ ops2)

set_option maxRecDepth 8192 in
set_option maxHeartbeats 4000000 in
/-- The first window is its straight line: the functions' definitions unfolded at their calls, both sides are
    one chain of single steps once sequencing is reassociated. -/
theorem part0_eq (c : Dev nD) : main_part0 (F := F) c = seq ops0 := by
  simp only [main_part0, fn_std.body, fn_var.body, fn_where.body, ops0, cN1, cN2, cN3a, List.cons_append, List.nil_append,
    seq, bind_assoc, pure_bind]
  rfl

set_option maxRecDepth 8192 in
set_option maxHeartbeats 4000000 in
theorem part1_eq (c : Dev nD) : main_part1 (F := F) c = seq ops1 := by
  simp only [main_part1, fn_std_0.body, fn_var_1.body, fn_where.body, ops1, cN3b, cPA, cO, cN4a, List.cons_append, List.nil_append,
    seq, bind_assoc, pure_bind]
  rfl

set_option maxRecDepth 8192 in
set_option maxHeartbeats 4000000 in
theorem part2_eq (c : Dev nD) : main_part2 (F := F) c = seq ops2 := by
  simp only [main_part2, fn_relu.body, ops2, cN4b, cF, List.cons_append, List.nil_append, seq, bind_assoc, pure_bind]

/-- @main is the straight line of all its operations. -/
theorem main_eq (c : Dev nD) : main (F := F) c = seq ops := by
  show (main_part0 (F := F) c >>= fun _ => main_part1 (F := F) c >>= fun _ => main_part2 (F := F) c) = _
  rw [part0_eq, part1_eq, part2_eq]
  exact ((seq_append ops0 (ops1 ++ ops2)).trans
    (congrArg (fun k => seq ops0 >>= fun _ => k) (seq_append ops1 ops2))).symm

/-! ## The side conditions of the run -/

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

section
local macro "bufs_sub" : tactic =>
  `(tactic| simp only [List.Forall, nullary_bufs_sub, unary_bufs_sub, binary_bufs_sub, ternary_bufs_sub, reshape_bufs_sub, and_self])
local macro "no_fresh" : tactic =>
  `(tactic| (intro op h; (repeat (cases h with | head => rfl | tail _ h => ?_)); exact nomatch h))

/-- Every operation touches TensorCore buffers only; none allocates. -/
theorem cN1_sub : (cN1 : List (HloOp τ sig (Elt F))).Forall fun op => op.bufs ⊆ tcRefs τ sig := by bufs_sub
theorem cN2_sub : (cN2 : List (HloOp τ sig (Elt F))).Forall fun op => op.bufs ⊆ tcRefs τ sig := by bufs_sub
theorem cN3a_sub : (cN3a : List (HloOp τ sig (Elt F))).Forall fun op => op.bufs ⊆ tcRefs τ sig := by bufs_sub
theorem cN3b_sub : (cN3b : List (HloOp τ sig (Elt F))).Forall fun op => op.bufs ⊆ tcRefs τ sig := by bufs_sub
theorem cPA_sub : (cPA : List (HloOp τ sig (Elt F))).Forall fun op => op.bufs ⊆ tcRefs τ sig := by bufs_sub
theorem cO_sub : (cO : List (HloOp τ sig (Elt F))).Forall fun op => op.bufs ⊆ tcRefs τ sig := by bufs_sub
theorem cN4a_sub : (cN4a : List (HloOp τ sig (Elt F))).Forall fun op => op.bufs ⊆ tcRefs τ sig := by bufs_sub
theorem cN4b_sub : (cN4b : List (HloOp τ sig (Elt F))).Forall fun op => op.bufs ⊆ tcRefs τ sig := by bufs_sub
theorem cF_sub : (cF : List (HloOp τ sig (Elt F))).Forall fun op => op.bufs ⊆ tcRefs τ sig := by bufs_sub

theorem cN1_fresh : ∀ op ∈ (cN1 : List (HloOp τ sig (Elt F))), op.fresh = ∅ := by no_fresh
theorem cN2_fresh : ∀ op ∈ (cN2 : List (HloOp τ sig (Elt F))), op.fresh = ∅ := by no_fresh
theorem cN3a_fresh : ∀ op ∈ (cN3a : List (HloOp τ sig (Elt F))), op.fresh = ∅ := by no_fresh
theorem cN3b_fresh : ∀ op ∈ (cN3b : List (HloOp τ sig (Elt F))), op.fresh = ∅ := by no_fresh
theorem cPA_fresh : ∀ op ∈ (cPA : List (HloOp τ sig (Elt F))), op.fresh = ∅ := by no_fresh
theorem cO_fresh : ∀ op ∈ (cO : List (HloOp τ sig (Elt F))), op.fresh = ∅ := by no_fresh
theorem cN4a_fresh : ∀ op ∈ (cN4a : List (HloOp τ sig (Elt F))), op.fresh = ∅ := by no_fresh
theorem cN4b_fresh : ∀ op ∈ (cN4b : List (HloOp τ sig (Elt F))), op.fresh = ∅ := by no_fresh
theorem cF_fresh : ∀ op ∈ (cF : List (HloOp τ sig (Elt F))), op.fresh = ∅ := by no_fresh
end

theorem ops_sub : (ops : List (HloOp τ sig (Elt F))).Forall fun op => op.bufs ⊆ tcRefs τ sig :=
  List.forall_append.mpr ⟨List.forall_append.mpr ⟨cN1_sub, List.forall_append.mpr ⟨cN2_sub, cN3a_sub⟩⟩,
    List.forall_append.mpr ⟨List.forall_append.mpr ⟨cN3b_sub, List.forall_append.mpr ⟨cPA_sub, List.forall_append.mpr ⟨cO_sub, cN4a_sub⟩⟩⟩,
      List.forall_append.mpr ⟨cN4b_sub, cF_sub⟩⟩⟩

theorem ops_fresh : ∀ op ∈ (ops : List (HloOp τ sig (Elt F))), op.fresh = ∅ := by
  intro op h
  simp only [ops, ops0, ops1, ops2, List.mem_append] at h
  rcases h with (h | h | h) | (h | h | h | h) | h | h
  · exact cN1_fresh op h
  · exact cN2_fresh op h
  · exact cN3a_fresh op h
  · exact cN3b_fresh op h
  · exact cPA_fresh op h
  · exact cO_fresh op h
  · exact cN4a_fresh op h
  · exact cN4b_fresh op h
  · exact cF_fresh op h

/-- On every device, for any float values, from any memory with zero counters: every weakly fair execution of @main
    terminates, and every final state has each buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Val

end
-- ==== Proof.RRunW.lean ====
import proofs.«414706_j8890582303248_3_alg».proof.Proof.RRunList

noncomputable section

namespace Cert.ReferenceIdeal.Val

open Idealize.ShloMosaic Idealize.SL.Sem Idealize.ShloMosaic.StableHlo
open Cert.ReferenceIdeal Cert.ReferenceIdeal.Facts₀

variable {F : FTy → Type} [FloatOps F] [Facts]

/-- The references the 44 operations of `cN1` write, in order. -/
abbrev cN1_W : List (Ref sig .tc) :=
  [main_cst, main_v0, main_v1, main_cst_0, main_v2, main_v3, main_c, main_call0.call0.cst.ref, main_call0.call0.v0.ref, main_call0.call0.v1.ref, main_call0.call0.cst_0.ref, main_call0.call0.v2.ref, main_call0.call0.v3.ref, main_call0.call0.v4.ref, main_call0.call0.v5.ref, main_call0.call0.v6.ref, main_call0.call0.v7.ref, main_call0.call0.cst_1.ref, main_call0.call0.v8.ref, main_call0.call0.cst_2.ref, main_call0.call0.v9.ref, main_call0.call0.v10.ref, main_call0.call0.v11.ref, main_call0.call0.v12.ref, main_call0.call0.cst_3.ref, main_call0.call0.v13.ref, main_call0.call0.cst_4.ref, main_call0.call0.call0.v0.ref, main_call0.call0.call0.v1.ref, main_call0.call0.call0.v2.ref, main_call0.v1.ref, main_v5, main_v6, main_v7, main_v8, main_v9, main_cst_1, main_v10, main_v11, main_v12, main_v13, main_v14, main_v15, main_v16]

/-- The references the 44 operations of `cN2` write, in order. -/
abbrev cN2_W : List (Ref sig .tc) :=
  [main_cst_2, main_v17, main_v18, main_cst_3, main_v19, main_v20, main_c_4, main_call1.call0.cst.ref, main_call1.call0.v0.ref, main_call1.call0.v1.ref, main_call1.call0.cst_0.ref, main_call1.call0.v2.ref, main_call1.call0.v3.ref, main_call1.call0.v4.ref, main_call1.call0.v5.ref, main_call1.call0.v6.ref, main_call1.call0.v7.ref, main_call1.call0.cst_1.ref, main_call1.call0.v8.ref, main_call1.call0.cst_2.ref, main_call1.call0.v9.ref, main_call1.call0.v10.ref, main_call1.call0.v11.ref, main_call1.call0.v12.ref, main_call1.call0.cst_3.ref, main_call1.call0.v13.ref, main_call1.call0.cst_4.ref, main_call1.call0.call0.v0.ref, main_call1.call0.call0.v1.ref, main_call1.call0.call0.v2.ref, main_call1.v1.ref, main_v22, main_v23, main_v24, main_v25, main_v26, main_cst_5, main_v27, main_v28, main_v29, main_v30, main_v31, main_v32, main_v33]

/-- The references the 41 operations of `cN3a` write, in order. -/
abbrev cN3a_W : List (Ref sig .tc) :=
  [main_cst_6, main_v34, main_v35, main_cst_7, main_v36, main_v37, main_c_8, main_call2.call0.cst.ref, main_call2.call0.v0.ref, main_call2.call0.v1.ref, main_call2.call0.cst_0.ref, main_call2.call0.v2.ref, main_call2.call0.v3.ref, main_call2.call0.v4.ref, main_call2.call0.v5.ref, main_call2.call0.v6.ref, main_call2.call0.v7.ref, main_call2.call0.cst_1.ref, main_call2.call0.v8.ref, main_call2.call0.cst_2.ref, main_call2.call0.v9.ref, main_call2.call0.v10.ref, main_call2.call0.v11.ref, main_call2.call0.v12.ref, main_call2.call0.cst_3.ref, main_call2.call0.v13.ref, main_call2.call0.cst_4.ref, main_call2.call0.call0.v0.ref, main_call2.call0.call0.v1.ref, main_call2.call0.call0.v2.ref, main_call2.v1.ref, main_v39, main_v40, main_v41, main_v42, main_v43, main_cst_9, main_v44, main_v45, main_v46, main_v47]

/-- The references the 3 operations of `cN3b` write, in order. -/
abbrev cN3b_W : List (Ref sig .tc) :=
  [main_v48, main_v49, main_v50]

/-- The references the 39 operations of `cPA` write, in order. -/
abbrev cPA_W : List (Ref sig .tc) :=
  [main_v51, main_v52, main_v53, main_v54, main_v55, main_v56, main_v57, main_v58, main_v59, main_v60, main_v61, main_v62, main_v63, main_v64, main_v65, main_v66, main_v67, main_v68, main_v69, main_cst_10, main_v70, main_v71, main_cst_11, main_v72, main_cst_12, main_v73, main_v74, main_v75, main_v76, main_v77, main_v78, main_cst_13, main_v79, main_v80, main_v81, main_v82, main_v83, main_v84, main_v85]

/-- The references the 5 operations of `cO` write, in order. -/
abbrev cO_W : List (Ref sig .tc) :=
  [main_v86, main_v87, main_v88, main_v89, main_v90]

/-- The references the 36 operations of `cN4a` write, in order. -/
abbrev cN4a_W : List (Ref sig .tc) :=
  [main_cst_14, main_v91, main_v92, main_cst_15, main_v93, main_v94, main_c_16, main_call3.call0.cst.ref, main_call3.call0.v0.ref, main_call3.call0.v1.ref, main_call3.call0.cst_0.ref, main_call3.call0.v2.ref, main_call3.call0.v3.ref, main_call3.call0.v4.ref, main_call3.call0.v5.ref, main_call3.call0.v6.ref, main_call3.call0.v7.ref, main_call3.call0.cst_1.ref, main_call3.call0.v8.ref, main_call3.call0.cst_2.ref, main_call3.call0.v9.ref, main_call3.call0.v10.ref, main_call3.call0.v11.ref, main_call3.call0.v12.ref, main_call3.call0.cst_3.ref, main_call3.call0.v13.ref, main_call3.call0.cst_4.ref, main_call3.call0.call0.v0.ref, main_call3.call0.call0.v1.ref, main_call3.call0.call0.v2.ref, main_call3.v1.ref, main_v96, main_v97, main_v98, main_v99, main_v100]

/-- The references the 8 operations of `cN4b` write, in order. -/
abbrev cN4b_W : List (Ref sig .tc) :=
  [main_cst_17, main_v101, main_v102, main_v103, main_v104, main_v105, main_v106, main_v107]

/-- The references the 12 operations of `cF` write, in order. -/
abbrev cF_W : List (Ref sig .tc) :=
  [main_v108, main_v109, main_v110, main_v111, main_call4.cst.ref, main_call4.v0.ref, main_call4.v1.ref, main_v113, main_v114, main_v115, main_v116, main_v117]

end Cert.ReferenceIdeal.Val

end
-- ==== Proof.RRunKeep.lean ====
/-
  What each stage of the reference program leaves alone.

  A stage's operations write only the buffers of its write list (one per operation, by the builders'
  definitions), so a buffer outside the list holds after the stage what it held before. These are the
  facts that carry the arguments, and the few intermediate results a later stage reads, past the stages
  in between.
-/
import proofs.«414706_j8890582303248_3_alg».proof.Proof.RRunW

noncomputable section

namespace Cert.ReferenceIdeal.Val

open Idealize.ShloMosaic Idealize.SL.Sem Idealize.ShloMosaic.StableHlo
open Cert.ReferenceIdeal Cert.ReferenceIdeal.Facts₀

variable {F : FTy → Type} [FloatOps F] [Facts]

/-- One operation's written buffer is among a list's, given the reference is. -/
local macro "writes_in" : tactic =>
  `(tactic| (simp only [nullary_writes, unary_writes, binary_writes, ternary_writes, reshape_writes,
      Finset.singleton_subset_iff, List.mem_toFinset]; exact List.mem_map_of_mem (by decide)))
/-- Every operation of a stage list writes a buffer of the stage's write list. -/
local macro "writes_sub" : tactic =>
  `(tactic| (simp only [List.Forall]; (repeat' apply And.intro) <;> writes_in))

theorem cN1_writes : (cN1 : List (HloOp τ sig (Elt F))).Forall fun op =>
    op.writes ⊆ (cN1_W.map (Proc.devRef (τ := τ) .tc)).toFinset := by writes_sub
theorem cN2_writes : (cN2 : List (HloOp τ sig (Elt F))).Forall fun op =>
    op.writes ⊆ (cN2_W.map (Proc.devRef (τ := τ) .tc)).toFinset := by writes_sub
theorem cN3a_writes : (cN3a : List (HloOp τ sig (Elt F))).Forall fun op =>
    op.writes ⊆ (cN3a_W.map (Proc.devRef (τ := τ) .tc)).toFinset := by writes_sub
theorem cN3b_writes : (cN3b : List (HloOp τ sig (Elt F))).Forall fun op =>
    op.writes ⊆ (cN3b_W.map (Proc.devRef (τ := τ) .tc)).toFinset := by writes_sub
theorem cPA_writes : (cPA : List (HloOp τ sig (Elt F))).Forall fun op =>
    op.writes ⊆ (cPA_W.map (Proc.devRef (τ := τ) .tc)).toFinset := by writes_sub
theorem cO_writes : (cO : List (HloOp τ sig (Elt F))).Forall fun op =>
    op.writes ⊆ (cO_W.map (Proc.devRef (τ := τ) .tc)).toFinset := by writes_sub
theorem cN4a_writes : (cN4a : List (HloOp τ sig (Elt F))).Forall fun op =>
    op.writes ⊆ (cN4a_W.map (Proc.devRef (τ := τ) .tc)).toFinset := by writes_sub
theorem cN4b_writes : (cN4b : List (HloOp τ sig (Elt F))).Forall fun op =>
    op.writes ⊆ (cN4b_W.map (Proc.devRef (τ := τ) .tc)).toFinset := by writes_sub
theorem cF_writes : (cF : List (HloOp τ sig (Elt F))).Forall fun op =>
    op.writes ⊆ (cF_W.map (Proc.devRef (τ := τ) .tc)).toFinset := by writes_sub

/-! A buffer that a stage does not write keeps its contents through it. -/

theorem cN1_keep (V : Valuation τ sig (Elt F)) (r : Ref sig .tc) (h : r ∉ cN1_W) :
    after cN1 V (no_index (Proc.devRef .tc r)) = V (Proc.devRef .tc r) := after_of_writes_sub cN1 V cN1_writes h
theorem cN2_keep (V : Valuation τ sig (Elt F)) (r : Ref sig .tc) (h : r ∉ cN2_W) :
    after cN2 V (no_index (Proc.devRef .tc r)) = V (Proc.devRef .tc r) := after_of_writes_sub cN2 V cN2_writes h
theorem cN3a_keep (V : Valuation τ sig (Elt F)) (r : Ref sig .tc) (h : r ∉ cN3a_W) :
    after cN3a V (no_index (Proc.devRef .tc r)) = V (Proc.devRef .tc r) := after_of_writes_sub cN3a V cN3a_writes h
theorem cN3b_keep (V : Valuation τ sig (Elt F)) (r : Ref sig .tc) (h : r ∉ cN3b_W) :
    after cN3b V (no_index (Proc.devRef .tc r)) = V (Proc.devRef .tc r) := after_of_writes_sub cN3b V cN3b_writes h
theorem cPA_keep (V : Valuation τ sig (Elt F)) (r : Ref sig .tc) (h : r ∉ cPA_W) :
    after cPA V (no_index (Proc.devRef .tc r)) = V (Proc.devRef .tc r) := after_of_writes_sub cPA V cPA_writes h
theorem cO_keep (V : Valuation τ sig (Elt F)) (r : Ref sig .tc) (h : r ∉ cO_W) :
    after cO V (no_index (Proc.devRef .tc r)) = V (Proc.devRef .tc r) := after_of_writes_sub cO V cO_writes h
theorem cN4a_keep (V : Valuation τ sig (Elt F)) (r : Ref sig .tc) (h : r ∉ cN4a_W) :
    after cN4a V (no_index (Proc.devRef .tc r)) = V (Proc.devRef .tc r) := after_of_writes_sub cN4a V cN4a_writes h
theorem cN4b_keep (V : Valuation τ sig (Elt F)) (r : Ref sig .tc) (h : r ∉ cN4b_W) :
    after cN4b V (no_index (Proc.devRef .tc r)) = V (Proc.devRef .tc r) := after_of_writes_sub cN4b V cN4b_writes h
theorem cF_keep (V : Valuation τ sig (Elt F)) (r : Ref sig .tc) (h : r ∉ cF_W) :
    after cF V (no_index (Proc.devRef .tc r)) = V (Proc.devRef .tc r) := after_of_writes_sub cF V cF_writes h

end Cert.ReferenceIdeal.Val

end
-- ==== Proof.RNormDef.lean ====
/-
  The reference program's rowwise chains as whole-array functions over any float instance: the
  pre-norm (row mean, centred row, unbiased standard deviation, affine map), the linear projection
  with its bias, and the rectifier. Each is the composition of the operations the program prints.
-/
import proofs.«414706_j8890582303248_3_alg».proof.ReferenceIdeal

noncomputable section

namespace Cert.ReferenceIdeal.Val

open Idealize.ShloMosaic Idealize.SL.Sem
open Cert.ReferenceIdeal
open Facts₀ Facts

/-! ## The chains, over any float instance -/

section Defs

variable {F : FTy → Type} [FloatOps F] [Facts₀]

/-- The row sums from the zero word, as a column, over 2048.0: the row mean, shape [8192, 1]. -/
def rMean (X : (⟨S8192x2048, .f32⟩ : BufTy).Contents (Elt F)) : (⟨S8192x1, .f32⟩ : BufTy).Contents (Elt F) :=
  Host.divf
    (broadcastInDim S8192x1 ![0] bcast_S8192_S8192x1_0
      (Host.reduceAdd X (constant S_ .f32 0x00000000#32) reducesTo_S8192x2048_S8192_d1 h_S_))
    (broadcastInDim S8192x1 ![] bcast_S_S8192x1 (constant S_ .f32 0x45000000#32))

/-- The array minus its row mean. -/
def rCen (X : (⟨S8192x2048, .f32⟩ : BufTy).Contents (Elt F)) : (⟨S8192x2048, .f32⟩ : BufTy).Contents (Elt F) :=
  subf X (broadcastInDim S8192x2048 ![0, 1] bcast_S8192x1_S8192x2048_0_1 (rMean X))

/-- The unbiased divisor, a scalar: 2048.0 minus the integer 1 read as a float. -/
def rDof : (⟨S_, .f32⟩ : BufTy).Contents (Elt F) :=
  subf (constant S_ .f32 0x45000000#32) (sitofp .f32 (constantI S_ 32 1#32))

/-- The unbiased row variance, shape [8192, 1]: the sum of squared deviations over the divisor
    where the divisor is positive, the not-a-number word elsewhere. -/
def rVar (X : (⟨S8192x2048, .f32⟩ : BufTy).Contents (Elt F)) : (⟨S8192x1, .f32⟩ : BufTy).Contents (Elt F) :=
  select
    (broadcastInDim S8192x1 ![] bcast_S_S8192x1 (cmpf .ogt (rDof (F := F)) (constant S_ .f32 0x00000000#32)))
    (Host.divf
      (broadcastInDim S8192x1 ![0] bcast_S8192_S8192x1_0
        (Host.reduceAdd (mulf (rCen X) (rCen X)) (constant S_ .f32 0x00000000#32)
          reducesTo_S8192x2048_S8192_d1 h_S_))
      (broadcastInDim S8192x1 ![] bcast_S_S8192x1 (rDof (F := F))))
    (broadcastInDim S8192x1 ![] bcast_S_S8192x1 (id (constant S_ .f32 0x7FC00000#32)))

/-- The row standard deviation, shape [8192, 1]. -/
def rStd (X : (⟨S8192x2048, .f32⟩ : BufTy).Contents (Elt F)) : (⟨S8192x1, .f32⟩ : BufTy).Contents (Elt F) :=
  Host.sqrt (rVar X)

/-- A vector of width 2048 repeated down the 8192 rows. -/
def rRows (a : (⟨S2048, .f32⟩ : BufTy).Contents (Elt F)) : (⟨S8192x2048, .f32⟩ : BufTy).Contents (Elt F) :=
  broadcastInDim S8192x2048 ![0, 1] bcast_S1x2048_S8192x2048_0_1
    (broadcastInDim S1x2048 ![1] bcast_S2048_S1x2048_1 a)

/-- The pre-norm of every row: scale times the centred row, over the deviation plus 1e-6, plus shift. -/
def rNorm (X : (⟨S8192x2048, .f32⟩ : BufTy).Contents (Elt F)) (a b : (⟨S2048, .f32⟩ : BufTy).Contents (Elt F)) :
    (⟨S8192x2048, .f32⟩ : BufTy).Contents (Elt F) :=
  addf
    (Host.divf (mulf (rRows a) (rCen X))
      (broadcastInDim S8192x2048 ![0, 1] bcast_S8192x1_S8192x2048_0_1
        (addf (rStd X) (broadcastInDim S8192x1 ![] bcast_S_S8192x1 (constant S_ .f32 0x358637BD#32)))))
    (rRows b)

/-- Every row times a 2048 × 2048 matrix, plus a bias row. -/
def rProj (X : (⟨S8192x2048, .f32⟩ : BufTy).Contents (Elt F)) (W : (⟨S2048x2048, .f32⟩ : BufTy).Contents (Elt F))
    (bias : (⟨S2048, .f32⟩ : BufTy).Contents (Elt F)) : (⟨S8192x2048, .f32⟩ : BufTy).Contents (Elt F) :=
  addf (Host.dotGeneral dot_S8192x2048_S2048x2048_S8192x2048_1_0_0_1_n_n none X W) (rRows bias)

/-- The entrywise maximum with the zero word. -/
def rRelu (X : (⟨S8192x2048, .f32⟩ : BufTy).Contents (Elt F)) : (⟨S8192x2048, .f32⟩ : BufTy).Contents (Elt F) :=
  maximumf X (broadcastInDim S8192x2048 ![] bcast_S_S8192x2048 (constant S_ .f32 0x00000000#32))

end Defs

end Cert.ReferenceIdeal.Val

end
-- ==== Proof.RRunN.lean ====
/-
  The four pre-norm stages of the reference program read back.

  Each stage is some forty operations: the row mean, the outlined standard deviation (the variance
  function with its guarded quotient, then the square root), the centred array scaled, the quotient
  by deviation plus 1e-6, the shift. Unfolding the fold operation by operation, each result buffer
  read where it was written, leaves exactly the composition that `rNorm` names.
-/
import proofs.«414706_j8890582303248_3_alg».proof.Proof.RRunList
import proofs.«414706_j8890582303248_3_alg».proof.Proof.RNormDef

noncomputable section

namespace Cert.ReferenceIdeal.Val

open Idealize.ShloMosaic Idealize.ShloMosaic.TcCoe Idealize.SL.Sem Idealize.ShloMosaic.StableHlo
open Cert.ReferenceIdeal Cert.ReferenceIdeal.Facts₀

variable {F : FTy → Type} [FloatOps F] [Facts]

/-! The folds over whole arrays stay folded while a stage's fold is compared with the composed term:
    the comparison is between the same operations in the same order and never looks inside them. -/
attribute [local irreducible] Host.reduce Host.reduceAdd Host.divf Host.sqrt Host.exp

set_option maxRecDepth 8192 in
/-- The first stage: the buffer of %16 holds the pre-norm of the first argument. -/
theorem N1_v16 (V : Valuation τ sig (Elt F)) :
    after cN1 V (no_index (Proc.devRef .tc main_v16))
      = rNorm (V (Proc.devRef .tc main_arg0)) (V (Proc.devRef .tc main_arg3)) (V (Proc.devRef .tc main_arg4)) := by
  after_results_simp
  rfl

set_option maxRecDepth 8192 in
/-- The second stage: the buffer of %33 holds the pre-norm of the second argument. -/
theorem N2_v33 (V : Valuation τ sig (Elt F)) :
    after cN2 V (no_index (Proc.devRef .tc main_v33))
      = rNorm (V (Proc.devRef .tc main_arg1)) (V (Proc.devRef .tc main_arg5)) (V (Proc.devRef .tc main_arg6)) := by
  after_results_simp
  rfl

set_option maxRecDepth 8192 in
/-- The third stage (it straddles the first two windows): the buffer of %50 holds the pre-norm of the third argument. -/
theorem N3_v50 (V : Valuation τ sig (Elt F)) :
    after cN3b (after cN3a V) (no_index (Proc.devRef .tc main_v50))
      = rNorm (V (Proc.devRef .tc main_arg2)) (V (Proc.devRef .tc main_arg7)) (V (Proc.devRef .tc main_arg8)) := by
  after_results_simp
  rfl

set_option maxRecDepth 8192 in
/-- The second pre-norm (it straddles the last two windows): the buffer of %107 holds the pre-norm of what %90's holds. -/
theorem N4_v107 (V : Valuation τ sig (Elt F)) :
    after cN4b (after cN4a V) (no_index (Proc.devRef .tc main_v107))
      = rNorm (V (Proc.devRef .tc main_v90)) (V (Proc.devRef .tc main_arg9)) (V (Proc.devRef .tc main_arg10)) := by
  after_results_simp
  rfl

end Cert.ReferenceIdeal.Val

end
-- ==== Proof.RAttnDef.lean ====
/-
  The reference program's per-token attention as one function of whole arrays: the definitions.

  A row of width 2048 is read as 16 heads of width 128 (column 128·h + a is position a of head h)
  and laid out position-major ([8192, 128, 16]); the scores contract the head axis, are divided by
  the float nearest to the square root of 128, a softmax is taken along the last axis (row maximum,
  exponential, row sum, quotient), the context contracts the softmax axis against the values, and
  the result is laid back head-major into a row of width 2048. Each stage is the function the
  program applies at that step, with the program's own shape evidence.
-/
import proofs.«414706_j8890582303248_3_alg».proof.ReferenceIdeal

noncomputable section

namespace Cert.ReferenceIdeal.Val

open Idealize.ShloMosaic Idealize.SL.Sem
open Cert.ReferenceIdeal

section Defs

variable {F : FTy → Type} [FloatOps F] [Facts₀]
open Facts₀

/-- A row of 2048 as 16 heads of width 128, then position-major: entry (n, a, h) is column
    128·h + a of row n. -/
def rHeads (X : (⟨S8192x2048, .f32⟩ : BufTy).Contents (Elt F)) :
    (⟨S8192x128x16, .f32⟩ : BufTy).Contents (Elt F) :=
  transpose (s := S8192x16x128) S8192x128x16 [0, 2, 1]
    (shapeCast S8192x16x128 X shapeCasts_S8192x2048_S8192x16x128)
    transposes_S8192x16x128_S8192x128x16_0_2_1

/-- Scores: for each token, position a against position b, contracting the 16 heads. -/
def rScores (qh kh : (⟨S8192x128x16, .f32⟩ : BufTy).Contents (Elt F)) :
    (⟨S8192x128x128, .f32⟩ : BufTy).Contents (Elt F) :=
  Host.dotGeneral dot_S8192x128x16_S8192x128x16_S8192x128x128_2_2_1_1_0_0 none qh kh

/-- The scores divided by the float nearest to sqrt 128. -/
def rScaled (s : (⟨S8192x128x128, .f32⟩ : BufTy).Contents (Elt F)) :
    (⟨S8192x128x128, .f32⟩ : BufTy).Contents (Elt F) :=
  Host.divf s
    (broadcastInDim S8192x128x128 ![] bcast_S_S8192x128x128 (constant (F := F) S_ .f32 0x413504F3#32))

/-- The maximum along the last axis, from minus infinity, and once more against minus infinity. -/
def rRowMax (s : (⟨S8192x128x128, .f32⟩ : BufTy).Contents (Elt F)) :
    (⟨S8192x128, .f32⟩ : BufTy).Contents (Elt F) :=
  maximumf
    (broadcastInDim S8192x128 ![] bcast_S_S8192x128 (constant (F := F) S_ .f32 0xFF800000#32))
    (Host.reduce FloatOps.maximumf s (constant (F := F) S_ .f32 0xFF800000#32)
      reducesTo_S8192x128x128_S8192x128_d2 h_S_)

/-- A value per (token, position) repeated along a new last axis of length 128. -/
def rBack (m : (⟨S8192x128, .f32⟩ : BufTy).Contents (Elt F)) :
    (⟨S8192x128x128, .f32⟩ : BufTy).Contents (Elt F) :=
  broadcastInDim S8192x128x128 ![0, 1, 2] bcast_S8192x128x1_S8192x128x128_0_1_2
    (broadcastInDim S8192x128x1 ![0, 1] bcast_S8192x128_S8192x128x1_0_1 m)

/-- The exponential of the scores less their row maximum. -/
def rExp (s : (⟨S8192x128x128, .f32⟩ : BufTy).Contents (Elt F)) :
    (⟨S8192x128x128, .f32⟩ : BufTy).Contents (Elt F) :=
  Host.exp (subf s (rBack (rRowMax s)))

/-- The sum along the last axis, from zero. -/
def rRowSum (e : (⟨S8192x128x128, .f32⟩ : BufTy).Contents (Elt F)) :
    (⟨S8192x128, .f32⟩ : BufTy).Contents (Elt F) :=
  Host.reduceAdd e (constant (F := F) S_ .f32 0x00000000#32) reducesTo_S8192x128x128_S8192x128_d2 h_S_

/-- The softmax's quotient. -/
def rProbs (e : (⟨S8192x128x128, .f32⟩ : BufTy).Contents (Elt F)) :
    (⟨S8192x128x128, .f32⟩ : BufTy).Contents (Elt F) :=
  Host.divf e (rBack (rRowSum e))

/-- The context: for each token, position a and head h, contracting the softmax axis. -/
def rCtx (p : (⟨S8192x128x128, .f32⟩ : BufTy).Contents (Elt F))
    (vh : (⟨S8192x128x16, .f32⟩ : BufTy).Contents (Elt F)) :
    (⟨S8192x128x16, .f32⟩ : BufTy).Contents (Elt F) :=
  Host.dotGeneral dot_S8192x128x128_S8192x128x16_S8192x128x16_2_1_1_2_0_0 none p vh

/-- Back to head-major and flattened to a row of 2048. -/
def rMerge (c : (⟨S8192x128x16, .f32⟩ : BufTy).Contents (Elt F)) :
    (⟨S8192x2048, .f32⟩ : BufTy).Contents (Elt F) :=
  shapeCast S8192x2048
    (transpose (s := S8192x128x16) S8192x16x128 [0, 2, 1] c transposes_S8192x128x16_S8192x16x128_0_2_1)
    shapeCasts_S8192x16x128_S8192x2048

/-- The reference's attention on whole arrays. -/
def rAttn (Q K V : (⟨S8192x2048, .f32⟩ : BufTy).Contents (Elt F)) :
    (⟨S8192x2048, .f32⟩ : BufTy).Contents (Elt F) :=
  rMerge (rCtx (rProbs (rExp (rScaled (rScores (rHeads Q) (rHeads K))))) (rHeads V))

end Defs

end Cert.ReferenceIdeal.Val

end
-- ==== Proof.RRunPA.lean ====
/-
  The projection, attention, output and feed-forward stages of the reference program read back:
  each stage's fold, unfolded operation by operation, is the composition the definitions name.
-/
import proofs.«414706_j8890582303248_3_alg».proof.Proof.RRunList
import proofs.«414706_j8890582303248_3_alg».proof.Proof.RNormDef
import proofs.«414706_j8890582303248_3_alg».proof.Proof.RAttnDef

noncomputable section

namespace Cert.ReferenceIdeal.Val

open Idealize.ShloMosaic Idealize.ShloMosaic.TcCoe Idealize.SL.Sem Idealize.ShloMosaic.StableHlo
open Cert.ReferenceIdeal Cert.ReferenceIdeal.Facts₀

variable {F : FTy → Type} [FloatOps F] [Facts]

attribute [local irreducible] Host.reduce Host.reduceAdd Host.divf Host.sqrt Host.exp

set_option maxRecDepth 8192 in
/-- The projections and the attention: the buffer of %85 holds the attention of the three projected pre-norms. -/
theorem PA_v85 (V : Valuation τ sig (Elt F)) :
    after cPA V (no_index (Proc.devRef .tc main_v85))
      = rAttn (rProj (V (Proc.devRef .tc main_v16)) (V (Proc.devRef .tc main_arg11)) (V (Proc.devRef .tc main_arg12)))
          (rProj (V (Proc.devRef .tc main_v33)) (V (Proc.devRef .tc main_arg13)) (V (Proc.devRef .tc main_arg14)))
          (rProj (V (Proc.devRef .tc main_v50)) (V (Proc.devRef .tc main_arg15)) (V (Proc.devRef .tc main_arg16))) := by
  after_results_simp
  rfl

/-- The output projection and the first residual: the buffer of %90. -/
theorem O_v90 (V : Valuation τ sig (Elt F)) :
    after cO V (no_index (Proc.devRef .tc main_v90))
      = addf (V (Proc.devRef .tc main_arg2))
          (rProj (V (Proc.devRef .tc main_v85)) (V (Proc.devRef .tc main_arg17)) (V (Proc.devRef .tc main_arg18))) := by
  after_results_simp
  rfl

/-- The two-layer network and the second residual: the result buffer. -/
theorem F_v117 (V : Valuation τ sig (Elt F)) :
    after cF V (no_index (Proc.devRef .tc main_v117))
      = addf (V (Proc.devRef .tc main_v90))
          (rProj (rRelu (rProj (V (Proc.devRef .tc main_v107)) (V (Proc.devRef .tc main_arg19)) (V (Proc.devRef .tc main_arg20))))
            (V (Proc.devRef .tc main_arg21)) (V (Proc.devRef .tc main_arg22))) := by
  after_results_simp
  rfl

end Cert.ReferenceIdeal.Val

end
-- ==== Proof.RTerm.lean ====
/-
  The reference program's result as one composed function of its argument arrays: the three
  pre-norm + projection chains feed the per-token attention; its output projection is added to the
  residual input; a second pre-norm feeds the two-layer ReLU network, added to the residual again.
  Each factor is the composition of the host operations the program prints for it.
-/
import proofs.«414706_j8890582303248_3_alg».proof.Proof.RNormDef
import proofs.«414706_j8890582303248_3_alg».proof.Proof.RAttnDef

noncomputable section

namespace Cert.ReferenceIdeal.Val

open Idealize.ShloMosaic Idealize.SL.Sem
open Cert.ReferenceIdeal

variable {F : FTy → Type} [FloatOps F] [Facts₀]

/-- The residual stream after attention: the input `v` plus the output projection of the attention
    of the three projected, normalised inputs. -/
def rX1 (q k v : (⟨S8192x2048, .f32⟩ : BufTy).Contents (Elt F)) (nq_a nq_b nk_a nk_b nv_a nv_b : (⟨S2048, .f32⟩ : BufTy).Contents (Elt F))
    (Wq : (⟨S2048x2048, .f32⟩ : BufTy).Contents (Elt F)) (bq : (⟨S2048, .f32⟩ : BufTy).Contents (Elt F)) (Wk : (⟨S2048x2048, .f32⟩ : BufTy).Contents (Elt F)) (bk : (⟨S2048, .f32⟩ : BufTy).Contents (Elt F)) (Wv : (⟨S2048x2048, .f32⟩ : BufTy).Contents (Elt F)) (bv : (⟨S2048, .f32⟩ : BufTy).Contents (Elt F)) (Wo : (⟨S2048x2048, .f32⟩ : BufTy).Contents (Elt F)) (bo : (⟨S2048, .f32⟩ : BufTy).Contents (Elt F)) : (⟨S8192x2048, .f32⟩ : BufTy).Contents (Elt F) :=
  addf v (rProj (rAttn (rProj (rNorm q nq_a nq_b) Wq bq) (rProj (rNorm k nk_a nk_b) Wk bk) (rProj (rNorm v nv_a nv_b) Wv bv)) Wo bo)

/-- The whole result: that stream plus the feed-forward network of its second pre-norm. -/
def RG (q k v : (⟨S8192x2048, .f32⟩ : BufTy).Contents (Elt F)) (nq_a nq_b nk_a nk_b nv_a nv_b n2_a n2_b : (⟨S2048, .f32⟩ : BufTy).Contents (Elt F))
    (Wq : (⟨S2048x2048, .f32⟩ : BufTy).Contents (Elt F)) (bq : (⟨S2048, .f32⟩ : BufTy).Contents (Elt F)) (Wk : (⟨S2048x2048, .f32⟩ : BufTy).Contents (Elt F)) (bk : (⟨S2048, .f32⟩ : BufTy).Contents (Elt F)) (Wv : (⟨S2048x2048, .f32⟩ : BufTy).Contents (Elt F)) (bv : (⟨S2048, .f32⟩ : BufTy).Contents (Elt F)) (Wo : (⟨S2048x2048, .f32⟩ : BufTy).Contents (Elt F)) (bo : (⟨S2048, .f32⟩ : BufTy).Contents (Elt F))
    (W1 : (⟨S2048x2048, .f32⟩ : BufTy).Contents (Elt F)) (b1 : (⟨S2048, .f32⟩ : BufTy).Contents (Elt F)) (W2 : (⟨S2048x2048, .f32⟩ : BufTy).Contents (Elt F)) (b2 : (⟨S2048, .f32⟩ : BufTy).Contents (Elt F)) : (⟨S8192x2048, .f32⟩ : BufTy).Contents (Elt F) :=
  addf (rX1 q k v nq_a nq_b nk_a nk_b nv_a nv_b Wq bq Wk bk Wv bv Wo bo)
    (rProj (rRelu (rProj (rNorm (rX1 q k v nq_a nq_b nk_a nk_b nv_a nv_b Wq bq Wk bk Wv bv Wo bo) n2_a n2_b) W1 b1)) W2 b2)

end Cert.ReferenceIdeal.Val

end
-- ==== Proof.RRun.lean ====
/-
  The run of the reference program read back.

  @main is one straight line of 232 operations (its three windows, the five calls written out); the
  line is nine stage lists, and its fold is the stages' folds one after the other. Four stages are the
  pre-norm of an array, one holds the three projections and the per-token attention, one the output
  projection with the first residual, one the two-layer network with the second residual; each stage's
  result buffer holds the composition its operations spell, read at the buffers it takes in, and every
  buffer a stage does not write passes through it. Chaining the nine: the result buffer holds
  `RG` of the argument buffers, and the arguments are what they were.
-/
import proofs.«414706_j8890582303248_3_alg».proof.Proof.RRunOps
import proofs.«414706_j8890582303248_3_alg».proof.Proof.RRunKeep
import proofs.«414706_j8890582303248_3_alg».proof.Proof.RRunN
import proofs.«414706_j8890582303248_3_alg».proof.Proof.RRunPA
import proofs.«414706_j8890582303248_3_alg».proof.Proof.RTerm

noncomputable section

namespace Cert.ReferenceIdeal.Val

open Idealize.ShloMosaic Idealize.ShloMosaic.TcCoe Idealize.SL.Sem Idealize.ShloMosaic.StableHlo
open Cert.ReferenceIdeal Cert.ReferenceIdeal.Facts₀

variable {F : FTy → Type} [FloatOps F] [Facts]

/-! ## The stages as names

From here on a stage list is a name: its reading, and that it leaves a buffer outside its write list alone,
say all that is used of it. The definitions below are the table's lists again, closed, so that rewriting
sees a stage as one symbol. -/

def sN1 : List (HloOp τ sig (Elt F)) := cN1
def sN2 : List (HloOp τ sig (Elt F)) := cN2
def sN3a : List (HloOp τ sig (Elt F)) := cN3a
def sN3b : List (HloOp τ sig (Elt F)) := cN3b
def sPA : List (HloOp τ sig (Elt F)) := cPA
def sO : List (HloOp τ sig (Elt F)) := cO
def sN4a : List (HloOp τ sig (Elt F)) := cN4a
def sN4b : List (HloOp τ sig (Elt F)) := cN4b
def sF : List (HloOp τ sig (Elt F)) := cF

/-- The fold over the whole line is the stages' folds one after the other. -/
theorem after_ops (V : Valuation τ sig (Elt F)) :
    after ops V = after sF (after sN4b (after sN4a (after sO (after sPA (after sN3b (after sN3a (after sN2 (after sN1 V)))))))) := by
  simp only [ops, ops0, ops1, ops2, after_app]
  rfl

theorem sN1_keep (V : Valuation τ sig (Elt F)) (r : Ref sig .tc) (h : r ∉ cN1_W) :
    after sN1 V (no_index (Proc.devRef .tc r)) = V (Proc.devRef .tc r) := cN1_keep V r h
theorem sN2_keep (V : Valuation τ sig (Elt F)) (r : Ref sig .tc) (h : r ∉ cN2_W) :
    after sN2 V (no_index (Proc.devRef .tc r)) = V (Proc.devRef .tc r) := cN2_keep V r h
theorem sN3a_keep (V : Valuation τ sig (Elt F)) (r : Ref sig .tc) (h : r ∉ cN3a_W) :
    after sN3a V (no_index (Proc.devRef .tc r)) = V (Proc.devRef .tc r) := cN3a_keep V r h
theorem sN3b_keep (V : Valuation τ sig (Elt F)) (r : Ref sig .tc) (h : r ∉ cN3b_W) :
    after sN3b V (no_index (Proc.devRef .tc r)) = V (Proc.devRef .tc r) := cN3b_keep V r h
theorem sPA_keep (V : Valuation τ sig (Elt F)) (r : Ref sig .tc) (h : r ∉ cPA_W) :
    after sPA V (no_index (Proc.devRef .tc r)) = V (Proc.devRef .tc r) := cPA_keep V r h
theorem sO_keep (V : Valuation τ sig (Elt F)) (r : Ref sig .tc) (h : r ∉ cO_W) :
    after sO V (no_index (Proc.devRef .tc r)) = V (Proc.devRef .tc r) := cO_keep V r h
theorem sN4a_keep (V : Valuation τ sig (Elt F)) (r : Ref sig .tc) (h : r ∉ cN4a_W) :
    after sN4a V (no_index (Proc.devRef .tc r)) = V (Proc.devRef .tc r) := cN4a_keep V r h
theorem sN4b_keep (V : Valuation τ sig (Elt F)) (r : Ref sig .tc) (h : r ∉ cN4b_W) :
    after sN4b V (no_index (Proc.devRef .tc r)) = V (Proc.devRef .tc r) := cN4b_keep V r h
theorem sF_keep (V : Valuation τ sig (Elt F)) (r : Ref sig .tc) (h : r ∉ cF_W) :
    after sF V (no_index (Proc.devRef .tc r)) = V (Proc.devRef .tc r) := cF_keep V r h

theorem sN1_v16 (V : Valuation τ sig (Elt F)) : after sN1 V (no_index (Proc.devRef .tc main_v16))
    = rNorm (V (Proc.devRef .tc main_arg0)) (V (Proc.devRef .tc main_arg3)) (V (Proc.devRef .tc main_arg4)) := N1_v16 V
theorem sN2_v33 (V : Valuation τ sig (Elt F)) : after sN2 V (no_index (Proc.devRef .tc main_v33))
    = rNorm (V (Proc.devRef .tc main_arg1)) (V (Proc.devRef .tc main_arg5)) (V (Proc.devRef .tc main_arg6)) := N2_v33 V
theorem sN3_v50 (V : Valuation τ sig (Elt F)) : after sN3b (after sN3a V) (no_index (Proc.devRef .tc main_v50))
    = rNorm (V (Proc.devRef .tc main_arg2)) (V (Proc.devRef .tc main_arg7)) (V (Proc.devRef .tc main_arg8)) := N3_v50 V
theorem sPA_v85 (V : Valuation τ sig (Elt F)) : after sPA V (no_index (Proc.devRef .tc main_v85))
    = rAttn (rProj (V (Proc.devRef .tc main_v16)) (V (Proc.devRef .tc main_arg11)) (V (Proc.devRef .tc main_arg12)))
        (rProj (V (Proc.devRef .tc main_v33)) (V (Proc.devRef .tc main_arg13)) (V (Proc.devRef .tc main_arg14)))
        (rProj (V (Proc.devRef .tc main_v50)) (V (Proc.devRef .tc main_arg15)) (V (Proc.devRef .tc main_arg16))) := PA_v85 V
theorem sO_v90 (V : Valuation τ sig (Elt F)) : after sO V (no_index (Proc.devRef .tc main_v90))
    = addf (V (Proc.devRef .tc main_arg2)) (rProj (V (Proc.devRef .tc main_v85)) (V (Proc.devRef .tc main_arg17)) (V (Proc.devRef .tc main_arg18))) := O_v90 V
theorem sN4_v107 (V : Valuation τ sig (Elt F)) : after sN4b (after sN4a V) (no_index (Proc.devRef .tc main_v107))
    = rNorm (V (Proc.devRef .tc main_v90)) (V (Proc.devRef .tc main_arg9)) (V (Proc.devRef .tc main_arg10)) := N4_v107 V
theorem sF_v117 (V : Valuation τ sig (Elt F)) : after sF V (no_index (Proc.devRef .tc main_v117))
    = addf (V (Proc.devRef .tc main_v90)) (rProj (rRelu (rProj (V (Proc.devRef .tc main_v107)) (V (Proc.devRef .tc main_arg19)) (V (Proc.devRef .tc main_arg20))))
        (V (Proc.devRef .tc main_arg21)) (V (Proc.devRef .tc main_arg22))) := F_v117 V

/-- Every stage result read where it was written, every other buffer carried past the stages that do not write it. -/
local macro "stagewise" : tactic =>
  `(tactic| (rw [after_ops]; simp (disch := decide) only [sF_v117, sN4_v107, sO_v90, sPA_v85, sN3_v50, sN2_v33, sN1_v16,
      sN1_keep, sN2_keep, sN3a_keep, sN3b_keep, sPA_keep, sO_keep, sN4a_keep, sN4b_keep, sF_keep]))

/-- The result buffer after the whole line: the composed term of the argument buffers. -/
theorem out_eq (V : Valuation τ sig (Elt F)) :
    after ops V (Proc.devRef .tc main_v117)
      = RG (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  stagewise
  rw [RG, rX1]

theorem arg0_eq (V : Valuation τ sig (Elt F)) : after ops V (Proc.devRef .tc main_arg0) = V (Proc.devRef .tc main_arg0) := by stagewise
theorem arg1_eq (V : Valuation τ sig (Elt F)) : after ops V (Proc.devRef .tc main_arg1) = V (Proc.devRef .tc main_arg1) := by stagewise
theorem arg2_eq (V : Valuation τ sig (Elt F)) : after ops V (Proc.devRef .tc main_arg2) = V (Proc.devRef .tc main_arg2) := by stagewise
theorem arg3_eq (V : Valuation τ sig (Elt F)) : after ops V (Proc.devRef .tc main_arg3) = V (Proc.devRef .tc main_arg3) := by stagewise
theorem arg4_eq (V : Valuation τ sig (Elt F)) : after ops V (Proc.devRef .tc main_arg4) = V (Proc.devRef .tc main_arg4) := by stagewise
theorem arg5_eq (V : Valuation τ sig (Elt F)) : after ops V (Proc.devRef .tc main_arg5) = V (Proc.devRef .tc main_arg5) := by stagewise
theorem arg6_eq (V : Valuation τ sig (Elt F)) : after ops V (Proc.devRef .tc main_arg6) = V (Proc.devRef .tc main_arg6) := by stagewise
theorem arg7_eq (V : Valuation τ sig (Elt F)) : after ops V (Proc.devRef .tc main_arg7) = V (Proc.devRef .tc main_arg7) := by stagewise
theorem arg8_eq (V : Valuation τ sig (Elt F)) : after ops V (Proc.devRef .tc main_arg8) = V (Proc.devRef .tc main_arg8) := by stagewise
theorem arg9_eq (V : Valuation τ sig (Elt F)) : after ops V (Proc.devRef .tc main_arg9) = V (Proc.devRef .tc main_arg9) := by stagewise
theorem arg10_eq (V : Valuation τ sig (Elt F)) : after ops V (Proc.devRef .tc main_arg10) = V (Proc.devRef .tc main_arg10) := by stagewise
theorem arg11_eq (V : Valuation τ sig (Elt F)) : after ops V (Proc.devRef .tc main_arg11) = V (Proc.devRef .tc main_arg11) := by stagewise
theorem arg12_eq (V : Valuation τ sig (Elt F)) : after ops V (Proc.devRef .tc main_arg12) = V (Proc.devRef .tc main_arg12) := by stagewise
theorem arg13_eq (V : Valuation τ sig (Elt F)) : after ops V (Proc.devRef .tc main_arg13) = V (Proc.devRef .tc main_arg13) := by stagewise
theorem arg14_eq (V : Valuation τ sig (Elt F)) : after ops V (Proc.devRef .tc main_arg14) = V (Proc.devRef .tc main_arg14) := by stagewise
theorem arg15_eq (V : Valuation τ sig (Elt F)) : after ops V (Proc.devRef .tc main_arg15) = V (Proc.devRef .tc main_arg15) := by stagewise
theorem arg16_eq (V : Valuation τ sig (Elt F)) : after ops V (Proc.devRef .tc main_arg16) = V (Proc.devRef .tc main_arg16) := by stagewise
theorem arg17_eq (V : Valuation τ sig (Elt F)) : after ops V (Proc.devRef .tc main_arg17) = V (Proc.devRef .tc main_arg17) := by stagewise
theorem arg18_eq (V : Valuation τ sig (Elt F)) : after ops V (Proc.devRef .tc main_arg18) = V (Proc.devRef .tc main_arg18) := by stagewise
theorem arg19_eq (V : Valuation τ sig (Elt F)) : after ops V (Proc.devRef .tc main_arg19) = V (Proc.devRef .tc main_arg19) := by stagewise
theorem arg20_eq (V : Valuation τ sig (Elt F)) : after ops V (Proc.devRef .tc main_arg20) = V (Proc.devRef .tc main_arg20) := by stagewise
theorem arg21_eq (V : Valuation τ sig (Elt F)) : after ops V (Proc.devRef .tc main_arg21) = V (Proc.devRef .tc main_arg21) := by stagewise
theorem arg22_eq (V : Valuation τ sig (Elt F)) : after ops V (Proc.devRef .tc main_arg22) = V (Proc.devRef .tc main_arg22) := by stagewise

/-- On every device, for any float values, from any memory with zero counters: every weakly fair execution of the
    reference's @main terminates with the result buffer at the composed term of the argument buffers' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117)
        = RG (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v117).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _)⟩)
    (run_raw m ρ)

end Cert.ReferenceIdeal.Val

end
-- ==== Proof.RNorm.lean ====
/-
  The reference program's rowwise chains read at an index over the extended reals: the pre-norm
  of a row is the specification's `norm` of that row, the projection its `proj`, the rectifier the
  maximum with zero. The reference divides the sum of squares by 2048 − 1 where the specification
  multiplies by 1/2047, and guards the quotient by a comparison that always holds.
-/
import proofs.«414706_j8890582303248_3_alg».proof.Proof.RNormDef
import proofs.«414706_j8890582303248_3_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

noncomputable section

namespace Cert.ReferenceIdeal.Val

open Idealize.ShloMosaic Idealize.SL.Sem Idealize.ShloMosaic.ValueIdx
open Cert.ReferenceIdeal
open Facts₀ Facts

/-! ## Read at an index, over the extended reals -/

section Apply

variable [Facts₀]

/-- The word 0x45000000 is the real 2048. -/
theorem ofBits_2048 : Ideal.ofBits .f32 0x45000000#32 = ((2048 : ℝ) : EReal) := by
  simp [Ideal.ofBits, Ideal.ieee, -EReal.coe_mul]; norm_num

/-- A row sum from the zero word is the sum of the row's 2048 entries. -/
theorem rowSum_apply (X : FVec Ideal S8192x2048 .f32) (r : Fin 8192) :
    Host.reduceAdd X (constant (F := Ideal) S_ .f32 0x00000000#32) reducesTo_S8192x2048_S8192_d1 h_S_ (ix1 r)
      = ∑ k : Fin 2048, X (ix2 r k) := by
  rw [hostReduceAdd_apply, Ideal.hostReduceAdd_single reducesTo_S8192x2048_S8192_d1 (by decide)]
  rw [constant_apply, Ideal.ofBits_zero_f32, zero_add]
  refine Finset.sum_congr rfl fun k _ => ?_
  exact congrArg X (funext fun a => Fin.ext (by match a with | ⟨0, _⟩ => rfl | ⟨1, _⟩ => rfl))

/-- A vector of length 8192 as a column, at row `r`. -/
theorem col_apply (x : FVec Ideal S8192 .f32) (r : Fin 8192) (c : Fin 1) :
    broadcastInDim S8192x1 ![0] bcast_S8192_S8192x1_0 x (ix2 r c) = x (ix1 r) :=
  broadcastInDim_apply _ _ x (ix2 r c) (ix1 r) (fun a => by match a with | ⟨0, _⟩ => rfl)

/-- A column repeated along the 2048 columns, at (r, j). -/
theorem colB_apply (x : FVec Ideal S8192x1 .f32) (r : Fin 8192) (j : Fin 2048) :
    broadcastInDim S8192x2048 ![0, 1] bcast_S8192x1_S8192x2048_0_1 x (ix2 r j) = x (ix2 r (0 : Fin 1)) :=
  broadcastInDim_apply _ _ x (ix2 r j) (ix2 r (0 : Fin 1)) (fun a => by match a with | ⟨0, _⟩ => rfl | ⟨1, _⟩ => rfl)

theorem rMean_apply (X : FVec Ideal S8192x2048 .f32) (r : Fin 8192) (c : Fin 1) :
    rMean (F := Ideal) X (ix2 r c) = Spec.mean (Spec.rowOf X r) := by
  unfold rMean
  rw [hostDivf_apply, col_apply, rowSum_apply, broadcastInDim_scalar_apply, constant_apply]
  rfl

theorem rCen_apply (X : FVec Ideal S8192x2048 .f32) (r : Fin 8192) (j : Fin 2048) :
    rCen (F := Ideal) X (ix2 r j) = Spec.cen (Spec.rowOf X r) j := by
  unfold rCen
  rw [subf_apply, colB_apply, rMean_apply]
  rfl

/-- The unbiased divisor is the real 2047. -/
theorem rDof_val : rDof (F := Ideal) ix0 = ((2047 : ℝ) : EReal) := by
  unfold rDof
  rw [subf_apply, constant_apply, sitofp_apply, constantI_apply, ofBits_2048]
  show ((2048 : ℝ) : EReal) - (((1#32 : BitVec 32).toInt : ℝ) : EReal) = _
  rw [show (1#32 : BitVec 32).toInt = 1 by decide, ← EReal.coe_sub]
  norm_num

/-- The divisor is positive, so the variance is the quotient and never the not-a-number word;
    dividing by 2047 is multiplying by 1/2047. -/
theorem rVar_apply (X : FVec Ideal S8192x2048 .f32) (r : Fin 8192) (c : Fin 1) :
    rVar (F := Ideal) X (ix2 r c)
      = (∑ k : Fin 2048, Spec.cen (Spec.rowOf X r) k * Spec.cen (Spec.rowOf X r) k) * Spec.invN1 := by
  unfold rVar
  rw [select_apply, broadcastInDim_scalar_apply, cmpf_apply, Ideal.cmpf_def, rDof_val, constant_apply,
    Ideal.ofBits_zero_f32]
  have hpos : Ideal.cmp .ogt ((2047 : ℝ) : EReal) 0 = 1#1 := by
    have h : (0 : EReal) < ((2047 : ℝ) : EReal) := by exact_mod_cast (by norm_num : (0 : ℝ) < 2047)
    simp [Ideal.cmp, h]
  rw [hpos, select_one, hostDivf_apply, col_apply, rowSum_apply, broadcastInDim_scalar_apply, rDof_val,
    Ideal.div_coe (by norm_num : (2047 : ℝ) ≠ 0)]
  refine congrArg (· * _) (Finset.sum_congr rfl fun k _ => ?_)
  rw [mulf_apply, rCen_apply]

theorem rStd_apply (X : FVec Ideal S8192x2048 .f32) (r : Fin 8192) (c : Fin 1) :
    rStd (F := Ideal) X (ix2 r c) = Spec.sd (Spec.rowOf X r) := by
  show Ideal.sqrt (rVar (F := Ideal) X (ix2 r c)) = _
  rw [rVar_apply]
  rfl

/-- A vector of width 2048 repeated down the rows, at (r, j). -/
theorem rRows_apply (a : FVec Ideal S2048 .f32) (r : Fin 8192) (j : Fin 2048) :
    rRows (F := Ideal) a (ix2 r j) = a (ix1 j) := by
  unfold rRows
  refine (broadcastInDim_apply _ _ _ (ix2 r j) (ix2 (0 : Fin 1) j)
    (fun a => by match a with | ⟨0, _⟩ => rfl | ⟨1, _⟩ => rfl)).trans ?_
  exact broadcastInDim_apply _ _ a (ix2 (0 : Fin 1) j) (ix1 j) (fun a => by match a with | ⟨0, _⟩ => rfl)

theorem rNorm_at (X : FVec Ideal S8192x2048 .f32) (a b : FVec Ideal S2048 .f32) (r : Fin 8192) (j : Fin 2048) :
    rNorm (F := Ideal) X a b (ix2 r j) = Spec.norm (Spec.vecOf a) (Spec.vecOf b) (Spec.rowOf X r) j := by
  unfold rNorm
  rw [addf_apply, hostDivf_apply, mulf_apply, rRows_apply, rRows_apply, rCen_apply, colB_apply, addf_apply,
    rStd_apply, broadcastInDim_scalar_apply, constant_apply]
  rfl

theorem rNorm_apply (X : (⟨S8192x2048, .f32⟩ : BufTy).Contents (Elt Ideal)) (a b : (⟨S2048, .f32⟩ : BufTy).Contents (Elt Ideal))
    (i : S8192x2048.Idx) :
    rNorm (F := Ideal) X a b i = Spec.norm (Spec.vecOf a) (Spec.vecOf b) (Spec.rowOf X (Spec.row0 i)) (Spec.col1 i) := by
  obtain ⟨r, j, rfl⟩ : ∃ (r : Fin 8192) (j : Fin 2048), i = ix2 r j := ⟨i 0, i 1, eq_ix2 i⟩
  exact rNorm_at X a b r j

/-! ### The projection -/

theorem lhs_proj_0 (i : S8192x2048.Idx) (q : dot_S8192x2048_S2048x2048_S8192x2048_1_0_0_1_n_n.contr.Idx) :
    (dot_S8192x2048_S2048x2048_S8192x2048_1_0_0_1_n_n.lhsIdx i q 0).val = (i 0).val := by
  unfold DotDims.lhsIdx
  rw [dif_neg (show ¬(0 : Fin S8192x2048.rank) ∈ dot_S8192x2048_S2048x2048_S8192x2048_1_0_0_1_n_n.lhsBatch from List.not_mem_nil),
    dif_pos (show (0 : Fin S8192x2048.rank) ∈ dot_S8192x2048_S2048x2048_S8192x2048_1_0_0_1_n_n.lhsNonContracting from List.mem_singleton.mpr rfl)]
  rfl

theorem lhs_proj_1 (i : S8192x2048.Idx) (q : dot_S8192x2048_S2048x2048_S8192x2048_1_0_0_1_n_n.contr.Idx) :
    (dot_S8192x2048_S2048x2048_S8192x2048_1_0_0_1_n_n.lhsIdx i q 1).val = (q ⟨0, (show (0 : Nat) < 1 from Nat.one_pos)⟩).val :=
  dot_S8192x2048_S2048x2048_S8192x2048_1_0_0_1_n_n.lhsIdx_val_of_single rfl i q

theorem rhs_proj_0 (i : S8192x2048.Idx) (q : dot_S8192x2048_S2048x2048_S8192x2048_1_0_0_1_n_n.contr.Idx) :
    (dot_S8192x2048_S2048x2048_S8192x2048_1_0_0_1_n_n.rhsIdx i q 0).val = (q ⟨0, (show (0 : Nat) < 1 from Nat.one_pos)⟩).val :=
  dot_S8192x2048_S2048x2048_S8192x2048_1_0_0_1_n_n.rhsIdx_val_of_single rfl i q

theorem rhs_proj_1 (i : S8192x2048.Idx) (q : dot_S8192x2048_S2048x2048_S8192x2048_1_0_0_1_n_n.contr.Idx) :
    (dot_S8192x2048_S2048x2048_S8192x2048_1_0_0_1_n_n.rhsIdx i q 1).val = (i 1).val := by
  unfold DotDims.rhsIdx
  rw [dif_neg (show ¬(1 : Fin S2048x2048.rank) ∈ dot_S8192x2048_S2048x2048_S8192x2048_1_0_0_1_n_n.rhsBatch from List.not_mem_nil),
    dif_pos (show (1 : Fin S2048x2048.rank) ∈ dot_S8192x2048_S2048x2048_S8192x2048_1_0_0_1_n_n.rhsNonContracting from List.mem_singleton.mpr rfl)]
  rfl

/-- The product at (r, j) is the sum over the one contracted axis. -/
theorem dot_at (X : FVec Ideal S8192x2048 .f32) (W : FVec Ideal S2048x2048 .f32) (r : Fin 8192) (j : Fin 2048) :
    Host.dotGeneral (F := Ideal) dot_S8192x2048_S2048x2048_S8192x2048_1_0_0_1_n_n none X W (ix2 r j)
      = ∑ k : Fin 2048, X (ix2 r k) * W (ix2 k j) := by
  simp only [Host.dotGeneral]
  rw [Ideal.dotGeneral_apply,
    ← Equiv.sum_comp (contrEquiv1 dot_S8192x2048_S2048x2048_S8192x2048_1_0_0_1_n_n 2048 rfl rfl).symm]
  refine Finset.sum_congr rfl fun k _ => ?_
  have hk := contrEquiv1_symm_val dot_S8192x2048_S2048x2048_S8192x2048_1_0_0_1_n_n 2048 rfl rfl k
  have el : dot_S8192x2048_S2048x2048_S8192x2048_1_0_0_1_n_n.lhsIdx (ix2 r j)
      ((contrEquiv1 dot_S8192x2048_S2048x2048_S8192x2048_1_0_0_1_n_n 2048 rfl rfl).symm k) = ix2 r k :=
    funext fun a => Fin.ext (by
      match a with
      | ⟨0, _⟩ => exact lhs_proj_0 _ _
      | ⟨1, _⟩ => exact (lhs_proj_1 _ _).trans hk)
  have er : dot_S8192x2048_S2048x2048_S8192x2048_1_0_0_1_n_n.rhsIdx (ix2 r j)
      ((contrEquiv1 dot_S8192x2048_S2048x2048_S8192x2048_1_0_0_1_n_n 2048 rfl rfl).symm k) = ix2 k j :=
    funext fun a => Fin.ext (by
      match a with
      | ⟨0, _⟩ => exact (rhs_proj_0 _ _).trans hk
      | ⟨1, _⟩ => exact rhs_proj_1 _ _)
  rw [el, er]

theorem rProj_apply (X : (⟨S8192x2048, .f32⟩ : BufTy).Contents (Elt Ideal)) (W : (⟨S2048x2048, .f32⟩ : BufTy).Contents (Elt Ideal))
    (bias : (⟨S2048, .f32⟩ : BufTy).Contents (Elt Ideal)) (i : S8192x2048.Idx) :
    rProj (F := Ideal) X W bias i = Spec.proj (Spec.matOf W) (Spec.vecOf bias) (Spec.rowOf X (Spec.row0 i)) (Spec.col1 i) := by
  obtain ⟨r, j, rfl⟩ : ∃ (r : Fin 8192) (j : Fin 2048), i = ix2 r j := ⟨i 0, i 1, eq_ix2 i⟩
  unfold rProj
  rw [addf_apply, dot_at, rRows_apply]
  rfl

/-! ### The rectifier -/

theorem rRelu_apply (X : (⟨S8192x2048, .f32⟩ : BufTy).Contents (Elt Ideal)) (i : S8192x2048.Idx) :
    rRelu (F := Ideal) X i = max (X i) Spec.zero32 := by
  unfold rRelu
  rw [maximumf_apply, broadcastInDim_scalar_apply, constant_apply]
  rfl

end Apply

end Cert.ReferenceIdeal.Val

end
-- ==== Proof.RAttn.lean ====
/-
  The reference program's per-token attention, read at an index.

  Each stage of the whole-array function is read at coordinates: the position-major layout as
  column 128·h + a, the two batched products as sums over the contracted coordinate, the division
  by the float nearest to sqrt 128 as the product with 2^20 / 11863283, the row maximum as a fold
  of max from minus infinity (the second maximum against minus infinity is absorbed), the row sum
  as a sum from zero. Composed, the function at (n, j) is the specification's context of row n at
  column j, with the two factors of each product in the other order.
-/
import proofs.«414706_j8890582303248_3_alg».proof.Proof.RAttnDef
import proofs.«414706_j8890582303248_3_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

namespace Cert.ReferenceIdeal.Val

open Idealize.ShloMosaic Idealize.SL.Sem Idealize.ShloMosaic.ValueIdx
open Cert.ReferenceIdeal

section Ideal
variable [Facts₀]
open Facts₀

/-- Entry (n, a, h) of the position-major layout is column 128·h + a of row n. -/
theorem rHeads_apply (X : (⟨S8192x2048, .f32⟩ : BufTy).Contents (Elt Ideal)) (n : Fin 8192) (a : Fin 128)
    (h : Fin 16) : rHeads (F := Ideal) X (ix3 n a h) = X (ix2 n (Spec.hd h a)) := by
  unfold rHeads
  refine (transpose_ix3_021_apply _ _ n a h).trans ?_
  refine shapeCast_apply X _ (ix3 n h a) (ix2 n (Spec.hd h a)) ?_
  rw [Shape.rowMajor_val_two, Shape.rowMajor_val_three]
  show n.val * 2048 + (128 * h.val + a.val) = (n.val * 16 + h.val) * 128 + a.val
  omega

/-- A batched product contracting the LAST axis of both operands, read at an index: the sum over
    the contracted coordinate. -/
theorem dot_last_last_apply
    (w : DotDims.WF S8192x128x16 S8192x128x16 S8192x128x128 [2] [2] [1] [1] [0] [0])
    (A B : FVec Ideal S8192x128x16 .f32) (n : Fin 8192) (a b : Fin 128) :
    Host.dotGeneral (⟨[2], [2], [1], [1], [0], [0], w⟩ : DotDims S8192x128x16 S8192x128x16 S8192x128x128) none A B
        (ix3 n a b)
      = ∑ h : Fin 16, A (ix3 n a h) * B (ix3 n b h) := by
  show FloatOps.dotGeneral _ none _ A B (ix3 n a b) = _
  rw [Ideal.dotGeneral_apply,
    ← Equiv.sum_comp (contrEquiv1
      (⟨[2], [2], [1], [1], [0], [0], w⟩ : DotDims S8192x128x16 S8192x128x16 S8192x128x128) 16 rfl rfl).symm]
  refine Finset.sum_congr rfl fun h _ => ?_
  have ck := contrEquiv1_symm_val
    (⟨[2], [2], [1], [1], [0], [0], w⟩ : DotDims S8192x128x16 S8192x128x16 S8192x128x128) 16 rfl rfl h
  have el : (⟨[2], [2], [1], [1], [0], [0], w⟩ : DotDims S8192x128x16 S8192x128x16 S8192x128x128).lhsIdx (ix3 n a b)
      ((contrEquiv1 _ 16 rfl rfl).symm h) = ix3 n a h := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have er : (⟨[2], [2], [1], [1], [0], [0], w⟩ : DotDims S8192x128x16 S8192x128x16 S8192x128x128).rhsIdx (ix3 n a b)
      ((contrEquiv1 _ 16 rfl rfl).symm h) = ix3 n b h := by
    funext ax; apply Fin.ext
    match ax with
    | ⟨0, _⟩ => simp [DotDims.rhsIdx]; rfl
    | ⟨1, _⟩ => simp [DotDims.rhsIdx]; rfl
    | ⟨2, _⟩ => simp [DotDims.rhsIdx]; exact ck
  rw [el, er]

/-- The scores at (n, a, b): positions a and b of token n, contracted over the 16 heads. -/
theorem rScores_apply (qh kh : (⟨S8192x128x16, .f32⟩ : BufTy).Contents (Elt Ideal)) (n : Fin 8192)
    (a b : Fin 128) :
    rScores (F := Ideal) qh kh (ix3 n a b) = ∑ h : Fin 16, qh (ix3 n a h) * kh (ix3 n b h) :=
  dot_last_last_apply dot_S8192x128x16_S8192x128x16_S8192x128x128_2_2_1_1_0_0_wf qh kh n a b

/-- The context at (n, a, h): the softmax axis contracted against the values. -/
theorem rCtx_apply (p : (⟨S8192x128x128, .f32⟩ : BufTy).Contents (Elt Ideal))
    (vh : (⟨S8192x128x16, .f32⟩ : BufTy).Contents (Elt Ideal)) (n : Fin 8192) (a : Fin 128) (h : Fin 16) :
    rCtx (F := Ideal) p vh (ix3 n a h) = ∑ b : Fin 128, p (ix3 n a b) * vh (ix3 n b h) :=
  StackMember.dotGeneral_stack_apply dot_S8192x128x128_S8192x128x16_S8192x128x16_2_1_1_2_0_0_wf none p vh n a h

/-! ## The float words -/

/-- The divisor under the scores, the float nearest to sqrt 128, is 11863283 / 2^20. -/
theorem ofBits_divisor : Ideal.ofBits .f32 0x413504F3#32 = ((11863283 / 1048576 : ℝ) : EReal) := by
  simp [Ideal.ofBits, Ideal.ieee, -EReal.coe_mul]; norm_num

/-- The word of minus infinity is the bottom of the extended reals. -/
theorem ofBits_negInf : Ideal.ofBits .f32 0xFF800000#32 = (⊥ : EReal) := by
  simp [Ideal.ofBits, Ideal.ieee]

/-! ## The pointwise stages and the reductions, read at an index -/

/-- Dividing by the divisor is multiplying by its reciprocal 2^20 / 11863283. -/
theorem rScaled_apply (s : (⟨S8192x128x128, .f32⟩ : BufTy).Contents (Elt Ideal)) (j : S8192x128x128.Idx) :
    rScaled (F := Ideal) s j = s j * Spec.scale := by
  unfold rScaled
  have e : broadcastInDim S8192x128x128 ![] bcast_S_S8192x128x128
      (constant (F := Ideal) S_ .f32 0x413504F3#32) j = ((11863283 / 1048576 : ℝ) : EReal) :=
    (broadcastInDim_scalar_apply _ _ j).trans ofBits_divisor
  show Ideal.div (s j) (broadcastInDim S8192x128x128 ![] bcast_S_S8192x128x128
      (constant (F := Ideal) S_ .f32 0x413504F3#32) j) = _
  rw [e, Ideal.div_coe (by norm_num)]
  unfold Spec.scale
  rw [show (1 / (11863283 / 1048576) : ℝ) = 1048576 / 11863283 by norm_num]

/-- The index (n, a) with coordinate k put back on the last axis is (n, a, k). -/
theorem lift_last (h : S8192x128x128.Reduces [2] S8192x128) (n : Fin 8192) (a : Fin 128)
    (k : Fin (S8192x128x128.size 2)) : h.lift (ix2 n a) k = ix3 n a (⟨k.val, k.isLt⟩ : Fin 128) := by
  funext c; apply Fin.ext
  match c with
  | ⟨0, _⟩ => rfl
  | ⟨1, _⟩ => rfl
  | ⟨2, _⟩ => rfl

/-- The maximum with a broadcast minus infinity on the left changes nothing. -/
theorem max_negInf_bcast (x : FVec Ideal S8192x128 .f32) (j : S8192x128.Idx) :
    maximumf (broadcastInDim S8192x128 ![] bcast_S_S8192x128 (constant (F := Ideal) S_ .f32 0xFF800000#32)) x j
      = x j :=
  (maximumf_apply _ _ j).trans
    ((congrArg (fun t => max t (x j)) ((broadcastInDim_scalar_apply _ _ j).trans ofBits_negInf)).trans
      (max_eq_right bot_le))

/-- The row maximum from minus infinity; the second maximum against minus infinity changes nothing. -/
theorem rRowMax_apply (s : (⟨S8192x128x128, .f32⟩ : BufTy).Contents (Elt Ideal)) (n : Fin 8192) (a : Fin 128) :
    rRowMax (F := Ideal) s (ix2 n a) = Spec.rmax (fun b => s (ix3 n a b)) := by
  have hR : S8192x128x128.Reduces [2] S8192x128 := by decide
  have hf : ((s : FVec Ideal S8192x128x128 .f32) ∘ hR.lift (ix2 n a)) = fun b : Fin 128 => s (ix3 n a b) :=
    funext fun k => congrArg s (lift_last hR n a k)
  have hred : Host.reduce (FloatOps.maximumf (F := Ideal) (φ := .f32)) (s : FVec Ideal S8192x128x128 .f32)
        (constant (F := Ideal) S_ .f32 0xFF800000#32) reducesTo_S8192x128x128_S8192x128_d2 h_S_ (ix2 n a)
      = Finset.fold max (Ideal.ofBits .f32 0xFF800000#32) (fun b : Fin 128 => s (ix3 n a b))
          (Finset.univ : Finset (Fin 128)) :=
    (Host.reduce_eq_fold_single (FloatOps.maximumf (F := Ideal) (φ := .f32)) (s : FVec Ideal S8192x128x128 .f32)
      (constant (F := Ideal) S_ .f32 0xFF800000#32) reducesTo_S8192x128x128_S8192x128_d2 hR h_S_ (ix2 n a)).trans
      (congrArg
        (fun f => Finset.fold max (Ideal.ofBits .f32 0xFF800000#32) f (Finset.univ : Finset (Fin 128))) hf)
  unfold rRowMax
  refine (max_negInf_bcast _ (ix2 n a)).trans ?_
  unfold Spec.rmax Spec.negInf
  exact hred

/-- A value per (n, a) broadcast along a new last axis reads that value at every b. -/
theorem rBack_apply (m : (⟨S8192x128, .f32⟩ : BufTy).Contents (Elt Ideal)) (n : Fin 8192) (a b : Fin 128) :
    rBack (F := Ideal) m (ix3 n a b) = m (ix2 n a) := by
  unfold rBack
  refine (broadcastInDim_apply ![0, 1, 2] bcast_S8192x128x1_S8192x128x128_0_1_2 _ (ix3 n a b)
    (ix3 n a (0 : Fin 1)) ?_).trans ?_
  · intro c
    match c with
    | ⟨0, _⟩ => rfl
    | ⟨1, _⟩ => rfl
    | ⟨2, _⟩ => rfl
  · refine broadcastInDim_apply ![0, 1] bcast_S8192x128_S8192x128x1_0_1 m (ix3 n a (0 : Fin 1)) (ix2 n a) ?_
    intro c
    match c with
    | ⟨0, _⟩ => rfl
    | ⟨1, _⟩ => rfl

theorem rExp_apply (s : (⟨S8192x128x128, .f32⟩ : BufTy).Contents (Elt Ideal)) (n : Fin 8192) (a b : Fin 128) :
    rExp (F := Ideal) s (ix3 n a b)
      = Ideal.exp (s (ix3 n a b) - Spec.rmax (fun b' => s (ix3 n a b'))) := by
  unfold rExp
  show Ideal.exp (s (ix3 n a b) - rBack (rRowMax s) (ix3 n a b)) = _
  rw [rBack_apply, rRowMax_apply]

/-- The row sum from zero. -/
theorem rRowSum_apply (e : (⟨S8192x128x128, .f32⟩ : BufTy).Contents (Elt Ideal)) (n : Fin 8192) (a : Fin 128) :
    rRowSum (F := Ideal) e (ix2 n a) = ∑ b : Fin 128, e (ix3 n a b) := by
  unfold rRowSum
  have hR : S8192x128x128.Reduces [2] S8192x128 := by decide
  rw [hostReduceAdd_apply, Ideal.hostReduceAdd_single reducesTo_S8192x128x128_S8192x128_d2 hR]
  show Ideal.ofBits .f32 0x00000000#32 + ∑ k : Fin (S8192x128x128.size 2), e (hR.lift (ix2 n a) k) = _
  rw [Ideal.ofBits_zero_f32, zero_add]
  exact Finset.sum_congr rfl fun k _ => congrArg e (lift_last hR n a k)

theorem rProbs_apply (e : (⟨S8192x128x128, .f32⟩ : BufTy).Contents (Elt Ideal)) (n : Fin 8192) (a b : Fin 128) :
    rProbs (F := Ideal) e (ix3 n a b) = Ideal.div (e (ix3 n a b)) (∑ b' : Fin 128, e (ix3 n a b')) := by
  unfold rProbs
  show Ideal.div (e (ix3 n a b)) (rBack (rRowSum e) (ix3 n a b)) = _
  rw [rBack_apply, rRowSum_apply]

/-- Column j of the flattened row is position j mod 128 of head j / 128. -/
theorem rMerge_apply (c : (⟨S8192x128x16, .f32⟩ : BufTy).Contents (Elt Ideal)) (n : Fin 8192) (j : Fin 2048) :
    rMerge (F := Ideal) c (ix2 n j) = c (ix3 n (Spec.posOf j) (Spec.headOf j)) := by
  unfold rMerge
  refine (shapeCast_apply _ _ (ix2 n j) (ix3 n (Spec.headOf j) (Spec.posOf j)) ?_).trans ?_
  · rw [Shape.rowMajor_val_two, Shape.rowMajor_val_three]
    show (n.val * 16 + j.val / 128) * 128 + j.val % 128 = n.val * 2048 + j.val
    omega
  · exact transpose_ix3_021_apply _ _ n (Spec.headOf j) (Spec.posOf j)

/-! ## The stages composed, against the specification's row functions -/

theorem scaled_eq (Q K : (⟨S8192x2048, .f32⟩ : BufTy).Contents (Elt Ideal)) (n : Fin 8192) (a b : Fin 128) :
    rScaled (F := Ideal) (rScores (rHeads Q) (rHeads K)) (ix3 n a b)
      = Spec.score (Spec.rowOf Q n) (Spec.rowOf K n) a b := by
  rw [rScaled_apply, rScores_apply]
  unfold Spec.score
  refine congrArg (· * Spec.scale) (Finset.sum_congr rfl fun h _ => ?_)
  rw [rHeads_apply, rHeads_apply]
  rfl

theorem exp_eq (Q K : (⟨S8192x2048, .f32⟩ : BufTy).Contents (Elt Ideal)) (n : Fin 8192) (a b : Fin 128) :
    rExp (F := Ideal) (rScaled (rScores (rHeads Q) (rHeads K))) (ix3 n a b)
      = Spec.ex (Spec.rowOf Q n) (Spec.rowOf K n) a b := by
  rw [rExp_apply]
  unfold Spec.ex
  rw [scaled_eq,
    show (fun b' => rScaled (F := Ideal) (rScores (rHeads Q) (rHeads K)) (ix3 n a b'))
      = Spec.score (Spec.rowOf Q n) (Spec.rowOf K n) a from funext fun b' => scaled_eq Q K n a b']

theorem probs_eq (Q K : (⟨S8192x2048, .f32⟩ : BufTy).Contents (Elt Ideal)) (n : Fin 8192) (a b : Fin 128) :
    rProbs (F := Ideal) (rExp (rScaled (rScores (rHeads Q) (rHeads K)))) (ix3 n a b)
      = Spec.prob (Spec.rowOf Q n) (Spec.rowOf K n) a b := by
  rw [rProbs_apply]
  unfold Spec.prob
  rw [exp_eq, Finset.sum_congr rfl fun b' _ => exp_eq Q K n a b']

/-- The reference's attention at (n, j) is the specification's context of row n at column j; the two
    factors of each product stand in the other order. -/
theorem rAttn_ix2 (Q K V : (⟨S8192x2048, .f32⟩ : BufTy).Contents (Elt Ideal)) (n : Fin 8192) (j : Fin 2048) :
    rAttn (F := Ideal) Q K V (ix2 n j)
      = Spec.ctx (Spec.rowOf Q n) (Spec.rowOf K n) (Spec.rowOf V n) j := by
  unfold rAttn
  rw [rMerge_apply, rCtx_apply]
  unfold Spec.ctx
  refine Finset.sum_congr rfl fun b _ => ?_
  rw [rHeads_apply, probs_eq, mul_comm]
  rfl

theorem rAttn_apply (Q K V : (⟨S8192x2048, .f32⟩ : BufTy).Contents (Elt Ideal)) (i : S8192x2048.Idx) :
    rAttn (F := Ideal) Q K V i
      = Spec.ctx (Spec.rowOf Q (Spec.row0 i)) (Spec.rowOf K (Spec.row0 i)) (Spec.rowOf V (Spec.row0 i))
          (Spec.col1 i) := by
  have hi : i = ix2 (Spec.row0 i) (Spec.col1 i) := eq_ix2 i
  exact (congrArg (rAttn (F := Ideal) Q K V) hi).trans (rAttn_ix2 Q K V _ _)

end Ideal

end Cert.ReferenceIdeal.Val

end
-- ==== Proof.RValue.lean ====
/-
  The reference's composed result is `Spec.G`, index by index, over the extended reals.

  Every factor of the reference's term acts row by row, so each is read as a function of one row:
  the pre-norm, the projection, the attention's context and the ReLU have their own lemmas; here they
  are chained.  The reference adds the output projection's bias before the residual and the last
  bias before the second residual, where the specification adds them after: addition of extended
  reals is associative, which is all that separates the two.
-/
import proofs.«414706_j8890582303248_3_alg».proof.Proof.RTerm
import proofs.«414706_j8890582303248_3_alg».proof.Proof.RNorm
import proofs.«414706_j8890582303248_3_alg».proof.Proof.RAttn
import proofs.«414706_j8890582303248_3_alg».proof.Proof.Spec
import Idealize.ShloMosaic.Lib.ValueIdx

noncomputable section

namespace Cert.ReferenceIdeal.Val

open Idealize.ShloMosaic Idealize.SL.Sem Idealize.ShloMosaic.ValueIdx
open Cert.ReferenceIdeal

variable [Facts₀]

theorem row0_ix2 (n : Fin 8192) (j : Fin 2048) : Spec.row0 (ix2 n j) = n := Fin.ext rfl
theorem col1_ix2 (n : Fin 8192) (j : Fin 2048) : Spec.col1 (ix2 n j) = j := Fin.ext rfl
theorem ix2_row0_col1 (i : (⟨2, ![8192, 2048]⟩ : Shape).Idx) : ix2 (Spec.row0 i) (Spec.col1 i) = i := by
  funext d
  match d with
  | ⟨0, _⟩ => exact Fin.ext rfl
  | ⟨1, _⟩ => exact Fin.ext rfl

/-- An array given index by index as a function of the row, read one row at a time. -/
theorem rowOf_of_apply (A : Spec.Arr2) (f : Fin 8192 → Spec.Row)
    (h : ∀ i, A i = f (Spec.row0 i) (Spec.col1 i)) (n : Fin 8192) : Spec.rowOf A n = f n := by
  funext j
  show A (ix2 n j) = f n j
  rw [h, row0_ix2, col1_ix2]

theorem rowOf_NP (X : Spec.Arr2) (a b : Spec.Arr1) (W : Spec.ArrW) (bias : Spec.Arr1) (n : Fin 8192) :
    Spec.rowOf (Spec.NP X a b W bias) n
      = Spec.proj (Spec.matOf W) (Spec.vecOf bias) (Spec.norm (Spec.vecOf a) (Spec.vecOf b) (Spec.rowOf X n)) :=
  rowOf_of_apply _ (fun n => Spec.proj (Spec.matOf W) (Spec.vecOf bias) (Spec.norm (Spec.vecOf a) (Spec.vecOf b) (Spec.rowOf X n))) (fun _ => rfl) n

theorem rowOf_rNorm (X : (⟨S8192x2048, .f32⟩ : BufTy).Contents (Elt Ideal)) (a b : (⟨S2048, .f32⟩ : BufTy).Contents (Elt Ideal)) (n : Fin 8192) :
    Spec.rowOf (rNorm (F := Ideal) X a b) n = Spec.norm (Spec.vecOf a) (Spec.vecOf b) (Spec.rowOf X n) :=
  rowOf_of_apply _ (fun n => Spec.norm (Spec.vecOf a) (Spec.vecOf b) (Spec.rowOf X n)) (rNorm_apply X a b) n

theorem rowOf_rProj (X : (⟨S8192x2048, .f32⟩ : BufTy).Contents (Elt Ideal)) (W : (⟨S2048x2048, .f32⟩ : BufTy).Contents (Elt Ideal)) (bias : (⟨S2048, .f32⟩ : BufTy).Contents (Elt Ideal)) (n : Fin 8192) :
    Spec.rowOf (rProj (F := Ideal) X W bias) n = Spec.proj (Spec.matOf W) (Spec.vecOf bias) (Spec.rowOf X n) :=
  rowOf_of_apply _ (fun n => Spec.proj (Spec.matOf W) (Spec.vecOf bias) (Spec.rowOf X n)) (rProj_apply X W bias) n

theorem rowOf_rAttn (Q K V : (⟨S8192x2048, .f32⟩ : BufTy).Contents (Elt Ideal)) (n : Fin 8192) :
    Spec.rowOf (rAttn (F := Ideal) Q K V) n = Spec.ctx (Spec.rowOf Q n) (Spec.rowOf K n) (Spec.rowOf V n) :=
  rowOf_of_apply _ (fun n => Spec.ctx (Spec.rowOf Q n) (Spec.rowOf K n) (Spec.rowOf V n)) (rAttn_apply Q K V) n

theorem rowOf_rRelu (X : (⟨S8192x2048, .f32⟩ : BufTy).Contents (Elt Ideal)) (n : Fin 8192) :
    Spec.rowOf (rRelu (F := Ideal) X) n = Spec.relu (Spec.rowOf X n) := by
  funext j
  exact rRelu_apply X (ix2 n j)

/-- A normalised, projected input is the specification's, row by row. -/
theorem rowOf_rProjNorm (X : (⟨S8192x2048, .f32⟩ : BufTy).Contents (Elt Ideal)) (a b : (⟨S2048, .f32⟩ : BufTy).Contents (Elt Ideal)) (W : (⟨S2048x2048, .f32⟩ : BufTy).Contents (Elt Ideal)) (bias : (⟨S2048, .f32⟩ : BufTy).Contents (Elt Ideal)) (n : Fin 8192) :
    Spec.rowOf (rProj (F := Ideal) (rNorm X a b) W bias) n = Spec.rowOf (Spec.NP X a b W bias) n := by
  rw [rowOf_rProj, rowOf_rNorm, rowOf_NP]

/-- The residual stream after attention at an index: the input plus the output projection there. -/
theorem rX1_apply (q k v : (⟨S8192x2048, .f32⟩ : BufTy).Contents (Elt Ideal)) (nq_a nq_b nk_a nk_b nv_a nv_b : (⟨S2048, .f32⟩ : BufTy).Contents (Elt Ideal))
    (Wq : (⟨S2048x2048, .f32⟩ : BufTy).Contents (Elt Ideal)) (bq : (⟨S2048, .f32⟩ : BufTy).Contents (Elt Ideal)) (Wk : (⟨S2048x2048, .f32⟩ : BufTy).Contents (Elt Ideal)) (bk : (⟨S2048, .f32⟩ : BufTy).Contents (Elt Ideal)) (Wv : (⟨S2048x2048, .f32⟩ : BufTy).Contents (Elt Ideal)) (bv : (⟨S2048, .f32⟩ : BufTy).Contents (Elt Ideal)) (Wo : (⟨S2048x2048, .f32⟩ : BufTy).Contents (Elt Ideal)) (bo : (⟨S2048, .f32⟩ : BufTy).Contents (Elt Ideal)) (i : S8192x2048.Idx) :
    rX1 (F := Ideal) q k v nq_a nq_b nk_a nk_b nv_a nv_b Wq bq Wk bk Wv bv Wo bo i
      = (v i : EReal) + (rProj (F := Ideal) (rAttn (rProj (rNorm q nq_a nq_b) Wq bq) (rProj (rNorm k nk_a nk_b) Wk bk) (rProj (rNorm v nv_a nv_b) Wv bv)) Wo bo i : EReal) := rfl

/-- The result at an index: that stream plus the feed-forward network's output there. -/
theorem RG_apply (q k v : (⟨S8192x2048, .f32⟩ : BufTy).Contents (Elt Ideal)) (nq_a nq_b nk_a nk_b nv_a nv_b : (⟨S2048, .f32⟩ : BufTy).Contents (Elt Ideal))
    (Wq : (⟨S2048x2048, .f32⟩ : BufTy).Contents (Elt Ideal)) (bq : (⟨S2048, .f32⟩ : BufTy).Contents (Elt Ideal)) (Wk : (⟨S2048x2048, .f32⟩ : BufTy).Contents (Elt Ideal)) (bk : (⟨S2048, .f32⟩ : BufTy).Contents (Elt Ideal)) (Wv : (⟨S2048x2048, .f32⟩ : BufTy).Contents (Elt Ideal)) (bv : (⟨S2048, .f32⟩ : BufTy).Contents (Elt Ideal)) (Wo : (⟨S2048x2048, .f32⟩ : BufTy).Contents (Elt Ideal)) (bo : (⟨S2048, .f32⟩ : BufTy).Contents (Elt Ideal)) (n2_a n2_b : (⟨S2048, .f32⟩ : BufTy).Contents (Elt Ideal)) (W1 : (⟨S2048x2048, .f32⟩ : BufTy).Contents (Elt Ideal)) (b1 : (⟨S2048, .f32⟩ : BufTy).Contents (Elt Ideal)) (W2 : (⟨S2048x2048, .f32⟩ : BufTy).Contents (Elt Ideal)) (b2 : (⟨S2048, .f32⟩ : BufTy).Contents (Elt Ideal)) (i : S8192x2048.Idx) :
    RG (F := Ideal) q k v nq_a nq_b nk_a nk_b nv_a nv_b n2_a n2_b Wq bq Wk bk Wv bv Wo bo W1 b1 W2 b2 i
      = (rX1 (F := Ideal) q k v nq_a nq_b nk_a nk_b nv_a nv_b Wq bq Wk bk Wv bv Wo bo i : EReal)
        + (rProj (F := Ideal) (rRelu (rProj (rNorm (rX1 q k v nq_a nq_b nk_a nk_b nv_a nv_b Wq bq Wk bk Wv bv Wo bo) n2_a n2_b) W1 b1)) W2 b2 i : EReal) := rfl

/-- The residual stream after attention, row by row: the reference's `v + (c·Wo + bo)` is the
    specification's `(v + c·Wo) + bo`. -/
theorem rowOf_rX1 (q k v : (⟨S8192x2048, .f32⟩ : BufTy).Contents (Elt Ideal)) (nq_a nq_b nk_a nk_b nv_a nv_b : (⟨S2048, .f32⟩ : BufTy).Contents (Elt Ideal))
    (Wq : (⟨S2048x2048, .f32⟩ : BufTy).Contents (Elt Ideal)) (bq : (⟨S2048, .f32⟩ : BufTy).Contents (Elt Ideal)) (Wk : (⟨S2048x2048, .f32⟩ : BufTy).Contents (Elt Ideal)) (bk : (⟨S2048, .f32⟩ : BufTy).Contents (Elt Ideal)) (Wv : (⟨S2048x2048, .f32⟩ : BufTy).Contents (Elt Ideal)) (bv : (⟨S2048, .f32⟩ : BufTy).Contents (Elt Ideal)) (Wo : (⟨S2048x2048, .f32⟩ : BufTy).Contents (Elt Ideal)) (bo : (⟨S2048, .f32⟩ : BufTy).Contents (Elt Ideal)) (n : Fin 8192) :
    Spec.rowOf (rX1 (F := Ideal) q k v nq_a nq_b nk_a nk_b nv_a nv_b Wq bq Wk bk Wv bv Wo bo) n
      = Spec.x1 (Spec.rowOf (Spec.NP q nq_a nq_b Wq bq) n) (Spec.rowOf (Spec.NP k nk_a nk_b Wk bk) n)
          (Spec.rowOf (Spec.NP v nv_a nv_b Wv bv) n) (Spec.rowOf v n) (Spec.matOf Wo) (Spec.vecOf bo) := by
  funext j
  show rX1 (F := Ideal) q k v nq_a nq_b nk_a nk_b nv_a nv_b Wq bq Wk bk Wv bv Wo bo (ix2 n j) = _
  rw [rX1_apply, rProj_apply, row0_ix2, col1_ix2, rowOf_rAttn, rowOf_rProjNorm, rowOf_rProjNorm, rowOf_rProjNorm]
  exact (add_assoc _ _ _).symm

/-- The reference's result is `Spec.G`. -/
theorem RG_eq (q k v : (⟨S8192x2048, .f32⟩ : BufTy).Contents (Elt Ideal)) (nq_a nq_b nk_a nk_b nv_a nv_b n2_a n2_b : (⟨S2048, .f32⟩ : BufTy).Contents (Elt Ideal))
    (Wq : (⟨S2048x2048, .f32⟩ : BufTy).Contents (Elt Ideal)) (bq : (⟨S2048, .f32⟩ : BufTy).Contents (Elt Ideal)) (Wk : (⟨S2048x2048, .f32⟩ : BufTy).Contents (Elt Ideal)) (bk : (⟨S2048, .f32⟩ : BufTy).Contents (Elt Ideal)) (Wv : (⟨S2048x2048, .f32⟩ : BufTy).Contents (Elt Ideal)) (bv : (⟨S2048, .f32⟩ : BufTy).Contents (Elt Ideal)) (Wo : (⟨S2048x2048, .f32⟩ : BufTy).Contents (Elt Ideal)) (bo : (⟨S2048, .f32⟩ : BufTy).Contents (Elt Ideal))
    (W1 : (⟨S2048x2048, .f32⟩ : BufTy).Contents (Elt Ideal)) (b1 : (⟨S2048, .f32⟩ : BufTy).Contents (Elt Ideal)) (W2 : (⟨S2048x2048, .f32⟩ : BufTy).Contents (Elt Ideal)) (b2 : (⟨S2048, .f32⟩ : BufTy).Contents (Elt Ideal)) :
    RG (F := Ideal) q k v nq_a nq_b nk_a nk_b nv_a nv_b n2_a n2_b Wq bq Wk bk Wv bv Wo bo W1 b1 W2 b2
      = Spec.G q k v nq_a nq_b nk_a nk_b nv_a nv_b n2_a n2_b Wq bq Wk bk Wv bv Wo bo W1 b1 W2 b2 := by
  funext i
  have hx : rX1 (F := Ideal) q k v nq_a nq_b nk_a nk_b nv_a nv_b Wq bq Wk bk Wv bv Wo bo i
      = Spec.rowOf (rX1 (F := Ideal) q k v nq_a nq_b nk_a nk_b nv_a nv_b Wq bq Wk bk Wv bv Wo bo) (Spec.row0 i) (Spec.col1 i) := by
    show _ = rX1 (F := Ideal) q k v nq_a nq_b nk_a nk_b nv_a nv_b Wq bq Wk bk Wv bv Wo bo (ix2 (Spec.row0 i) (Spec.col1 i))
    rw [ix2_row0_col1]
  rw [RG_apply, rProj_apply, rowOf_rRelu, rowOf_rProj, rowOf_rNorm, hx, rowOf_rX1]
  exact (add_assoc _ _ _).symm

end Cert.ReferenceIdeal.Val

end
-- ==== Proof.lean ====
/-
  A transformer block on [8192, 2048] activations — three pre-norm + linear projections, a per-token
  attention over 16 heads of width 128, an output projection with a residual, a second pre-norm and a
  two-layer ReLU network with a second residual — computed by four Pallas kernels (the kernel program)
  and by plain array operations (the reference), equal over the extended reals.

  Both programs are read back as ONE function `Spec.G` of the argument arrays (Proof/Spec.lean).
  The kernel program: each region's output array is a whole-array function of the arrays the region
  finds (Proof/KReg0 … KReg3, over the body read at an index in Proof/KAttn, Proof/KFfn), and the
  regions are chained through the buffers they leave alone (Proof/KKeep, Proof/KPlumb) under the run
  of the whole program (Proof/KRun).  The reference: its run (Proof/RRun) ends at the composition of
  its host operations (Proof/RTerm), which is `Spec.G` row by row (Proof/RNorm, Proof/RAttn,
  Proof/RValue).  Where the two differ it is by exact identities only: the unbiased variance's
  division by 2047 against a product with 1/2047, the scores' division by the f32 nearest to sqrt 128
  against a product with its exact reciprocal (the two named constants), a maximum with minus
  infinity, the order of the two factors under the context's sum, and the association of the two
  residual additions.  No step needs the inputs to be finite.
-/
import proofs.«414706_j8890582303248_3_alg».proof.Defs
import proofs.«414706_j8890582303248_3_alg».proof.Proof.Gen.Kernel
import proofs.«414706_j8890582303248_3_alg».proof.Proof.Gen.Kernel.Frame
import proofs.«414706_j8890582303248_3_alg».proof.Proof.Gen.KernelIdeal
import proofs.«414706_j8890582303248_3_alg».proof.Proof.Gen.KernelIdeal.Frame
import proofs.«414706_j8890582303248_3_alg».proof.Proof.Gen.ReferenceIdeal
import proofs.«414706_j8890582303248_3_alg».proof.Proof.Gen.Pre_finite_inputs
import proofs.«414706_j8890582303248_3_alg».proof.Proof.KRun
import proofs.«414706_j8890582303248_3_alg».proof.Proof.KPlumb
import proofs.«414706_j8890582303248_3_alg».proof.Proof.RRun
import proofs.«414706_j8890582303248_3_alg».proof.Proof.RValue
import Idealize.ShloMosaic.Adequacy
import Idealize.ShloMosaic.Init

set_option maxRecDepth 16384

noncomputable section

namespace Cert.Proof

open Idealize.ShloMosaic Idealize.SL.Sem

/-- The three frames: the two kernel programs by their frame certificates, the reference by its run
    with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Val.run (F := Ideal) m ρ)

/-- The idealization names two constants, 1/2047 at four sites and the reciprocal of the scores'
    divisor at one: each printed word is that value over the extended reals. -/
theorem preserves : Cert.preserves_Kernel_KernelIdeal :=
  ⟨IdealRules.named_const.statement Cert.KernelIdeal.κ "inv_2047" .f32 0x3A001002#32 ((1 / 2047 : ℝ) : EReal) rfl,
   IdealRules.named_const.statement Cert.KernelIdeal.κ "inv_2047" .f32 0x3A001002#32 ((1 / 2047 : ℝ) : EReal) rfl,
   IdealRules.named_const.statement Cert.KernelIdeal.κ "inv_2047" .f32 0x3A001002#32 ((1 / 2047 : ℝ) : EReal) rfl,
   IdealRules.named_const.statement Cert.KernelIdeal.κ "inv_sqrt_dk" .f32 0x3DB504F3#32 ((1048576 / 11863283 : ℝ) : EReal) rfl,
   IdealRules.named_const.statement Cert.KernelIdeal.κ "inv_2047" .f32 0x3A001002#32 ((1 / 2047 : ℝ) : EReal) rfl⟩

/-- Both programs, run from memories agreeing on the arguments, end with the result array at `Spec.G`
    of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Val.W5_v9 m ρ c), (h c).2⟩) (Cert.KernelIdeal.Val.run_val m ρ)
  · refine (θ_run Cert.ReferenceIdeal.defs _ _).mono (fun r h c => ⟨(h c).1.trans ?_, (h c).2⟩)
      (Cert.ReferenceIdeal.Val.run (F := Ideal) m' ρ')
    obtain ⟨h0, h1, h2, h3, h4, h5, h6, h7, h8, h9, h10, h11, h12, h13, h14, h15, h16, h17, h18, h19, h20, h21, h22⟩ := hagree c
    rw [Cert.ReferenceIdeal.Val.RG_eq, h0, h1, h2, h3, h4, h5, h6, h7, h8, h9, h10, h11, h12, h13, h14, h15, h16, h17, h18, h19, h20, h21, h22]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
